-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S160000x256 : Shape := ⟨2, ![160000, 256]⟩
abbrev S768x512 : Shape := ⟨2, ![768, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256 .f32) (main_arg14 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S512x512 .f32) (main_arg10 : FVec F S512 .f32) (main_arg11 : FVec F S512x256 .f32) (main_arg12 : FVec F S256 .f32) (main_arg13 : FVec F S256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg12 main_arg13 main_arg14 main_v48 main_v49 main_v50

def fn_part1 {F : FTy → Type} [FloatOps F] (main_arg5 : FVec F S512x256 .f32) (main_arg6 : FVec F S256 .f32) (main_arg7 : FVec F S256 .f32) (main_arg8 : FVec F S256 .f32) (main_arg9 : FVec F S512x512 .f32) (main_arg10 : FVec F S512 .f32) (main_arg11 : FVec F S512x256 .f32) (main_arg12 : FVec F S256 .f32) (main_arg13 : FVec F S256 .f32) (main_arg14 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S10000x256 .f32) (main_arg1 : IVec S2x160000 32) (main_arg2 : FVec F S160000x256 .f32) (main_arg3 : FVec F S768x512 .f32) (main_arg4 : FVec F S512 .f32) (main_arg5 : FVec F S512x256 .f32) (main_arg6 : FVec F S256 .f32) (main_arg7 : FVec F S256 .f32) (main_arg8 : FVec F S256 .f32) (main_arg9 : FVec F S512x512 .f32) (main_arg10 : FVec F S512 .f32) (main_arg11 : FVec F S512x256 .f32) (main_arg12 : FVec F S256 .f32) (main_arg13 : FVec F S256 .f32) (main_arg14 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x256 .f32 := Host.absf main_arg2
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S768x512 .f32 := Host.absf main_arg3
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_v13 main_v16
-- ==== Kernel.lean ====
abbrev S10000x256 : Shape := ⟨2, ![10000, 256]⟩
abbrev S2x160000 : Shape := ⟨2, ![2, 160000]⟩
abbrev S160000x256 : Shape := ⟨2, ![160000, 256]⟩
abbrev S768x512 : Shape := ⟨2, ![768, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1x512 : Shape := ⟨2, ![1, 512]⟩
abbrev S1x256 : Shape := ⟨2, ![1, 256]⟩
abbrev S1600x256 : Shape := ⟨2, ![1600, 256]⟩
abbrev S1600x768 : Shape := ⟨2, ![1600, 768]⟩
abbrev S1600x512 : Shape := ⟨2, ![1600, 512]⟩
abbrev S1600 : Shape := ⟨1, ![1600]⟩
abbrev S1600x1 : Shape := ⟨2, ![1600, 1]⟩
abbrev S2000x256 : Shape := ⟨2, ![2000, 256]⟩
abbrev S2000x512 : Shape := ⟨2, ![2000, 512]⟩
abbrev S2000 : Shape := ⟨1, ![2000]⟩
abbrev S2000x1 : Shape := ⟨2, ![2000, 1]⟩

abbrev nBuf : Space → Nat
  | .hbm => 51
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x256, .f32⟩
  | .hbm, ⟨3, _⟩ => ⟨S768x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x256, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S160000x256, .f32⟩
  | .hbm, ⟨37, _⟩ => ⟨S1x512, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S160000x256, .f32⟩
  | .hbm, ⟨42, _⟩ => ⟨S_, .f32⟩
  | .hbm, ⟨43, _⟩ => ⟨S10000x256, .f32⟩
  | .hbm, ⟨44, _⟩ => ⟨S160000x1, .i32⟩
  | .hbm, ⟨45, _⟩ => ⟨S10000x256, .f32⟩
  | .hbm, ⟨46, _⟩ => ⟨S1x512, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S10000x256, .f32⟩
  | .local _ .vmem, ⟨0, _⟩ => ⟨S1600x256, .f32⟩
  | .local _ .vmem, ⟨1, _⟩ => ⟨S1600x256, .f32⟩
  | .local _ .vmem, ⟨2, _⟩ => ⟨S1600x256, .f32⟩
  | .local _ .vmem, ⟨3, _⟩ => ⟨S1600x256, .f32⟩
  | .local _ .vmem, ⟨4, _⟩ => ⟨S1600x256, .f32⟩
  | .local _ .vmem, ⟨5, _⟩ => ⟨S1600x256, .f32⟩
  | .local _ .vmem, ⟨6, _⟩ => ⟨S768x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1600x256, .f32⟩
  | .local _ .vmem, ⟨13, _⟩ => ⟨S1600x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S512x512, .f32⟩
  | .local _ .vmem, ⟨19, _⟩ => ⟨S1x512, .f32⟩
  | .local _ .vmem, ⟨20, _⟩ => ⟨S512x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1600x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  shapeCasts_S512_S1x512 : S512.ShapeCasts S1x512
  shapeCasts_S256_S1x256 : S256.ShapeCasts S1x256
  inb_S1600x256_S1600x256_0_0 : ∀ a, (![0, 0] : Fin 2 → Nat) a + S1600x256.size a ≤ S1600x256.size a
  h_S1600x256 : 0 < S1600x256.numel
  shapeCasts_S1600x256_S1600x256 : S1600x256.ShapeCasts S1600x256
  concatenates_S1600x256_S1600x256_S1600x256_S1600x768_d1 : Shape.Concatenates [S1600x256, S1600x256, S1600x256] S1600x768 1
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1600x512 : S1x512.Broadcasts S1600x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1600x256 : S1x256.Broadcasts S1600x256
  reduces_S1600x256_S1600 : S1600x256.Reduces [1] S1600
  shapeCasts_S1600_S1600x1 : S1600.ShapeCasts S1600x1
  broadcasts_S1600x1_S1600x256 : S1600x1.Broadcasts S1600x256
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x256_S2000x256_S2000x512_d1 : Shape.Concatenates [S2000x256, S2000x256] S2000x512 1
  inb_S512x512_S512x512_0_0 : ∀ a, (![0, 0] : Fin 2 → Nat) a + S512x512.size a ≤ S512x512.size a
  h_S512x512 : 0 < S512x512.numel
  broadcasts_S1x512_S2000x512 : S1x512.Broadcasts S2000x512
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S10000x256_S160000x1_S160000x256_1_0_n_n_0_1_1256_wf : GatherDims.WF S10000x256 S160000x1 S160000x256 [1] [0] [] [0] [] 1 ![1, 256]
  dot_S1600x768_S768x512_S1600x512_1_0_0_1_n_n_wf : DotDims.WF S1600x768 S768x512 S1600x512 [1] [0] [0] [1] [] []
  dot_S1600x512_S512x256_S1600x256_1_0_0_1_n_n_wf : DotDims.WF S1600x512 S512x256 S1600x256 [1] [0] [0] [1] [] []
  scatter_S10000x256_S160000x1_S160000x256_1_0_0_1_wf : ScatterDims.WF S10000x256 S160000x1 S160000x256 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x256.size a ≤ S160000x256.size a
  hwx0_0 : ∀ i : grid0.Coords, EltTy.bits .f32 = 32 ∨ (Rect.block (s := S160000x256) S1600x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x256.size a ≤ S160000x256.size a
  hwx0_1 : ∀ i : grid0.Coords, EltTy.bits .f32 = 32 ∨ (Rect.block (s := S160000x256) S1600x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x256.size a ≤ S160000x256.size a
  hwx0_2 : ∀ i : grid0.Coords, EltTy.bits .f32 = 32 ∨ (Rect.block (s := S160000x256) S1600x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x256.size a ≤ S160000x256.size a
  hwx0_9 : ∀ i : grid0.Coords, EltTy.bits .f32 = 32 ∨ (Rect.block (s := S160000x256) S1600x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S10000x256.size a
  hwx1_8 : ∀ i : grid1.Coords, EltTy.bits .f32 = 32 ∨ (Rect.block (s := S10000x256) S2000x256.size (cc1_transform_8 i) (hinb1_8 i)).WholeWords (EltTy.packing .f32)

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S1600x768_S768x512_S1600x512_1_0_0_1_n_n : DotDims S1600x768 S768x512 S1600x512 where
  lhsContracting := [1]
  rhsContracting := [0]
  lhsNonContracting := [0]
  rhsNonContracting := [1]
  lhsBatch := []
  rhsBatch := []
  wf := dot_S1600x768_S768x512_S1600x512_1_0_0_1_n_n_wf
def dot_S1600x512_S512x256_S1600x256_1_0_0_1_n_n : DotDims S1600x512 S512x256 S1600x256 where
  lhsContracting := [1]
  rhsContracting := [0]
  lhsNonContracting := [0]
  rhsNonContracting := [1]
  lhsBatch := []
  rhsBatch := []
  wf := dot_S1600x512_S512x256_S1600x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v10) S1600x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1600x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1600x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1600x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S160000x256 : Shape := ⟨2, ![160000, 256]⟩
abbrev S768x512 : Shape := ⟨2, ![768, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x768 : Shape := ⟨2, ![160000, 768]⟩
abbrev S160000x512 : Shape := ⟨2, ![160000, 512]⟩
abbrev S1x512 : Shape := ⟨2, ![1, 512]⟩
abbrev S1x256 : Shape := ⟨2, ![1, 256]⟩
abbrev S10000x512 : Shape := ⟨2, ![10000, 512]⟩
abbrev S10000 : Shape := ⟨1, ![10000]⟩
abbrev S10000x1 : Shape := ⟨2, ![10000, 1]⟩

abbrev nBuf : Space → Nat
  | .hbm => 155
  | .vmem => 0
  | .smem => 0
  | _ => 0

abbrev hbmTy0_0 (i : Nat) : BufTy := match i % 128 with
  | 0 => ⟨S10000x256, .f32⟩
  | 1 => ⟨S2x160000, .i32⟩
  | 2 => ⟨S160000x256, .f32⟩
  | 3 => ⟨S768x512, .f32⟩
  | 4 => ⟨S512, .f32⟩
  | 5 => ⟨S512x256, .f32⟩
  | 6 => ⟨S256, .f32⟩
  | 7 => ⟨S256, .f32⟩
  | 8 => ⟨S256, .f32⟩
  | 9 => ⟨S512x512, .f32⟩
  | 10 => ⟨S512, .f32⟩
  | 11 => ⟨S512x256, .f32⟩
  | 12 => ⟨S256, .f32⟩
  | 13 => ⟨S256, .f32⟩
  | 14 => ⟨S256, .f32⟩
  | 15 => ⟨S1x160000, .i32⟩
  | 16 => ⟨S160000, .i32⟩
  | 17 => ⟨S1x160000, .i32⟩
  | 18 => ⟨S160000, .i32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x256, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x256, .f32⟩
  | 37 => ⟨S160000x768, .f32⟩
  | 38 => ⟨S160000x512, .f32⟩
  | 39 => ⟨S1x512, .f32⟩
  | 40 => ⟨S160000x512, .f32⟩
  | 41 => ⟨S160000x512, .f32⟩
  | 42 => ⟨S_, .f32⟩
  | 43 => ⟨S160000x512, .f32⟩
  | 44 => ⟨S160000x512, .f32⟩
  | 45 => ⟨S160000x256, .f32⟩
  | 46 => ⟨S1x256, .f32⟩
  | 47 => ⟨S160000x256, .f32⟩
  | 48 => ⟨S160000x256, .f32⟩
  | 49 => ⟨S_, .f32⟩
  | 50 => ⟨S160000, .f32⟩
  | 51 => ⟨S160000x1, .f32⟩
  | 52 => ⟨S_, .f32⟩
  | 53 => ⟨S160000x1, .f32⟩
  | 54 => ⟨S160000x1, .f32⟩
  | 55 => ⟨S_, .i32⟩
  | 56 => ⟨S_, .f32⟩
  | 57 => ⟨S160000, .f32⟩
  | 58 => ⟨S160000x1, .f32⟩
  | 59 => ⟨S_, .f32⟩
  | 60 => ⟨S160000x1, .f32⟩
  | 61 => ⟨S160000x1, .f32⟩
  | 62 => ⟨S160000x256, .f32⟩
  | 63 => ⟨S160000x256, .f32⟩
  | 64 => ⟨S160000x256, .f32⟩
  | 65 => ⟨S_, .f32⟩
  | 66 => ⟨S_, .f32⟩
  | 67 => ⟨S_, .f32⟩
  | 68 => ⟨S_, .f32⟩
  | 69 => ⟨S160000, .f32⟩
  | 70 => ⟨S160000x1, .f32⟩
  | 71 => ⟨S160000x1, .f32⟩
  | 72 => ⟨S160000x1, .f32⟩
  | 73 => ⟨S_, .f32⟩
  | 74 => ⟨S_, .i1⟩
  | 75 => ⟨S_, .f32⟩
  | 76 => ⟨S_, .f32⟩
  | 77 => ⟨S160000x1, .f32⟩
  | 78 => ⟨S160000x1, .f32⟩
  | 79 => ⟨S160000x256, .f32⟩
  | 80 => ⟨S160000x256, .f32⟩
  | 81 => ⟨S_, .f32⟩
  | 82 => ⟨S160000x1, .f32⟩
  | 83 => ⟨S160000x1, .f32⟩
  | 84 => ⟨S160000x1, .f32⟩
  | 85 => ⟨S160000x256, .f32⟩
  | 86 => ⟨S160000x256, .f32⟩
  | 87 => ⟨S1x256, .f32⟩
  | 88 => ⟨S160000x256, .f32⟩
  | 89 => ⟨S160000x256, .f32⟩
  | 90 => ⟨S1x256, .f32⟩
  | 91 => ⟨S160000x256, .f32⟩
  | 92 => ⟨S160000x256, .f32⟩
  | 93 => ⟨S160000x256, .f32⟩
  | 94 => ⟨S_, .f32⟩
  | 95 => ⟨S10000x256, .f32⟩
  | 96 => ⟨S160000x1, .i32⟩
  | 97 => ⟨S10000x256, .f32⟩
  | 98 => ⟨S10000x512, .f32⟩
  | 99 => ⟨S10000x512, .f32⟩
  | 100 => ⟨S1x512, .f32⟩
  | 101 => ⟨S10000x512, .f32⟩
  | 102 => ⟨S10000x512, .f32⟩
  | 103 => ⟨S_, .f32⟩
  | 104 => ⟨S10000x512, .f32⟩
  | 105 => ⟨S10000x512, .f32⟩
  | 106 => ⟨S10000x256, .f32⟩
  | 107 => ⟨S1x256, .f32⟩
  | 108 => ⟨S10000x256, .f32⟩
  | 109 => ⟨S10000x256, .f32⟩
  | 110 => ⟨S_, .f32⟩
  | 111 => ⟨S10000, .f32⟩
  | 112 => ⟨S10000x1, .f32⟩
  | 113 => ⟨S_, .f32⟩
  | 114 => ⟨S10000x1, .f32⟩
  | 115 => ⟨S10000x1, .f32⟩
  | 116 => ⟨S_, .i32⟩
  | 117 => ⟨S_, .f32⟩
  | 118 => ⟨S10000, .f32⟩
  | 119 => ⟨S10000x1, .f32⟩
  | 120 => ⟨S_, .f32⟩
  | 121 => ⟨S10000x1, .f32⟩
  | 122 => ⟨S10000x1, .f32⟩
  | 123 => ⟨S10000x256, .f32⟩
  | 124 => ⟨S10000x256, .f32⟩
  | 125 => ⟨S10000x256, .f32⟩
  | 126 => ⟨S_, .f32⟩
  | 127 => ⟨S_, .f32⟩
  | _ => ⟨S10000x256, .f32⟩

abbrev hbmTy0_1 (i : Nat) : BufTy := match i % 128 with
  | 0 => ⟨S_, .f32⟩
  | 1 => ⟨S_, .f32⟩
  | 2 => ⟨S10000, .f32⟩
  | 3 => ⟨S10000x1, .f32⟩
  | 4 => ⟨S10000x1, .f32⟩
  | 5 => ⟨S10000x1, .f32⟩
  | 6 => ⟨S_, .f32⟩
  | 7 => ⟨S_, .i1⟩
  | 8 => ⟨S_, .f32⟩
  | 9 => ⟨S_, .f32⟩
  | 10 => ⟨S10000x1, .f32⟩
  | 11 => ⟨S10000x1, .f32⟩
  | 12 => ⟨S10000x256, .f32⟩
  | 13 => ⟨S10000x256, .f32⟩
  | 14 => ⟨S_, .f32⟩
  | 15 => ⟨S10000x1, .f32⟩
  | 16 => ⟨S10000x1, .f32⟩
  | 17 => ⟨S10000x1, .f32⟩
  | 18 => ⟨S10000x256, .f32⟩
  | 19 => ⟨S10000x256, .f32⟩
  | 20 => ⟨S1x256, .f32⟩
  | 21 => ⟨S10000x256, .f32⟩
  | 22 => ⟨S10000x256, .f32⟩
  | 23 => ⟨S1x256, .f32⟩
  | 24 => ⟨S10000x256, .f32⟩
  | 25 => ⟨S10000x256, .f32⟩
  | 26 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_cst_3 : Ref sig .tc := ⟨.hbm, 73, rfl⟩
abbrev main_call1_v13 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_6 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call2_cst : Ref sig .tc := ⟨.hbm, 103, rfl⟩
abbrev main_call2_v0 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_7 : Ref sig .tc := ⟨.hbm, 110, rfl⟩
abbrev main_v60 : Ref sig .tc := ⟨.hbm, 111, rfl⟩
abbrev main_v61 : Ref sig .tc := ⟨.hbm, 112, rfl⟩
abbrev main_cst_8 : Ref sig .tc := ⟨.hbm, 113, rfl⟩
abbrev main_v62 : Ref sig .tc := ⟨.hbm, 114, rfl⟩
abbrev main_v63 : Ref sig .tc := ⟨.hbm, 115, rfl⟩
abbrev main_c_9 : Ref sig .tc := ⟨.hbm, 116, rfl⟩
abbrev main_call3_cst : Ref sig .tc := ⟨.hbm, 117, rfl⟩
abbrev main_call3_v0 : Ref sig .tc := ⟨.hbm, 118, rfl⟩
abbrev main_call3_v1 : Ref sig .tc := ⟨.hbm, 119, rfl⟩
abbrev main_call3_cst_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_v7 : Ref sig .tc := ⟨.hbm, 126, rfl⟩
abbrev main_call3_cst_1 : Ref sig .tc := ⟨.hbm, 127, rfl⟩
abbrev main_call3_v8 : Ref sig .tc := ⟨.hbm, 128, rfl⟩
abbrev main_call3_cst_2 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_cst_3 : Ref sig .tc := ⟨.hbm, 134, rfl⟩
abbrev main_call3_v13 : Ref sig .tc := ⟨.hbm, 135, rfl⟩
abbrev main_call3_cst_4 : Ref sig .tc := ⟨.hbm, 136, rfl⟩
abbrev main_call3_call0_v0 : Ref sig .tc := ⟨.hbm, 137, rfl⟩
abbrev main_call3_call0_v1 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_10 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x256_S160000x256_S160000x256_S160000x768_d1 : Shape.Concatenates [S160000x256, S160000x256, S160000x256] S160000x768 1
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  reducesTo_S160000x256_S160000_d1 : S160000x256.ReducesTo [1] S160000
  h_S_ : 0 < S_.numel
  bcast_S_S160000x1 : S_.BroadcastsInDim S160000x1 (![] : Fin 0 → Fin S160000x1.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1x256_S10000x256_0_1 : S1x256.BroadcastsInDim S10000x256 (![0, 1] : Fin 2 → Fin S10000x256.rank)
  reducesTo_S10000x256_S10000_d1 : S10000x256.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  gather_S10000x256_S160000x1_S160000x256_1_0_n_n_0_1_1256_wf : GatherDims.WF S10000x256 S160000x1 S160000x256 [1] [0] [] [0] [] 1 ![1, 256]
  dot_S160000x768_S768x512_S160000x512_1_0_0_1_n_n_wf : DotDims.WF S160000x768 S768x512 S160000x512 [1] [0] [0] [1] [] []
  dot_S160000x512_S512x256_S160000x256_1_0_0_1_n_n_wf : DotDims.WF S160000x512 S512x256 S160000x256 [1] [0] [0] [1] [] []
  scatter_S10000x256_S160000x1_S160000x256_1_0_0_1_wf : ScatterDims.WF S10000x256 S160000x1 S160000x256 [1] [0] [0] 1
  dot_S10000x512_S512x512_S10000x512_1_0_0_1_n_n_wf : DotDims.WF S10000x512 S512x512 S10000x512 [1] [0] [0] [1] [] []
  dot_S10000x512_S512x256_S10000x256_1_0_0_1_n_n_wf : DotDims.WF S10000x512 S512x256 S10000x256 [1] [0] [0] [1] [] []

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x768_S768x512_S160000x512_1_0_0_1_n_n : DotDims S160000x768 S768x512 S160000x512 where
  lhsContracting := [1]
  rhsContracting := [0]
  lhsNonContracting := [0]
  rhsNonContracting := [1]
  lhsBatch := []
  rhsBatch := []
  wf := dot_S160000x768_S768x512_S160000x512_1_0_0_1_n_n_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  The mathematics both programs compute, one row at a time, on the extended reals.

  A row `h` of `K` features goes through a dense layer with a rectifier (`hid`), a second dense layer (`mlp`), and a
  layer normalisation over the `D` outputs (`mean`, `ctr`, `var`, `ln`: the mean and the variance are sums divided by the
  literal 256, the variance is shifted by the literal 1e-5 before the reciprocal square root, then scale and shift), and is
  added to a residual row. An array is updated row by row (`layer`): the edge update reads the row of three arrays laid
  side by side (`cat3`), the node update the row of two (`cat2`).
-/
import Idealize.ShloMosaic.PureOps.Ideal
import Idealize.ShloMosaic.Lib.ValueIdx

noncomputable section

open scoped BigOperators

namespace Cert.Spec

open Idealize.ShloMosaic Idealize.ShloMosaic.ValueIdx

/-- The f32 literal 256.0. -/
abbrev c256 : EReal := Ideal.ofBits .f32 0x43800000#32
/-- The f32 literal nearest 1e-5. -/
abbrev ceps : EReal := Ideal.ofBits .f32 0x3727C5AC#32

variable {K H D : ℕ}

/-- Three rows of 256 laid side by side. -/
def cat3 (a b c : Fin 256 → EReal) : Fin 768 → EReal := fun j =>
  if h : j.val < 256 then a ⟨j.val, h⟩
  else if h2 : j.val < 512 then b ⟨j.val - 256, by omega⟩
  else c ⟨j.val - 512, by omega⟩

/-- Two rows of 256 laid side by side. -/
def cat2 (a b : Fin 256 → EReal) : Fin 512 → EReal := fun j =>
  if h : j.val < 256 then a ⟨j.val, h⟩ else b ⟨j.val - 256, by omega⟩

/-- Hidden unit `k`: the rectified affine image of the row. -/
def hid (h : Fin K → EReal) (w1 : Fin K → Fin H → EReal) (b1 : Fin H → EReal) (k : Fin H) : EReal :=
  max (∑ j : Fin K, h j * w1 j k + b1 k) 0

/-- Output `d` of the two-layer perceptron. -/
def mlp (h : Fin K → EReal) (w1 : Fin K → Fin H → EReal) (b1 : Fin H → EReal) (w2 : Fin H → Fin D → EReal)
    (b2 : Fin D → EReal) (d : Fin D) : EReal :=
  ∑ k : Fin H, hid h w1 b1 k * w2 k d + b2 d

/-- The row's mean: its sum over the literal 256. -/
def mean (y : Fin D → EReal) : EReal := Ideal.div (∑ d : Fin D, y d) c256

/-- The row centred at its mean. -/
def ctr (y : Fin D → EReal) (d : Fin D) : EReal := y d - mean y

/-- The row's variance: the sum of the centred squares over the literal 256. -/
def var (y : Fin D → EReal) : EReal := Ideal.div (∑ d : Fin D, ctr y d * ctr y d) c256

/-- Layer normalisation of the row, scaled by `g` and shifted by `β`. -/
def ln (y g β : Fin D → EReal) (d : Fin D) : EReal :=
  ctr y d * Ideal.rsqrt (var y + ceps) * g d + β d

/-- Row `r` of a two-axis array. -/
def row {R C : ℕ} (x : (⟨2, ![R, C]⟩ : Shape).Idx → EReal) (r : Fin R) : Fin C → EReal := fun d => x (ix2 r d)
/-- A two-axis array as a matrix. -/
def mat {A B : ℕ} (x : (⟨2, ![A, B]⟩ : Shape).Idx → EReal) : Fin A → Fin B → EReal := fun a b => x (ix2 a b)
/-- A one-axis array as a vector. -/
def vec {A : ℕ} (x : (⟨1, ![A]⟩ : Shape).Idx → EReal) : Fin A → EReal := fun a => x (ix1 a)
/-- The one row of a `[1, B]` array. -/
def row1 {B : ℕ} (x : (⟨2, ![1, B]⟩ : Shape).Idx → EReal) : Fin B → EReal := fun b => x (ix2 (0 : Fin 1) b)

/-- The row-wise update of an array: the residual plus the normalised perceptron of each row's features. -/
def layer {R : ℕ} (res : (⟨2, ![R, D]⟩ : Shape).Idx → EReal) (feat : Fin R → Fin K → EReal)
    (w1 : Fin K → Fin H → EReal) (b1 : Fin H → EReal) (w2 : Fin H → Fin D → EReal) (b2 g β : Fin D → EReal) :
    (⟨2, ![R, D]⟩ : Shape).Idx → EReal :=
  fun i => res i + ln (mlp (feat (i 0)) w1 b1 w2 b2) g β (i 1)

/-- The edge update: each edge's row from its two endpoint rows and its own, added to its own. -/
def edgeG {R : ℕ} (xi xj ea : (⟨2, ![R, 256]⟩ : Shape).Idx → EReal)
    (w1 : Fin 768 → Fin 512 → EReal) (b1 : Fin 512 → EReal) (w2 : Fin 512 → Fin 256 → EReal) (b2 g β : Fin 256 → EReal) :
    (⟨2, ![R, 256]⟩ : Shape).Idx → EReal :=
  layer ea (fun r => cat3 (row xi r) (row xj r) (row ea r)) w1 b1 w2 b2 g β

/-- The node update: each node's row from its own and its aggregate's, added to its own. -/
def nodeG {R : ℕ} (x agg : (⟨2, ![R, 256]⟩ : Shape).Idx → EReal)
    (w1 : Fin 512 → Fin 512 → EReal) (b1 : Fin 512 → EReal) (w2 : Fin 512 → Fin 256 → EReal) (b2 g β : Fin 256 → EReal) :
    (⟨2, ![R, 256]⟩ : Shape).Idx → EReal :=
  layer x (fun r => cat2 (row x r) (row agg r)) w1 b1 w2 b2 g β

end Cert.Spec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibKernelRows.lean ====
/-
  Row-wise readings, on the extended reals, of the vector operations in which a dense layer followed by a layer
  normalisation is printed: pieces of 256 columns laid side by side read as the concatenated row; a matrix product of
  any operand formats into zeros read as a sum over the shared axis; a lane sum kept as a column; the mean, the centred
  row, the shifted variance and the normalised row of a block, each read at one entry as the row-wise specification.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«133940_j14731737825432_1_alg».proof.Proof.Spec
import proofs.«133940_j14731737825432_1_alg».proof.Proof.LibPlainDot

noncomputable section

open scoped BigOperators

namespace Cert.LibKernelRows

open Idealize.ShloMosaic Idealize.ShloMosaic.ValueIdx Cert.Spec

/-! ## Pieces side by side -/

/-- Three blocks of 256 columns laid side by side along the columns read, at row r, as the three rows side by side. -/
theorem concat3_apply {R : ℕ} (a b c : (⟨2, ![R, 256]⟩ : Shape).Idx → EReal)
    (h : Shape.Concatenates [(⟨2, ![R, 256]⟩ : Shape), ⟨2, ![R, 256]⟩, ⟨2, ![R, 256]⟩] ⟨2, ![R, 768]⟩ 1)
    (r : Fin R) (j : Fin 768) :
    concatenate (⟨2, ![R, 768]⟩ : Shape) 1 [⟨⟨2, ![R, 256]⟩, a⟩, ⟨⟨2, ![R, 256]⟩, b⟩, ⟨⟨2, ![R, 256]⟩, c⟩] h (ix2 r j)
      = cat3 (row a r) (row b r) (row c r) j := by
  unfold cat3 row
  by_cases h1 : j.val < 256
  · rw [dif_pos h1]
    exact concatenate_apply_piece (t := ⟨2, ![R, 768]⟩) (1 : Fin 2) [⟨⟨2, ![R, 256]⟩, a⟩, ⟨⟨2, ![R, 256]⟩, b⟩, ⟨⟨2, ![R, 256]⟩, c⟩] h (ix2 r j) 0 (by show (0 : ℕ) < 3; omega) ⟨2, ![R, 256]⟩ a rfl rfl 0 rfl
      (ix2 r ⟨j.val, h1⟩) (fun bx hb => by
        match bx with
        | ⟨0, _⟩ => rfl
        | ⟨1, _⟩ => exact absurd rfl hb) (Nat.zero_add _)
  · rw [dif_neg h1]
    by_cases h2 : j.val < 512
    · rw [dif_pos h2]
      exact concatenate_apply_piece (t := ⟨2, ![R, 768]⟩) (1 : Fin 2) [⟨⟨2, ![R, 256]⟩, a⟩, ⟨⟨2, ![R, 256]⟩, b⟩, ⟨⟨2, ![R, 256]⟩, c⟩] h (ix2 r j) 1 (by show (1 : ℕ) < 3; omega) ⟨2, ![R, 256]⟩ b rfl rfl 256 rfl
        (ix2 r ⟨j.val - 256, by omega⟩) (fun bx hb => by
          match bx with
          | ⟨0, _⟩ => rfl
          | ⟨1, _⟩ => exact absurd rfl hb) (by show 256 + (j.val - 256) = j.val; omega)
    · rw [dif_neg h2]
      exact concatenate_apply_piece (t := ⟨2, ![R, 768]⟩) (1 : Fin 2) [⟨⟨2, ![R, 256]⟩, a⟩, ⟨⟨2, ![R, 256]⟩, b⟩, ⟨⟨2, ![R, 256]⟩, c⟩] h (ix2 r j) 2 (by show (2 : ℕ) < 3; omega) ⟨2, ![R, 256]⟩ c rfl rfl 512 rfl
        (ix2 r ⟨j.val - 512, by have := j.isLt; omega⟩) (fun bx hb => by
          match bx with
          | ⟨0, _⟩ => rfl
          | ⟨1, _⟩ => exact absurd rfl hb) (by show 512 + (j.val - 512) = j.val; omega)

/-- Two blocks of 256 columns laid side by side along the columns read, at row r, as the two rows side by side. -/
theorem concat2_apply {R : ℕ} (a b : (⟨2, ![R, 256]⟩ : Shape).Idx → EReal)
    (h : Shape.Concatenates [(⟨2, ![R, 256]⟩ : Shape), ⟨2, ![R, 256]⟩] ⟨2, ![R, 512]⟩ 1)
    (r : Fin R) (j : Fin 512) :
    concatenate (⟨2, ![R, 512]⟩ : Shape) 1 [⟨⟨2, ![R, 256]⟩, a⟩, ⟨⟨2, ![R, 256]⟩, b⟩] h (ix2 r j)
      = cat2 (row a r) (row b r) j := by
  unfold cat2 row
  by_cases h1 : j.val < 256
  · rw [dif_pos h1]
    exact concatenate_apply_piece (t := ⟨2, ![R, 512]⟩) (1 : Fin 2) [⟨⟨2, ![R, 256]⟩, a⟩, ⟨⟨2, ![R, 256]⟩, b⟩] h (ix2 r j) 0 (by show (0 : ℕ) < 2; omega) ⟨2, ![R, 256]⟩ a rfl rfl 0 rfl
      (ix2 r ⟨j.val, h1⟩) (fun bx hb => by
        match bx with
        | ⟨0, _⟩ => rfl
        | ⟨1, _⟩ => exact absurd rfl hb) (Nat.zero_add _)
  · rw [dif_neg h1]
    exact concatenate_apply_piece (t := ⟨2, ![R, 512]⟩) (1 : Fin 2) [⟨⟨2, ![R, 256]⟩, a⟩, ⟨⟨2, ![R, 256]⟩, b⟩] h (ix2 r j) 1 (by show (1 : ℕ) < 2; omega) ⟨2, ![R, 256]⟩ b rfl rfl 256 rfl
      (ix2 r ⟨j.val - 256, by have := j.isLt; omega⟩) (fun bx hb => by
        match bx with
        | ⟨0, _⟩ => rfl
        | ⟨1, _⟩ => exact absurd rfl hb) (by show 256 + (j.val - 256) = j.val; omega)

/-! ## A product of matrices of any formats -/

/-- A matrix product of operands of any formats accumulated into zeros, read at entry (p, j), is the sum over the shared
    axis (the four hypotheses say, coordinate by coordinate, which axes the dimension numbers pair). -/
theorem matmul_rows_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply]
  exact Cert.LibPlainDot.sum_plain D hr hs hl0 hl1 hr0 hr1 l r p j

/-- A dense layer as it is printed: both operands passed through a change of format (the identity on the extended
    reals), multiplied into zeros, and a bias row laid along the rows added; read at entry (r, k). -/
theorem dense_apply {R K H : Nat} (D : DotDims ⟨2, ![R, K]⟩ ⟨2, ![K, H]⟩ ⟨2, ![R, H]⟩)
    (hr : D.contr.rank = 1) (hs : D.contr.size ⟨0, by omega⟩ = K)
    (hl0 : ∀ (i : (⟨2, ![R, H]⟩ : Shape).Idx) (q : D.contr.Idx), (D.lhsIdx i q 0).val = (i 0).val)
    (hl1 : ∀ (i : (⟨2, ![R, H]⟩ : Shape).Idx) (q : D.contr.Idx), (D.lhsIdx i q 1).val = (q ⟨0, by omega⟩).val)
    (hr0 : ∀ (i : (⟨2, ![R, H]⟩ : Shape).Idx) (q : D.contr.Idx), (D.rhsIdx i q 0).val = (q ⟨0, by omega⟩).val)
    (hr1 : ∀ (i : (⟨2, ![R, H]⟩ : Shape).Idx) (q : D.contr.Idx), (D.rhsIdx i q 1).val = (i 1).val)
    (feat : FVec Ideal ⟨2, ![R, K]⟩ .f32) (w : FVec Ideal ⟨2, ![K, H]⟩ .f32) (b : FVec Ideal ⟨2, ![1, H]⟩ .f32)
    (hlt : FTy.bits .bf16 < FTy.bits .f32)
    (hc : (⟨2, ![1, H]⟩ : Shape).ShapeCasts ⟨2, ![1, H]⟩) (hb : (⟨2, ![1, H]⟩ : Shape).Broadcasts ⟨2, ![R, H]⟩)
    (r : Fin R) (k : Fin H) :
    addf (matmul D none (truncf .bf16 feat hlt) (truncf .bf16 w hlt) (constant (F := Ideal) ⟨2, ![R, H]⟩ .f32 0x00000000#32))
        (broadcastTo ⟨2, ![R, H]⟩ (shapeCast ⟨2, ![1, H]⟩ b hc) hb) (ix2 r k)
      = ∑ j : Fin K, feat (ix2 r j) * w (ix2 j k) + b (ix2 (0 : Fin 1) k) := by
  rw [addf_apply, matmul_rows_apply D hr hs hl0 hl1 hr0 hr1, shapeCast_self, broadcastTo_1b_ab_apply]
  rfl

/-- The rectifier: the larger of an entry and the zero word. -/
theorem relu_apply {s : Shape} (x : FVec Ideal s .f32) (i : s.Idx) :
    maximumf x (broadcast s (Scalar.ofBits (F := Ideal) .f32 0x00000000#32)) i = max (x i) 0 := by
  rw [maximumf_apply, broadcast_apply, Cert.LibPlainDot.scalar_zero]

/-! ## A lane sum kept as a column -/

/-- The sum of a block of 256 columns along its rows, kept as a column, reads at row r the sum of the row. -/
theorem rowsum_col_apply {R : ℕ} (y : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (r : Fin R) :
    shapeCast (⟨2, ![R, 1]⟩ : Shape) (multiReduction (F := Ideal) .add [1] ⟨1, ![R]⟩ y 0x00000000#32 hred hφ hacc) hc
        (ix2 r (0 : Fin 1))
      = ∑ d : Fin 256, y (ix2 r d) := by
  rw [shapeCast_apply _ hc (ix2 r (0 : Fin 1)) (ix1 r) (by
    rw [Shape.rowMajor_val_one, Shape.rowMajor_val_two]; show r.val = r.val * 1 + 0; omega)]
  refine (Ideal.multiReduction_add_single y 0x00000000#32 hred hφ hacc (ix1 r)).trans ?_
  exact Finset.sum_congr rfl fun k _ => congrArg y (funext fun a => Fin.ext (by
    match a with
    | ⟨0, _⟩ => rfl
    | ⟨1, _⟩ => rfl))

/-! ## The layer normalisation of a block, row by row -/

/-- The mean column of a block: its lane sums over the literal 256. -/
theorem mean_col_apply {R : ℕ} (y : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (r : Fin R) :
    divf (shapeCast (⟨2, ![R, 1]⟩ : Shape) (multiReduction (F := Ideal) .add [1] ⟨1, ![R]⟩ y 0x00000000#32 hred hφ hacc) hc)
        (broadcast ⟨2, ![R, 1]⟩ (Scalar.ofBits (F := Ideal) .f32 0x43800000#32)) (ix2 r (0 : Fin 1))
      = mean (row y r) := by
  rw [divf_apply, broadcast_apply, rowsum_col_apply]
  rfl

/-- The block centred row by row. -/
theorem centred_apply {R : ℕ} (y : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, 256]⟩)
    (r : Fin R) (d : Fin 256) :
    subf y (broadcastTo ⟨2, ![R, 256]⟩
        (divf (shapeCast (⟨2, ![R, 1]⟩ : Shape) (multiReduction (F := Ideal) .add [1] ⟨1, ![R]⟩ y 0x00000000#32 hred hφ hacc) hc)
          (broadcast ⟨2, ![R, 1]⟩ (Scalar.ofBits (F := Ideal) .f32 0x43800000#32))) hb) (ix2 r d)
      = ctr (row y r) d := by
  rw [subf_apply, Cert.LibPlainDot.broadcastTo_a1_ab_apply, mean_col_apply]
  rfl

/-- The shifted variance column of a centred block z: the lane sums of its squares over the literal 256, plus the
    literal 1e-5. -/
theorem var_eps_col_apply {R : ℕ} (z : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (r : Fin R) :
    addf (divf (shapeCast (⟨2, ![R, 1]⟩ : Shape)
            (multiReduction (F := Ideal) .add [1] ⟨1, ![R]⟩ (mulf z z) 0x00000000#32 hred hφ hacc) hc)
          (broadcast ⟨2, ![R, 1]⟩ (Scalar.ofBits (F := Ideal) .f32 0x43800000#32)))
        (broadcast ⟨2, ![R, 1]⟩ (Scalar.ofBits (F := Ideal) .f32 0x3727C5AC#32)) (ix2 r (0 : Fin 1))
      = Ideal.div (∑ d : Fin 256, z (ix2 r d) * z (ix2 r d)) c256 + ceps := by
  rw [addf_apply, divf_apply, broadcast_apply, broadcast_apply, rowsum_col_apply]
  rfl

/-- A block scaled row by row by the reciprocal square root of a column. -/
theorem scaled_apply {R : ℕ} (z : FVec Ideal ⟨2, ![R, 256]⟩ .f32) (v : FVec Ideal ⟨2, ![R, 1]⟩ .f32)
    (hb : (⟨2, ![R, 1]⟩ : Shape).Broadcasts ⟨2, ![R, 256]⟩) (r : Fin R) (d : Fin 256) :
    mulf z (broadcastTo ⟨2, ![R, 256]⟩ (rsqrt v) hb) (ix2 r d) = z (ix2 r d) * Ideal.rsqrt (v (ix2 r (0 : Fin 1))) := by
  rw [mulf_apply, Cert.LibPlainDot.broadcastTo_a1_ab_apply]
  rfl

/-- A residual block plus a block scaled and shifted column by column by two rows. -/
theorem affine_res_apply {R : ℕ} (res n : FVec Ideal ⟨2, ![R, 256]⟩ .f32) (g β : FVec Ideal ⟨2, ![1, 256]⟩ .f32)
    (hc : (⟨2, ![1, 256]⟩ : Shape).ShapeCasts ⟨2, ![1, 256]⟩) (hb : (⟨2, ![1, 256]⟩ : Shape).Broadcasts ⟨2, ![R, 256]⟩)
    (r : Fin R) (d : Fin 256) :
    addf res (addf (mulf n (broadcastTo ⟨2, ![R, 256]⟩ (shapeCast ⟨2, ![1, 256]⟩ g hc) hb))
        (broadcastTo ⟨2, ![R, 256]⟩ (shapeCast ⟨2, ![1, 256]⟩ β hc) hb)) (ix2 r d)
      = res (ix2 r d) + (n (ix2 r d) * g (ix2 (0 : Fin 1) d) + β (ix2 (0 : Fin 1) d)) := by
  rw [addf_apply, addf_apply, mulf_apply, shapeCast_self, shapeCast_self, broadcastTo_1b_ab_apply, broadcastTo_1b_ab_apply]

end Cert.LibKernelRows

end
-- ==== Proof.EdgeBlock.lean ====
/-
  One block of the edge update: what the kernel body leaves in its output block, from the blocks it loads, is the
  row-wise edge update of those blocks (1600 rows).
-/
import proofs.«133940_j14731737825432_1_alg».proof.Proof.Gen.KernelIdeal.Frame
import proofs.«133940_j14731737825432_1_alg».proof.Proof.Spec
import proofs.«133940_j14731737825432_1_alg».proof.Proof.LibKernelRows

noncomputable section

open scoped BigOperators

namespace Cert.KernelIdeal.EdgeBlock

open Cert.KernelIdeal Cert.KernelIdeal.Gen Idealize.ShloMosaic Idealize.ShloMosaic.TcCoe Idealize.SL.Sem
open Idealize.ShloMosaic.ValueIdx Cert.Spec Cert.LibKernelRows

/-! ## The dimension numbers of the two products: rows by the shared axis, the shared axis by columns -/

theorem d1_rank : dot_S1600x768_S768x512_S1600x512_1_0_0_1_n_n.contr.rank = 1 := rfl
theorem d1_size : dot_S1600x768_S768x512_S1600x512_1_0_0_1_n_n.contr.size ⟨0, by rw [d1_rank]; omega⟩ = 768 := rfl
theorem d1_l0 (i : S1600x512.Idx) (q : dot_S1600x768_S768x512_S1600x512_1_0_0_1_n_n.contr.Idx) :
    (dot_S1600x768_S768x512_S1600x512_1_0_0_1_n_n.lhsIdx i q 0).val = (i 0).val := by
  unfold DotDims.lhsIdx
  rw [dif_neg (show ¬(0 : Fin S1600x768.rank) ∈ dot_S1600x768_S768x512_S1600x512_1_0_0_1_n_n.lhsBatch by decide),
    dif_pos (show (0 : Fin S1600x768.rank) ∈ dot_S1600x768_S768x512_S1600x512_1_0_0_1_n_n.lhsNonContracting by decide)]
  rfl
theorem d1_l1 (i : S1600x512.Idx) (q : dot_S1600x768_S768x512_S1600x512_1_0_0_1_n_n.contr.Idx) :
    (dot_S1600x768_S768x512_S1600x512_1_0_0_1_n_n.lhsIdx i q 1).val = (q ⟨0, by rw [d1_rank]; omega⟩).val :=
  dot_S1600x768_S768x512_S1600x512_1_0_0_1_n_n.lhsIdx_val_of_single rfl i q
theorem d1_r0 (i : S1600x512.Idx) (q : dot_S1600x768_S768x512_S1600x512_1_0_0_1_n_n.contr.Idx) :
    (dot_S1600x768_S768x512_S1600x512_1_0_0_1_n_n.rhsIdx i q 0).val = (q ⟨0, by rw [d1_rank]; omega⟩).val :=
  dot_S1600x768_S768x512_S1600x512_1_0_0_1_n_n.rhsIdx_val_of_single rfl i q
theorem d1_r1 (i : S1600x512.Idx) (q : dot_S1600x768_S768x512_S1600x512_1_0_0_1_n_n.contr.Idx) :
    (dot_S1600x768_S768x512_S1600x512_1_0_0_1_n_n.rhsIdx i q 1).val = (i 1).val := by
  unfold DotDims.rhsIdx
  rw [dif_neg (show ¬(1 : Fin S768x512.rank) ∈ dot_S1600x768_S768x512_S1600x512_1_0_0_1_n_n.rhsBatch by decide),
    dif_pos (show (1 : Fin S768x512.rank) ∈ dot_S1600x768_S768x512_S1600x512_1_0_0_1_n_n.rhsNonContracting by decide)]
  rfl

theorem d2_rank : dot_S1600x512_S512x256_S1600x256_1_0_0_1_n_n.contr.rank = 1 := rfl
theorem d2_size : dot_S1600x512_S512x256_S1600x256_1_0_0_1_n_n.contr.size ⟨0, by rw [d2_rank]; omega⟩ = 512 := rfl
theorem d2_l0 (i : S1600x256.Idx) (q : dot_S1600x512_S512x256_S1600x256_1_0_0_1_n_n.contr.Idx) :
    (dot_S1600x512_S512x256_S1600x256_1_0_0_1_n_n.lhsIdx i q 0).val = (i 0).val := by
  unfold DotDims.lhsIdx
  rw [dif_neg (show ¬(0 : Fin S1600x512.rank) ∈ dot_S1600x512_S512x256_S1600x256_1_0_0_1_n_n.lhsBatch by decide),
    dif_pos (show (0 : Fin S1600x512.rank) ∈ dot_S1600x512_S512x256_S1600x256_1_0_0_1_n_n.lhsNonContracting by decide)]
  rfl
theorem d2_l1 (i : S1600x256.Idx) (q : dot_S1600x512_S512x256_S1600x256_1_0_0_1_n_n.contr.Idx) :
    (dot_S1600x512_S512x256_S1600x256_1_0_0_1_n_n.lhsIdx i q 1).val = (q ⟨0, by rw [d2_rank]; omega⟩).val :=
  dot_S1600x512_S512x256_S1600x256_1_0_0_1_n_n.lhsIdx_val_of_single rfl i q
theorem d2_r0 (i : S1600x256.Idx) (q : dot_S1600x512_S512x256_S1600x256_1_0_0_1_n_n.contr.Idx) :
    (dot_S1600x512_S512x256_S1600x256_1_0_0_1_n_n.rhsIdx i q 0).val = (q ⟨0, by rw [d2_rank]; omega⟩).val :=
  dot_S1600x512_S512x256_S1600x256_1_0_0_1_n_n.rhsIdx_val_of_single rfl i q
theorem d2_r1 (i : S1600x256.Idx) (q : dot_S1600x512_S512x256_S1600x256_1_0_0_1_n_n.contr.Idx) :
    (dot_S1600x512_S512x256_S1600x256_1_0_0_1_n_n.rhsIdx i q 1).val = (i 1).val := by
  unfold DotDims.rhsIdx
  rw [dif_neg (show ¬(1 : Fin S512x256.rank) ∈ dot_S1600x512_S512x256_S1600x256_1_0_0_1_n_n.rhsBatch by decide),
    dif_pos (show (1 : Fin S512x256.rank) ∈ dot_S1600x512_S512x256_S1600x256_1_0_0_1_n_n.rhsNonContracting by decide)]
  rfl

/-! ## The payloads at an entry -/

/-- The perceptron's output block, as the body computes it, read at entry (r, e). -/
theorem pay2_apply (v0 v2 v4 : Vec Ideal S1600x256 .f32) (v7 : Vec Ideal S768x512 .f32) (v10 : Vec Ideal S1x512 .f32)
    (v17 : Vec Ideal S512x256 .f32) (v20 : Vec Ideal S1x256 .f32) (r : Fin 1600) (d : Fin 256) :
    Gen.k0_pay2 (F := Ideal) v0 v2 v4 v7 v10 v17 v20 (ix2 r d)
      = ctr (mlp (cat3 (row v0 r) (row v2 r) (row v4 r)) (mat v7) (row1 v10) (mat v17) (row1 v20)) d := by
  unfold Gen.k0_pay2
  rw [centred_apply]
  refine congrArg (fun y => ctr y d) (funext fun e => ?_)
  unfold Cert.Spec.row Cert.Spec.mlp
  rw [dense_apply _ d2_rank d2_size d2_l0 d2_l1 d2_r0 d2_r1]
  refine congrArg₂ (· + ·) (Finset.sum_congr rfl fun k _ => congrArg (· * _) ?_) rfl
  rw [relu_apply, dense_apply _ d1_rank d1_size d1_l0 d1_l1 d1_r0 d1_r1]
  unfold Cert.Spec.hid
  refine congrArg (max · 0) (congrArg₂ (· + ·) (Finset.sum_congr rfl fun j _ => congrArg (· * _) ?_) rfl)
  rw [concat3_apply]
  simp only [shapeCast_self]
  rfl

/-- The shifted variance column, as the body computes it, read at row r. -/
theorem pay3_apply (v0 v2 v4 : Vec Ideal S1600x256 .f32) (v7 : Vec Ideal S768x512 .f32) (v10 : Vec Ideal S1x512 .f32)
    (v17 : Vec Ideal S512x256 .f32) (v20 : Vec Ideal S1x256 .f32) (r : Fin 1600) :
    Gen.k0_pay3 (F := Ideal) v0 v2 v4 v7 v10 v17 v20 (ix2 r (0 : Fin 1))
      = var (mlp (cat3 (row v0 r) (row v2 r) (row v4 r)) (mat v7) (row1 v10) (mat v17) (row1 v20)) + ceps := by
  unfold Gen.k0_pay3
  rw [var_eps_col_apply]
  unfold Cert.Spec.var
  refine congrArg (· + ceps) (congrArg (Ideal.div · c256) (Finset.sum_congr rfl fun d _ => ?_))
  rw [pay2_apply]

/-- The stored block: the residual plus the centred block scaled by the reciprocal square root of the shifted variance
    column, then scaled and shifted column by column; read at entry (r, d). -/
theorem pay1_apply (v4 : Vec Ideal S1600x256 .f32) (v29 : FVec Ideal S1600x256 .f32) (v36 : FVec Ideal S1600x1 .f32)
    (v40 v44 : Vec Ideal S1x256 .f32) (r : Fin 1600) (d : Fin 256) :
    Gen.k0_pay1 (F := Ideal) v4 v29 v36 v40 v44 (ix2 r d)
      = v4 (ix2 r d) + (v29 (ix2 r d) * Ideal.rsqrt (v36 (ix2 r (0 : Fin 1))) * v40 (ix2 (0 : Fin 1) d)
          + v44 (ix2 (0 : Fin 1) d)) := by
  unfold Gen.k0_pay1
  rw [affine_res_apply, scaled_apply]

/-- The output block after the body is the edge update of the loaded blocks, row by row. -/
theorem out0_9_eq (x0 x1 x2 : Vec Ideal S1600x256 .f32) (x3 : Vec Ideal S768x512 .f32) (x4 : Vec Ideal S1x512 .f32)
    (x5 : Vec Ideal S512x256 .f32) (x6 x7 x8 : Vec Ideal S1x256 .f32) :
    Gen.out0_9 (F := Ideal) x0 x1 x2 x3 x4 x5 x6 x7 x8
      = Cert.Spec.edgeG (R := 1600) x0 x1 x2 (Cert.Spec.mat x3) (Cert.Spec.row1 x4) (Cert.Spec.mat x5)
          (Cert.Spec.row1 x6) (Cert.Spec.row1 x7) (Cert.Spec.row1 x8) := by
  have hz : (![0, 0] : Fin 2 → Nat) = fun _ => 0 := funext fun a => by fin_cases a <;> rfl
  funext i
  obtain ⟨r, d, rfl⟩ : ∃ (r : Fin 1600) (d : Fin 256), i = ix2 r d := ⟨i 0, i 1, eq_ix2 i⟩
  unfold Gen.out0_9
  rw [View.canon_unit_zero hz]
  simp only [View.ld_unit_zero (S := S1600x256) hz, View.ld_unit_zero (S := S768x512) hz,
    View.ld_unit_zero (S := S1x512) hz, View.ld_unit_zero (S := S512x256) hz, View.ld_unit_zero (S := S1x256) hz]
  rw [pay1_apply, pay2_apply, pay3_apply]
  rfl

end Cert.KernelIdeal.EdgeBlock

end
-- ==== Proof.EdgeArray.lean ====
/-
  The edge region's output array after its hundred grid points: block t of the output is the edge update of block t of
  the three row-tiled inputs (rows 1600 t … 1600 t + 1599) and of the whole weight arrays, the blocks tile the rows,
  and the update is row-wise, so the array is the edge update of the whole arrays.
-/
import proofs.«133940_j14731737825432_1_alg».proof.Proof.Gen.KernelIdeal.Frame
import proofs.«133940_j14731737825432_1_alg».proof.Proof.Spec
import proofs.«133940_j14731737825432_1_alg».proof.Proof.EdgeBlock
import Idealize.ShloMosaic.Lib.Pipeline.Value

noncomputable section

open scoped BigOperators

namespace Cert.KernelIdeal.EdgeArray

open Cert.KernelIdeal Cert.KernelIdeal.Gen Idealize.ShloMosaic Idealize.ShloMosaic.TcCoe Idealize.SL.Sem
open Idealize.ShloMosaic.ValueIdx

/-- The printed index maps, decided once over the grid: the row-tiled windows sit at block `(t, 0)`, the whole-array
    windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of block `t` is a row of the array. -/
theorem row_lt (t : Fin cfg0.N) (r : Fin 1600) : 1600 * t.val + r.val < 160000 := by
  have h1 : t.val < 100 := t.isLt
  have h2 := r.isLt
  omega

/-- The edge update is row-wise: if three blocks hold rows `1600 t + r` of three arrays, the update of the blocks at
    `(r, d)` is the update of the arrays at `(1600 t + r, d)`. -/
theorem edgeG_block (xi xj ea : S160000x256.Idx → EReal) (bi bj be : S1600x256.Idx → EReal)
    (w1 : Fin 768 → Fin 512 → EReal) (b1 : Fin 512 → EReal) (w2 : Fin 512 → Fin 256 → EReal) (b2 g β : Fin 256 → EReal)
    (t : Fin cfg0.N)
    (hi : ∀ y : S1600x256.Idx, bi y = xi (ix2 ⟨1600 * t.val + (y 0).val, row_lt t (y 0)⟩ (y 1)))
    (hj : ∀ y : S1600x256.Idx, bj y = xj (ix2 ⟨1600 * t.val + (y 0).val, row_lt t (y 0)⟩ (y 1)))
    (he : ∀ y : S1600x256.Idx, be y = ea (ix2 ⟨1600 * t.val + (y 0).val, row_lt t (y 0)⟩ (y 1)))
    (y : S1600x256.Idx) :
    Cert.Spec.edgeG (R := 1600) bi bj be w1 b1 w2 b2 g β y
      = Cert.Spec.edgeG (R := 160000) xi xj ea w1 b1 w2 b2 g β (ix2 ⟨1600 * t.val + (y 0).val, row_lt t (y 0)⟩ (y 1)) := by
  have ri : Cert.Spec.row bi (y 0) = Cert.Spec.row xi ⟨1600 * t.val + (y 0).val, row_lt t (y 0)⟩ := funext fun d => hi (ix2 (y 0) d)
  have rj : Cert.Spec.row bj (y 0) = Cert.Spec.row xj ⟨1600 * t.val + (y 0).val, row_lt t (y 0)⟩ := funext fun d => hj (ix2 (y 0) d)
  have re : Cert.Spec.row be (y 0) = Cert.Spec.row ea ⟨1600 * t.val + (y 0).val, row_lt t (y 0)⟩ := funext fun d => he (ix2 (y 0) d)
  show be y + Cert.Spec.ln (Cert.Spec.mlp (Cert.Spec.cat3 (Cert.Spec.row bi (y 0)) (Cert.Spec.row bj (y 0)) (Cert.Spec.row be (y 0))) w1 b1 w2 b2) g β (y 1)
    = ea (ix2 ⟨1600 * t.val + (y 0).val, row_lt t (y 0)⟩ (y 1)) + Cert.Spec.ln (Cert.Spec.mlp (Cert.Spec.cat3 (Cert.Spec.row xi ⟨1600 * t.val + (y 0).val, row_lt t (y 0)⟩) (Cert.Spec.row xj ⟨1600 * t.val + (y 0).val, row_lt t (y 0)⟩) (Cert.Spec.row ea ⟨1600 * t.val + (y 0).val, row_lt t (y 0)⟩)) w1 b1 w2 b2) g β (y 1)
  rw [ri, rj, re, he y]

variable (V : (c : Dev nD) → (b : Ref sig .tc) → Buf (Elt Ideal) ((c : Thread nD τ).loc b)) (c : Dev nD)

/-! ## The windows' blocks, read off the arrays -/

theorem blk0_apply (t : Fin cfg0.N) (y : S1600x256.Idx) :
    iblk0 V c 0 t y = V c main_v10 (ix2 ⟨1600 * t.val + (y 0).val, row_lt t (y 0)⟩ (y 1)) := by
  unfold iblk0
  rw [View.read_apply]
  show V c main_v10 (((cfg0.win 0).blk t).view.emb y) = _
  congr 1
  obtain ⟨e0, e1, -⟩ := idx_facts t
  funext a; apply Fin.ext
  match a with
  | ⟨0, _⟩ => show win0_0.index t (0 : Fin 2) * 1600 + 1 * (y 0).val = 1600 * t.val + (y 0).val; omega
  | ⟨1, _⟩ => show win0_0.index t (1 : Fin 2) * 256 + 1 * (y 1).val = (y 1).val; omega

theorem blk1_apply (t : Fin cfg0.N) (y : S1600x256.Idx) :
    iblk0 V c 1 t y = V c main_v17 (ix2 ⟨1600 * t.val + (y 0).val, row_lt t (y 0)⟩ (y 1)) := by
  unfold iblk0
  rw [View.read_apply]
  show V c main_v17 (((cfg0.win 1).blk t).view.emb y) = _
  congr 1
  obtain ⟨-, -, e0, e1, -⟩ := idx_facts t
  funext a; apply Fin.ext
  match a with
  | ⟨0, _⟩ => show win0_1.index t (0 : Fin 2) * 1600 + 1 * (y 0).val = 1600 * t.val + (y 0).val; omega
  | ⟨1, _⟩ => show win0_1.index t (1 : Fin 2) * 256 + 1 * (y 1).val = (y 1).val; omega

theorem blk2_apply (t : Fin cfg0.N) (y : S1600x256.Idx) :
    iblk0 V c 2 t y = V c main_arg2 (ix2 ⟨1600 * t.val + (y 0).val, row_lt t (y 0)⟩ (y 1)) := by
  unfold iblk0
  rw [View.read_apply]
  show V c main_arg2 (((cfg0.win 2).blk t).view.emb y) = _
  congr 1
  obtain ⟨-, -, -, -, e0, e1, -⟩ := idx_facts t
  funext a; apply Fin.ext
  match a with
  | ⟨0, _⟩ => show win0_2.index t (0 : Fin 2) * 1600 + 1 * (y 0).val = 1600 * t.val + (y 0).val; omega
  | ⟨1, _⟩ => show win0_2.index t (1 : Fin 2) * 256 + 1 * (y 1).val = (y 1).val; omega

/-- A whole-array window's block is the array. -/
theorem blk3_eq (t : Fin cfg0.N) : iblk0 V c 3 t = V c main_arg3 := by
  unfold iblk0
  funext y
  rw [View.read_apply]
  show V c main_arg3 (((cfg0.win 3).blk t).view.emb y) = _
  congr 1
  obtain ⟨e0, e1, -⟩ := idx_whole t
  funext a; apply Fin.ext
  match a with
  | ⟨0, _⟩ => show win0_3.index t (0 : Fin 2) * 768 + 1 * (y 0).val = (y 0).val; omega
  | ⟨1, _⟩ => show win0_3.index t (1 : Fin 2) * 512 + 1 * (y 1).val = (y 1).val; omega

theorem blk4_eq (t : Fin cfg0.N) : iblk0 V c 4 t = V c main_v18 := by
  unfold iblk0
  funext y
  rw [View.read_apply]
  show V c main_v18 (((cfg0.win 4).blk t).view.emb y) = _
  congr 1
  obtain ⟨-, -, e0, e1, -⟩ := idx_whole t
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem blk5_eq (t : Fin cfg0.N) : iblk0 V c 5 t = V c main_arg5 := by
  unfold iblk0
  funext y
  rw [View.read_apply]
  show V c main_arg5 (((cfg0.win 5).blk t).view.emb y) = _
  congr 1
  obtain ⟨-, -, -, -, e0, e1, -⟩ := idx_whole t
  funext a; apply Fin.ext
  match a with
  | ⟨0, _⟩ => show win0_5.index t (0 : Fin 2) * 512 + 1 * (y 0).val = (y 0).val; omega
  | ⟨1, _⟩ => show win0_5.index t (1 : Fin 2) * 256 + 1 * (y 1).val = (y 1).val; omega

theorem blk6_eq (t : Fin cfg0.N) : iblk0 V c 6 t = V c main_v19 := by
  unfold iblk0
  funext y
  rw [View.read_apply]
  show V c main_v19 (((cfg0.win 6).blk t).view.emb y) = _
  congr 1
  obtain ⟨-, -, -, -, -, -, e0, e1, -⟩ := idx_whole t
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blk7_eq (t : Fin cfg0.N) : iblk0 V c 7 t = V c main_v20 := by
  unfold iblk0
  funext y
  rw [View.read_apply]
  show V c main_v20 (((cfg0.win 7).blk t).view.emb y) = _
  congr 1
  obtain ⟨-, -, -, -, -, -, -, -, e0, e1, -⟩ := idx_whole t
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem blk8_eq (t : Fin cfg0.N) : iblk0 V c 8 t = V c main_v21 := by
  unfold iblk0
  funext y
  rw [View.read_apply]
  show V c main_v21 (((cfg0.win 8).blk t).view.emb y) = _
  congr 1
  obtain ⟨-, -, -, -, -, -, -, -, -, -, e0, e1⟩ := idx_whole t
  funext a; apply Fin.ext
  match a with
  | ⟨0, _⟩ => show win0_8.index t (0 : Fin 2) * 1 + 1 * (y 0).val = (y 0).val; omega
  | ⟨1, _⟩ => show win0_8.index t (1 : Fin 2) * 256 + 1 * (y 1).val = (y 1).val; omega

/-! ## What each point writes back -/

/-- The edge update of the arrays the region was entered with. -/
abbrev G : S160000x256.Idx → EReal :=
  Cert.Spec.edgeG (R := 160000) (V c main_v10) (V c main_v17) (V c main_arg2) (Cert.Spec.mat (V c main_arg3))
    (Cert.Spec.row1 (V c main_v18)) (Cert.Spec.mat (V c main_arg5)) (Cert.Spec.row1 (V c main_v19))
    (Cert.Spec.row1 (V c main_v20)) (Cert.Spec.row1 (V c main_v21))

/-- Index `y` of the output's block `t` is index `(1600 t + y₀, y₁)` of the array. -/
theorem emb9 (t : Fin cfg0.N) (y : S1600x256.Idx) :
    ((cfg0.win 9).blk t).view.emb y = ix2 ⟨1600 * t.val + (y 0).val, row_lt t (y 0)⟩ (y 1) := by
  obtain ⟨-, -, -, -, -, -, e0, e1⟩ := idx_facts t
  funext a; apply Fin.ext
  match a with
  | ⟨0, _⟩ => show win0_9.index t (0 : Fin 2) * 1600 + 1 * (y 0).val = 1600 * t.val + (y 0).val; omega
  | ⟨1, _⟩ => show win0_9.index t (1 : Fin 2) * 256 + 1 * (y 1).val = (y 1).val; omega

/-- What point `t` writes back is block `t` of the edge update of the arrays. -/
theorem flushed_eq (t : Fin cfg0.N) :
    (dat0 V c).flushed 9 t = ((cfg0.win 9).blk t).view.read (Elt Ideal) (G V c) := by
  show (cfg0.win 9).cut (grid0.coords t) ((dat0 V c).after 9 t) = _
  rw [after0_9, EdgeBlock.out0_9_eq, blk3_eq, blk4_eq, blk5_eq, blk6_eq, blk7_eq, blk8_eq]
  funext y
  rw [View.read_apply, emb9]
  exact edgeG_block (V c main_v10) (V c main_v17) (V c main_arg2) (iblk0 V c 0 t) (iblk0 V c 1 t) (iblk0 V c 2 t)
    _ _ _ _ _ _ t (blk0_apply V c t) (blk1_apply V c t) (blk2_apply V c t) y

/-! ## The blocks tile the rows -/

/-- An index of the array is in point `t`'s block iff each coordinate is in the block's range on its axis. -/
theorem mem_blk (t : Fin cfg0.N) (i : S160000x256.Idx) :
    i ∈ ((cfg0.win 9).blk t).view.set ↔ ∀ a : Fin 2, win0_9.index t a * S1600x256.size a ≤ (i a).val ∧ (i a).val < win0_9.index t a * S1600x256.size a + S1600x256.size a := by
  show i ∈ ((View.whole main_v22).slice (win0_9.rect t)).set ↔ _
  rw [View.set_slice_whole, Rect.mem_set_unit]
  exact Iff.rfl

/-- Every index of the array is in some point's block: row `e` is in block `e / 1600`. -/
theorem cover (i : S160000x256.Idx) :
    ∃ t : Fin cfg0.N, (cfg0.win 9).flush t = true ∧ i ∈ ((cfg0.win 9).blk t).view.set := by
  have hi0 : (i 0).val < 160000 := (i 0).isLt
  have hi1 : (i 1).val < 256 := (i 1).isLt
  let t : Fin cfg0.N := ⟨(i 0).val / 1600, by show (i 0).val / 1600 < 100; omega⟩
  obtain ⟨-, -, -, -, -, -, e0, e1⟩ := idx_facts t
  have ht : t.val = (i 0).val / 1600 := rfl
  refine ⟨t, flush0_9 t, ?_⟩
  rw [mem_blk]
  intro a
  match a with
  | ⟨0, _⟩ => show win0_9.index t (0 : Fin 2) * 1600 ≤ (i 0).val ∧ (i 0).val < win0_9.index t (0 : Fin 2) * 1600 + 1600; omega
  | ⟨1, _⟩ => show win0_9.index t (1 : Fin 2) * 256 ≤ (i 1).val ∧ (i 1).val < win0_9.index t (1 : Fin 2) * 256 + 256; omega

/-- The edge region leaves in its output array the row-wise edge update of the arrays it was entered with. -/
theorem arr0_9 (V : (c : Dev nD) → (b : Ref sig .tc) → Buf (Elt Ideal) ((c : Thread nD τ).loc b)) (c : Dev nD) :
    (Gen.dat0 V c).arrAt 9 cfg0.N
      = Cert.Spec.edgeG (R := 160000) (V c main_v10) (V c main_v17) (V c main_arg2) (Cert.Spec.mat (V c main_arg3))
          (Cert.Spec.row1 (V c main_v18)) (Cert.Spec.mat (V c main_arg5)) (Cert.Spec.row1 (V c main_v19))
          (Cert.Spec.row1 (V c main_v20)) (Cert.Spec.row1 (V c main_v21)) :=
  (dat0 V c).arrAt_eq_of_cover 9 (G V c) (fun t _ => flushed_eq V c t) cover

end Cert.KernelIdeal.EdgeArray

end
-- ==== Proof.NodeBlock.lean ====
/-
  One block of the node update: what the kernel body leaves in its output block, from the blocks it loads, is the
  row-wise node update of those blocks (2000 rows).
-/
import proofs.«133940_j14731737825432_1_alg».proof.Proof.Gen.KernelIdeal.Frame
import proofs.«133940_j14731737825432_1_alg».proof.Proof.Spec
import proofs.«133940_j14731737825432_1_alg».proof.Proof.LibKernelRows

noncomputable section

open scoped BigOperators

namespace Cert.KernelIdeal.NodeBlock

open Cert.KernelIdeal Cert.KernelIdeal.Gen Idealize.ShloMosaic Idealize.ShloMosaic.TcCoe Idealize.SL.Sem
open Idealize.ShloMosaic.ValueIdx Cert.Spec Cert.LibKernelRows

/-! ## The dimension numbers of the two products: rows by the shared axis, the shared axis by columns -/

theorem d1_rank : dot_S2000x512_S512x512_S2000x512_1_0_0_1_n_n.contr.rank = 1 := rfl
theorem d1_size : dot_S2000x512_S512x512_S2000x512_1_0_0_1_n_n.contr.size ⟨0, by rw [d1_rank]; omega⟩ = 512 := rfl
theorem d1_l0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
theorem d1_l1 (i : S2000x512.Idx) (q : dot_S2000x512_S512x512_S2000x512_1_0_0_1_n_n.contr.Idx) :
    (dot_S2000x512_S512x512_S2000x512_1_0_0_1_n_n.lhsIdx i q 1).val = (q ⟨0, by rw [d1_rank]; omega⟩).val :=
  dot_S2000x512_S512x512_S2000x512_1_0_0_1_n_n.lhsIdx_val_of_single rfl i q
theorem d1_r0 (i : S2000x512.Idx) (q : dot_S2000x512_S512x512_S2000x512_1_0_0_1_n_n.contr.Idx) :
    (dot_S2000x512_S512x512_S2000x512_1_0_0_1_n_n.rhsIdx i q 0).val = (q ⟨0, by rw [d1_rank]; omega⟩).val :=
  dot_S2000x512_S512x512_S2000x512_1_0_0_1_n_n.rhsIdx_val_of_single rfl i q
theorem d1_r1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

theorem d2_rank : dot_S2000x512_S512x256_S2000x256_1_0_0_1_n_n.contr.rank = 1 := rfl
theorem d2_size : dot_S2000x512_S512x256_S2000x256_1_0_0_1_n_n.contr.size ⟨0, by rw [d2_rank]; omega⟩ = 512 := rfl
theorem d2_l0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl
theorem d2_l1 (i : S2000x256.Idx) (q : dot_S2000x512_S512x256_S2000x256_1_0_0_1_n_n.contr.Idx) :
    (dot_S2000x512_S512x256_S2000x256_1_0_0_1_n_n.lhsIdx i q 1).val = (q ⟨0, by rw [d2_rank]; omega⟩).val :=
  dot_S2000x512_S512x256_S2000x256_1_0_0_1_n_n.lhsIdx_val_of_single rfl i q
theorem d2_r0 (i : S2000x256.Idx) (q : dot_S2000x512_S512x256_S2000x256_1_0_0_1_n_n.contr.Idx) :
    (dot_S2000x512_S512x256_S2000x256_1_0_0_1_n_n.rhsIdx i q 0).val = (q ⟨0, by rw [d2_rank]; omega⟩).val :=
  dot_S2000x512_S512x256_S2000x256_1_0_0_1_n_n.rhsIdx_val_of_single rfl i q
theorem d2_r1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-! ## The normalised block -/

/-- A block centred row by row (the printed term, abbreviated). -/
abbrev centredBlock {R : ℕ} (y : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, 256]⟩) :
    FVec Ideal ⟨2, ![R, 256]⟩ .f32 :=
  subf y (broadcastTo ⟨2, ![R, 256]⟩
    (divf (shapeCast (⟨2, ![R, 1]⟩ : Shape) (multiReduction (F := Ideal) .add [1] ⟨1, ![R]⟩ y 0x00000000#32 hred hφ hacc) hc)
      (broadcast ⟨2, ![R, 1]⟩ (Scalar.ofBits (F := Ideal) .f32 0x43800000#32))) hb)

/-- A block centred row by row and scaled by the reciprocal square root of its shifted variance column reads, at entry
    (r, d), the row's centred entry times the reciprocal square root of the row's shifted variance. -/
theorem normalised_apply {R : ℕ} (y : FVec Ideal ⟨2, ![R, 256]⟩ .f32)
    (hred : (⟨2, ![R, 256]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, 256]⟩)
    (r : Fin R) (d : Fin 256) :
    mulf (centredBlock y hred hφ hacc hc hb)
        (broadcastTo ⟨2, ![R, 256]⟩
          (rsqrt (addf (divf (shapeCast (⟨2, ![R, 1]⟩ : Shape)
                (multiReduction (F := Ideal) .add [1] ⟨1, ![R]⟩
                  (mulf (centredBlock y hred hφ hacc hc hb) (centredBlock y hred hφ hacc hc hb)) 0x00000000#32 hred hφ hacc) hc)
              (broadcast ⟨2, ![R, 1]⟩ (Scalar.ofBits (F := Ideal) .f32 0x43800000#32)))
            (broadcast ⟨2, ![R, 1]⟩ (Scalar.ofBits (F := Ideal) .f32 0x3727C5AC#32)))) hb) (ix2 r d)
      = ctr (row y r) d * Ideal.rsqrt (var (row y r) + ceps) := by
  have hcb : ∀ x : Fin 256, centredBlock y hred hφ hacc hc hb (ix2 r x) = ctr (row y r) x :=
    fun x => centred_apply y hred hφ hacc hc hb r x
  rw [scaled_apply, var_eps_col_apply, hcb]
  unfold Cert.Spec.var
  refine congrArg (ctr (row y r) d * ·) (congrArg Ideal.rsqrt (congrArg (· + ceps) (congrArg (Ideal.div · c256)
    (Finset.sum_congr rfl fun x _ => by rw [hcb]))))

/-! ## The payloads at an entry -/

/-- The normalised block before scale and shift, as the body computes it, read at entry (r, d): the perceptron's output
    row centred, times the reciprocal square root of its shifted variance. -/
theorem pay2_apply (v0 v1 : Vec Ideal S2000x256 .f32) (v5 : Vec Ideal S512x512 .f32) (v8 : Vec Ideal S1x512 .f32)
    (v15 : Vec Ideal S512x256 .f32) (v18 : Vec Ideal S1x256 .f32) (r : Fin 2000) (d : Fin 256) :
    Gen.k1_pay2 (F := Ideal) v0 v1 v5 v8 v15 v18 (ix2 r d)
      = ctr (mlp (cat2 (row v0 r) (row v1 r)) (mat v5) (row1 v8) (mat v15) (row1 v18)) d
          * Ideal.rsqrt (var (mlp (cat2 (row v0 r) (row v1 r)) (mat v5) (row1 v8) (mat v15) (row1 v18)) + ceps) := by
  unfold Gen.k1_pay2
  rw [normalised_apply]
  refine congrArg (fun y => ctr y d * Ideal.rsqrt (var y + ceps)) (funext fun e => ?_)
  unfold Cert.Spec.row Cert.Spec.mlp
  rw [dense_apply _ d2_rank d2_size d2_l0 d2_l1 d2_r0 d2_r1]
  refine congrArg₂ (· + ·) (Finset.sum_congr rfl fun k _ => congrArg (· * _) ?_) rfl
  rw [relu_apply, dense_apply _ d1_rank d1_size d1_l0 d1_l1 d1_r0 d1_r1]
  unfold Cert.Spec.hid
  refine congrArg (max · 0) (congrArg₂ (· + ·) (Finset.sum_congr rfl fun j _ => congrArg (· * _) ?_) rfl)
  rw [concat2_apply]
  simp only [shapeCast_self]
  rfl

/-- The stored block: the residual plus the normalised block scaled and shifted column by column; read at entry
    (r, d). -/
theorem pay1_apply (v0 : Vec Ideal S2000x256 .f32) (v37 : FVec Ideal S2000x256 .f32) (v38 v42 : Vec Ideal S1x256 .f32)
    (r : Fin 2000) (d : Fin 256) :
    Gen.k1_pay1 (F := Ideal) v0 v37 v38 v42 (ix2 r d)
      = v0 (ix2 r d) + (v37 (ix2 r d) * v38 (ix2 (0 : Fin 1) d) + v42 (ix2 (0 : Fin 1) d)) := by
  unfold Gen.k1_pay1
  rw [affine_res_apply]

/-- The output block after the body is the node update of the loaded blocks, row by row. -/
theorem out1_8_eq (x0 x1 : Vec Ideal S2000x256 .f32) (x2 : Vec Ideal S512x512 .f32) (x3 : Vec Ideal S1x512 .f32)
    (x4 : Vec Ideal S512x256 .f32) (x5 x6 x7 : Vec Ideal S1x256 .f32) :
    Gen.out1_8 (F := Ideal) x0 x1 x2 x3 x4 x5 x6 x7
      = Cert.Spec.nodeG (R := 2000) x0 x1 (Cert.Spec.mat x2) (Cert.Spec.row1 x3) (Cert.Spec.mat x4)
          (Cert.Spec.row1 x5) (Cert.Spec.row1 x6) (Cert.Spec.row1 x7) := by
  have hz : (![0, 0] : Fin 2 → Nat) = fun _ => 0 := funext fun a => by fin_cases a <;> rfl
  funext i
  obtain ⟨r, d, rfl⟩ : ∃ (r : Fin 2000) (d : Fin 256), i = ix2 r d := ⟨i 0, i 1, eq_ix2 i⟩
  unfold Gen.out1_8
  rw [View.canon_unit_zero hz]
  simp only [View.ld_unit_zero (S := S2000x256) hz, View.ld_unit_zero (S := S512x512) hz,
    View.ld_unit_zero (S := S1x512) hz, View.ld_unit_zero (S := S512x256) hz, View.ld_unit_zero (S := S1x256) hz]
  rw [pay1_apply, pay2_apply]
  rfl

end Cert.KernelIdeal.NodeBlock

end
-- ==== Proof.NodeArray.lean ====
/-
  The node region's output array after its five grid points: block t of the output is the node update of block t of
  the two row-tiled inputs (rows 2000 t … 2000 t + 1999) and of the whole weight arrays, the blocks tile the rows,
  and the update is row-wise, so the array is the node update of the whole arrays.
-/
import proofs.«133940_j14731737825432_1_alg».proof.Proof.Gen.KernelIdeal.Frame
import proofs.«133940_j14731737825432_1_alg».proof.Proof.Spec
import proofs.«133940_j14731737825432_1_alg».proof.Proof.NodeBlock
import Idealize.ShloMosaic.Lib.Pipeline.Value

noncomputable section

open scoped BigOperators

namespace Cert.KernelIdeal.NodeArray

open Cert.KernelIdeal Cert.KernelIdeal.Gen Idealize.ShloMosaic Idealize.ShloMosaic.TcCoe Idealize.SL.Sem
open Idealize.ShloMosaic.ValueIdx

/-- The printed index maps, decided once over the grid: the row-tiled windows sit at block `(t, 0)`, the whole-array
    windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

theorem idx_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `r` of block `t` is a row of the array. -/
theorem row_lt (t : Fin cfg1.N) (r : Fin 2000) : 2000 * t.val + r.val < 10000 := by
  have h1 : t.val < 5 := t.isLt
  have h2 := r.isLt
  omega

/-- The node update is row-wise: if two blocks hold rows `2000 t + r` of two arrays, the update of the blocks at
    `(r, d)` is the update of the arrays at `(2000 t + r, d)`. -/
theorem nodeG_block (x agg : S10000x256.Idx → EReal) (bx bagg : S2000x256.Idx → EReal)
    (w1 : Fin 512 → Fin 512 → EReal) (b1 : Fin 512 → EReal) (w2 : Fin 512 → Fin 256 → EReal) (b2 g β : Fin 256 → EReal)
    (t : Fin cfg1.N)
    (hx : ∀ y : S2000x256.Idx, bx y = x (ix2 ⟨2000 * t.val + (y 0).val, row_lt t (y 0)⟩ (y 1)))
    (ha : ∀ y : S2000x256.Idx, bagg y = agg (ix2 ⟨2000 * t.val + (y 0).val, row_lt t (y 0)⟩ (y 1)))
    (y : S2000x256.Idx) :
    Cert.Spec.nodeG (R := 2000) bx bagg w1 b1 w2 b2 g β y
      = Cert.Spec.nodeG (R := 10000) x agg w1 b1 w2 b2 g β (ix2 ⟨2000 * t.val + (y 0).val, row_lt t (y 0)⟩ (y 1)) := by
  have rx : Cert.Spec.row bx (y 0) = Cert.Spec.row x ⟨2000 * t.val + (y 0).val, row_lt t (y 0)⟩ := funext fun d => hx (ix2 (y 0) d)
  have ra : Cert.Spec.row bagg (y 0) = Cert.Spec.row agg ⟨2000 * t.val + (y 0).val, row_lt t (y 0)⟩ := funext fun d => ha (ix2 (y 0) d)
  show bx y + Cert.Spec.ln (Cert.Spec.mlp (Cert.Spec.cat2 (Cert.Spec.row bx (y 0)) (Cert.Spec.row bagg (y 0))) w1 b1 w2 b2) g β (y 1)
    = x (ix2 ⟨2000 * t.val + (y 0).val, row_lt t (y 0)⟩ (y 1)) + Cert.Spec.ln (Cert.Spec.mlp (Cert.Spec.cat2 (Cert.Spec.row x ⟨2000 * t.val + (y 0).val, row_lt t (y 0)⟩) (Cert.Spec.row agg ⟨2000 * t.val + (y 0).val, row_lt t (y 0)⟩)) w1 b1 w2 b2) g β (y 1)
  rw [rx, ra, hx y]

variable (V : (c : Dev nD) → (b : Ref sig .tc) → Buf (Elt Ideal) ((c : Thread nD τ).loc b)) (c : Dev nD)

/-! ## The windows' blocks, read off the arrays -/

theorem blk0_apply (t : Fin cfg1.N) (y : S2000x256.Idx) :
    iblk1 V c 0 t y = V c main_arg0 (ix2 ⟨2000 * t.val + (y 0).val, row_lt t (y 0)⟩ (y 1)) := by
  unfold iblk1
  rw [View.read_apply]
  show V c main_arg0 (((cfg1.win 0).blk t).view.emb y) = _
  congr 1
  obtain ⟨e0, e1, -⟩ := idx_facts t
  funext a; apply Fin.ext
  match a with
  | ⟨0, _⟩ => show win1_0.index t (0 : Fin 2) * 2000 + 1 * (y 0).val = 2000 * t.val + (y 0).val; omega
  | ⟨1, _⟩ => show win1_0.index t (1 : Fin 2) * 256 + 1 * (y 1).val = (y 1).val; omega

theorem blk1_apply (t : Fin cfg1.N) (y : S2000x256.Idx) :
    iblk1 V c 1 t y = V c main_v25 (ix2 ⟨2000 * t.val + (y 0).val, row_lt t (y 0)⟩ (y 1)) := by
  unfold iblk1
  rw [View.read_apply]
  show V c main_v25 (((cfg1.win 1).blk t).view.emb y) = _
  congr 1
  obtain ⟨-, -, e0, e1, -⟩ := idx_facts t
  funext a; apply Fin.ext
  match a with
  | ⟨0, _⟩ => show win1_1.index t (0 : Fin 2) * 2000 + 1 * (y 0).val = 2000 * t.val + (y 0).val; omega
  | ⟨1, _⟩ => show win1_1.index t (1 : Fin 2) * 256 + 1 * (y 1).val = (y 1).val; omega

/-- A whole-array window's block is the array. -/
theorem blk2_eq (t : Fin cfg1.N) : iblk1 V c 2 t = V c main_arg9 := by
  unfold iblk1
  funext y
  rw [View.read_apply]
  show V c main_arg9 (((cfg1.win 2).blk t).view.emb y) = _
  congr 1
  obtain ⟨e0, e1, -⟩ := idx_whole t
  funext a; apply Fin.ext
  match a with
  | ⟨0, _⟩ => show win1_2.index t (0 : Fin 2) * 512 + 1 * (y 0).val = (y 0).val; omega
  | ⟨1, _⟩ => show win1_2.index t (1 : Fin 2) * 512 + 1 * (y 1).val = (y 1).val; omega

theorem blk3_eq (t : Fin cfg1.N) : iblk1 V c 3 t = V c main_v26 := by
  unfold iblk1
  funext y
  rw [View.read_apply]
  show V c main_v26 (((cfg1.win 3).blk t).view.emb y) = _
  congr 1
  obtain ⟨-, -, e0, e1, -⟩ := idx_whole t
  funext a; apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

theorem blk4_eq (t : Fin cfg1.N) : iblk1 V c 4 t = V c main_arg11 := by
  unfold iblk1
  funext y
  rw [View.read_apply]
  show V c main_arg11 (((cfg1.win 4).blk t).view.emb y) = _
  congr 1
  obtain ⟨-, -, -, -, e0, e1, -⟩ := idx_whole t
  funext a; apply Fin.ext
  match a with
  | ⟨0, _⟩ => show win1_4.index t (0 : Fin 2) * 512 + 1 * (y 0).val = (y 0).val; omega
  | ⟨1, _⟩ => show win1_4.index t (1 : Fin 2) * 256 + 1 * (y 1).val = (y 1).val; omega

theorem blk5_eq (t : Fin cfg1.N) : iblk1 V c 5 t = V c main_v27 := by
  unfold iblk1
  funext y
  rw [View.read_apply]
  show V c main_v27 (((cfg1.win 5).blk t).view.emb y) = _
  congr 1
  obtain ⟨-, -, -, -, -, -, e0, e1, -⟩ := idx_whole t
  funext a; apply Fin.ext
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem blk6_eq (t : Fin cfg1.N) : iblk1 V c 6 t = V c main_v28 := by
  unfold iblk1
  funext y
  rw [View.read_apply]
  show V c main_v28 (((cfg1.win 6).blk t).view.emb y) = _
  congr 1
  obtain ⟨-, -, -, -, -, -, -, -, e0, e1, -⟩ := idx_whole t
  funext a; apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

theorem blk7_eq (t : Fin cfg1.N) : iblk1 V c 7 t = V c main_v29 := by
  unfold iblk1
  funext y
  rw [View.read_apply]
  show V c main_v29 (((cfg1.win 7).blk t).view.emb y) = _
  congr 1
  obtain ⟨-, -, -, -, -, -, -, -, -, -, e0, e1⟩ := idx_whole t
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

/-! ## What each point writes back -/

/-- The node update of the arrays the region was entered with. -/
abbrev G : S10000x256.Idx → EReal :=
  Cert.Spec.nodeG (R := 10000) (V c main_arg0) (V c main_v25) (Cert.Spec.mat (V c main_arg9))
    (Cert.Spec.row1 (V c main_v26)) (Cert.Spec.mat (V c main_arg11)) (Cert.Spec.row1 (V c main_v27))
    (Cert.Spec.row1 (V c main_v28)) (Cert.Spec.row1 (V c main_v29))

/-- Index `y` of the output's block `t` is index `(2000 t + y₀, y₁)` of the array. -/
theorem emb8 (t : Fin cfg1.N) (y : S2000x256.Idx) :
    ((cfg1.win 8).blk t).view.emb y = ix2 ⟨2000 * t.val + (y 0).val, row_lt t (y 0)⟩ (y 1) := by
  obtain ⟨-, -, -, -, e0, e1⟩ := idx_facts t
  funext a; apply Fin.ext
  match a with
  | ⟨0, _⟩ => show win1_8.index t (0 : Fin 2) * 2000 + 1 * (y 0).val = 2000 * t.val + (y 0).val; omega
  | ⟨1, _⟩ => show win1_8.index t (1 : Fin 2) * 256 + 1 * (y 1).val = (y 1).val; omega

/-- What point `t` writes back is block `t` of the node update of the arrays. -/
theorem flushed_eq (t : Fin cfg1.N) :
    (dat1 V c).flushed 8 t = ((cfg1.win 8).blk t).view.read (Elt Ideal) (G V c) := by
  show (cfg1.win 8).cut (grid1.coords t) ((dat1 V c).after 8 t) = _
  rw [after1_8, NodeBlock.out1_8_eq, blk2_eq, blk3_eq, blk4_eq, blk5_eq, blk6_eq, blk7_eq]
  funext y
  rw [View.read_apply, emb8]
  exact nodeG_block (V c main_arg0) (V c main_v25) (iblk1 V c 0 t) (iblk1 V c 1 t)
    _ _ _ _ _ _ t (blk0_apply V c t) (blk1_apply V c t) y

/-! ## The blocks tile the rows -/

/-- An index of the array is in point `t`'s block iff each coordinate is in the block's range on its axis. -/
theorem mem_blk (t : Fin cfg1.N) (i : S10000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v30).slice (win1_8.rect t)).set ↔ _
  rw [View.set_slice_whole, Rect.mem_set_unit]
  exact Iff.rfl

/-- Every index of the array is in some point's block: row `e` is in block `e / 2000`. -/
theorem cover (i : S10000x256.Idx) :
    ∃ t : Fin cfg1.N, (cfg1.win 8).flush t = true ∧ i ∈ ((cfg1.win 8).blk t).view.set := by
  have hi0 : (i 0).val < 10000 := (i 0).isLt
  have hi1 : (i 1).val < 256 := (i 1).isLt
  let t : Fin cfg1.N := ⟨(i 0).val / 2000, by show (i 0).val / 2000 < 5; omega⟩
  obtain ⟨-, -, -, -, e0, e1⟩ := idx_facts t
  have ht : t.val = (i 0).val / 2000 := rfl
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 256 ≤ (i 1).val ∧ (i 1).val < win1_8.index t (1 : Fin 2) * 256 + 256; omega

/-- The node region leaves in its output array the row-wise node update of the arrays it was entered with. -/
theorem arr1_8 (V : (c : Dev nD) → (b : Ref sig .tc) → Buf (Elt Ideal) ((c : Thread nD τ).loc b)) (c : Dev nD) :
    (Gen.dat1 V c).arrAt 8 cfg1.N
      = Cert.Spec.nodeG (R := 10000) (V c main_arg0) (V c main_v25) (Cert.Spec.mat (V c main_arg9))
          (Cert.Spec.row1 (V c main_v26)) (Cert.Spec.mat (V c main_arg11)) (Cert.Spec.row1 (V c main_v27))
          (Cert.Spec.row1 (V c main_v28)) (Cert.Spec.row1 (V c main_v29)) :=
  (dat1 V c).arrAt_eq_of_cover 8 (G V c) (fun t _ => flushed_eq V c t) cover

end Cert.KernelIdeal.NodeArray

end
-- ==== Proof.KernelValue.lean ====
/-
  The kernel program's two results as functions of its arguments, on the extended reals.

  The edge region is entered with the two gathered endpoint arrays (rows of the node array at each edge's wrapped
  endpoint index), the edge array, and the weights, the four vectors viewed as one-row arrays; it leaves the
  row-wise edge update in its output array. The host then adds each edge's updated row into its second endpoint's
  row of a zero array (the aggregate), and the node region, entered with the node array, the aggregate and its
  weights, leaves the row-wise node update.
-/
import proofs.«133940_j14731737825432_1_alg».proof.Proof.EdgeArray
import proofs.«133940_j14731737825432_1_alg».proof.Proof.NodeArray
import Idealize.ShloMosaic.Lib.StableHlo.Run
import Idealize.ShloMosaic.Lib.ValueLayout

set_option maxRecDepth 16384
set_option maxHeartbeats 2000000

noncomputable section

namespace Cert.KernelIdeal.Value

open Cert.KernelIdeal Cert.KernelIdeal.Gen Idealize.ShloMosaic Idealize.ShloMosaic.TcCoe Idealize.SL.Sem
open Idealize.ShloMosaic.ValueIdx

variable {F : FTy → Type} [FloatOps F]

/-- The first endpoint of every edge: row 0 of the index array, as a vector. -/
def endpoint0 (ei : (⟨S2x160000, .i32⟩ : BufTy).Contents (Elt F)) : (⟨S160000, .i32⟩ : BufTy).Contents (Elt F) :=
  shapeCast S160000 (extractStridedSlice S1x160000 ![0, 0] ei slices_S2x160000_S1x160000_0_0) shapeCasts_S1x160000_S160000

/-- The second endpoint of every edge: row 1 of the index array, as a vector. -/
def endpoint1 (ei : (⟨S2x160000, .i32⟩ : BufTy).Contents (Elt F)) : (⟨S160000, .i32⟩ : BufTy).Contents (Elt F) :=
  shapeCast S160000 (extractStridedSlice S1x160000 ![1, 0] ei slices_S2x160000_S1x160000_1_0) shapeCasts_S1x160000_S160000

/-- The rows of the node array at the given indices, a negative index counted from the end. -/
def gath (x : (⟨S10000x256, .f32⟩ : BufTy).Contents (Elt F)) (v : (⟨S160000, .i32⟩ : BufTy).Contents (Elt F)) :
    (⟨S160000x256, .f32⟩ : BufTy).Contents (Elt F) :=
  Host.gather gather_S10000x256_S160000x1_S160000x256_1_0_n_n_0_1_1256 x
    (broadcastInDim S160000x1 ![0] bcast_S160000_S160000x1_0
      (select (cmpi .slt v (broadcastInDim S160000 ![] bcast_S_S160000 (constantI S_ 32 0#32)))
        (addi v (broadcastInDim S160000 ![] bcast_S_S160000 (constantI S_ 32 10000#32))) v))

/-- Every edge's row added into the row of a zero node array that its index names. -/
def agg (j : (⟨S160000, .i32⟩ : BufTy).Contents (Elt F)) (u : (⟨S160000x256, .f32⟩ : BufTy).Contents (Elt F)) :
    (⟨S10000x256, .f32⟩ : BufTy).Contents (Elt F) :=
  Host.scatterAdd scatter_S10000x256_S160000x1_S160000x256_1_0_0_1
    (broadcastInDim S10000x256 ![] bcast_S_S10000x256 (constant S_ .f32 0x00000000#32))
    (broadcastInDim S160000x1 ![0] bcast_S160000_S160000x1_0 j) u

/-- The one row of a vector viewed as a one-row array is the vector. -/
theorem row1_shapeCast {B : ℕ} (x : (⟨1, ![B]⟩ : Shape).Idx → EReal) (h : (⟨1, ![B]⟩ : Shape).ShapeCasts ⟨2, ![1, B]⟩) :
    Cert.Spec.row1 (shapeCast ⟨2, ![1, B]⟩ x h) = Cert.Spec.vec x := by
  funext b
  unfold Cert.Spec.row1 Cert.Spec.vec
  exact shapeCast_a_1a_apply x h 0 b

variable (m : (ℓ : Loc nD τ sig) → Buf (Elt Ideal) ℓ) (ρ : Dev nD → PrngReg)

/-! ## What the edge region is entered with -/

theorem V1_v10 (c : Dev nD) : V1 m ρ c main_v10
    = gath (m ((c : Thread nD τ).loc main_arg0)) (endpoint0 (m ((c : Thread nD τ).loc main_arg1))) := by
  show W1 m ρ c (Proc.devRef .tc main_v10) = _
  dsimp only [W1]; after_results; rfl

theorem V1_v17 (c : Dev nD) : V1 m ρ c main_v17
    = gath (m ((c : Thread nD τ).loc main_arg0)) (endpoint1 (m ((c : Thread nD τ).loc main_arg1))) := by
  show W1 m ρ c (Proc.devRef .tc main_v17) = _
  dsimp only [W1]; after_results; rfl

theorem V1_v3 (c : Dev nD) : V1 m ρ c main_v3 = endpoint1 (m ((c : Thread nD τ).loc main_arg1)) := by
  show W1 m ρ c (Proc.devRef .tc main_v3) = _
  dsimp only [W1]; after_results; rfl

theorem V1_arg2 (c : Dev nD) : V1 m ρ c main_arg2 = m ((c : Thread nD τ).loc main_arg2) := by
  show W1 m ρ c (Proc.devRef .tc main_arg2) = _
  dsimp only [W1]; after_results

theorem V1_arg3 (c : Dev nD) : V1 m ρ c main_arg3 = m ((c : Thread nD τ).loc main_arg3) := by
  show W1 m ρ c (Proc.devRef .tc main_arg3) = _
  dsimp only [W1]; after_results

theorem V1_arg5 (c : Dev nD) : V1 m ρ c main_arg5 = m ((c : Thread nD τ).loc main_arg5) := by
  show W1 m ρ c (Proc.devRef .tc main_arg5) = _
  dsimp only [W1]; after_results

theorem V1_v18 (c : Dev nD) : V1 m ρ c main_v18 = shapeCast S1x512 (m ((c : Thread nD τ).loc main_arg4)) shapeCasts_S512_S1x512 := by
  show W1 m ρ c (Proc.devRef .tc main_v18) = _
  dsimp only [W1]; after_results; rfl

theorem V1_v19 (c : Dev nD) : V1 m ρ c main_v19 = shapeCast S1x256 (m ((c : Thread nD τ).loc main_arg6)) shapeCasts_S256_S1x256 := by
  show W1 m ρ c (Proc.devRef .tc main_v19) = _
  dsimp only [W1]; after_results; rfl

theorem V1_v20 (c : Dev nD) : V1 m ρ c main_v20 = shapeCast S1x256 (m ((c : Thread nD τ).loc main_arg7)) shapeCasts_S256_S1x256 := by
  show W1 m ρ c (Proc.devRef .tc main_v20) = _
  dsimp only [W1]; after_results; rfl

theorem V1_v21 (c : Dev nD) : V1 m ρ c main_v21 = shapeCast S1x256 (m ((c : Thread nD τ).loc main_arg8)) shapeCasts_S256_S1x256 := by
  show W1 m ρ c (Proc.devRef .tc main_v21) = _
  dsimp only [W1]; after_results; rfl

/-- What the edge region leaves: the row-wise edge update of the gathered endpoint rows and the edge rows. -/
theorem W2_v22 (c : Dev nD) : W2 m ρ c (Proc.devRef .tc main_v22)
    = Cert.Spec.edgeG (R := 160000)
        (gath (m ((c : Thread nD τ).loc main_arg0)) (endpoint0 (m ((c : Thread nD τ).loc main_arg1))))
        (gath (m ((c : Thread nD τ).loc main_arg0)) (endpoint1 (m ((c : Thread nD τ).loc main_arg1))))
        (m ((c : Thread nD τ).loc main_arg2)) (Cert.Spec.mat (m ((c : Thread nD τ).loc main_arg3)))
        (Cert.Spec.vec (m ((c : Thread nD τ).loc main_arg4))) (Cert.Spec.mat (m ((c : Thread nD τ).loc main_arg5)))
        (Cert.Spec.vec (m ((c : Thread nD τ).loc main_arg6))) (Cert.Spec.vec (m ((c : Thread nD τ).loc main_arg7)))
        (Cert.Spec.vec (m ((c : Thread nD τ).loc main_arg8))) := by
  refine (W2_arr m ρ c 9).trans ?_
  rw [Cert.KernelIdeal.EdgeArray.arr0_9 (V1 m ρ) c, V1_v10, V1_v17, V1_arg2, V1_arg3, V1_arg5, V1_v18, V1_v19, V1_v20, V1_v21]
  rw [row1_shapeCast, row1_shapeCast, row1_shapeCast, row1_shapeCast]

/-! ## What the node region is entered with -/

theorem W2_v3 (c : Dev nD) : W2 m ρ c (Proc.devRef .tc main_v3) = endpoint1 (m ((c : Thread nD τ).loc main_arg1)) :=
  (W2_of_ne m ρ c main_v3 (by decide)).trans (V1_v3 m ρ c)

theorem W1_arg0 (c : Dev nD) : W1 m ρ c (Proc.devRef .tc main_arg0) = m ((c : Thread nD τ).loc main_arg0) := by
  dsimp only [W1]; after_results
theorem W1_arg9 (c : Dev nD) : W1 m ρ c (Proc.devRef .tc main_arg9) = m ((c : Thread nD τ).loc main_arg9) := by
  dsimp only [W1]; after_results
theorem W1_arg10 (c : Dev nD) : W1 m ρ c (Proc.devRef .tc main_arg10) = m ((c : Thread nD τ).loc main_arg10) := by
  dsimp only [W1]; after_results
theorem W1_arg11 (c : Dev nD) : W1 m ρ c (Proc.devRef .tc main_arg11) = m ((c : Thread nD τ).loc main_arg11) := by
  dsimp only [W1]; after_results
theorem W1_arg12 (c : Dev nD) : W1 m ρ c (Proc.devRef .tc main_arg12) = m ((c : Thread nD τ).loc main_arg12) := by
  dsimp only [W1]; after_results
theorem W1_arg13 (c : Dev nD) : W1 m ρ c (Proc.devRef .tc main_arg13) = m ((c : Thread nD τ).loc main_arg13) := by
  dsimp only [W1]; after_results
theorem W1_arg14 (c : Dev nD) : W1 m ρ c (Proc.devRef .tc main_arg14) = m ((c : Thread nD τ).loc main_arg14) := by
  dsimp only [W1]; after_results

theorem W2_arg0 (c : Dev nD) : W2 m ρ c (Proc.devRef .tc main_arg0) = m ((c : Thread nD τ).loc main_arg0) :=
  (W2_of_ne m ρ c main_arg0 (by decide)).trans (W1_arg0 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)

theorem V3_arg0 (c : Dev nD) : V3 m ρ c main_arg0 = m ((c : Thread nD τ).loc main_arg0) := by
  show W3 m ρ c (Proc.devRef .tc main_arg0) = _
  dsimp only [W3]; after_results; exact W2_arg0 m ρ c
theorem V3_arg9 (c : Dev nD) : V3 m ρ c main_arg9 = m ((c : Thread nD τ).loc main_arg9) := by
  show W3 m ρ c (Proc.devRef .tc main_arg9) = _
  dsimp only [W3]; after_results; exact W2_arg9 m ρ c
theorem V3_arg11 (c : Dev nD) : V3 m ρ c main_arg11 = m ((c : Thread nD τ).loc main_arg11) := by
  show W3 m ρ c (Proc.devRef .tc main_arg11) = _
  dsimp only [W3]; after_results; exact W2_arg11 m ρ c

theorem V3_v25 (c : Dev nD) : V3 m ρ c main_v25
    = agg (endpoint1 (m ((c : Thread nD τ).loc main_arg1))) (W2 m ρ c (Proc.devRef .tc main_v22)) := by
  show W3 m ρ c (Proc.devRef .tc main_v25) = _
  dsimp only [W3]; after_results
  rw [W2_v3]; rfl

theorem V3_v26 (c : Dev nD) : V3 m ρ c main_v26 = shapeCast S1x512 (m ((c : Thread nD τ).loc main_arg10)) shapeCasts_S512_S1x512 := by
  show W3 m ρ c (Proc.devRef .tc main_v26) = _
  dsimp only [W3]; after_results
  rw [W2_arg10]; rfl
theorem V3_v27 (c : Dev nD) : V3 m ρ c main_v27 = shapeCast S1x256 (m ((c : Thread nD τ).loc main_arg12)) shapeCasts_S256_S1x256 := by
  show W3 m ρ c (Proc.devRef .tc main_v27) = _
  dsimp only [W3]; after_results
  rw [W2_arg12]; rfl
theorem V3_v28 (c : Dev nD) : V3 m ρ c main_v28 = shapeCast S1x256 (m ((c : Thread nD τ).loc main_arg13)) shapeCasts_S256_S1x256 := by
  show W3 m ρ c (Proc.devRef .tc main_v28) = _
  dsimp only [W3]; after_results
  rw [W2_arg13]; rfl
theorem V3_v29 (c : Dev nD) : V3 m ρ c main_v29 = shapeCast S1x256 (m ((c : Thread nD τ).loc main_arg14)) shapeCasts_S256_S1x256 := by
  show W3 m ρ c (Proc.devRef .tc main_v29) = _
  dsimp only [W3]; after_results
  rw [W2_arg14]; rfl

/-- What the node region leaves: the row-wise node update of the node rows and the aggregate's rows. -/
theorem W4_v30 (c : Dev nD) : W4 m ρ c (Proc.devRef .tc main_v30)
    = Cert.Spec.nodeG (R := 10000) (m ((c : Thread nD τ).loc main_arg0))
        (agg (endpoint1 (m ((c : Thread nD τ).loc main_arg1))) (W2 m ρ c (Proc.devRef .tc main_v22)))
        (Cert.Spec.mat (m ((c : Thread nD τ).loc main_arg9))) (Cert.Spec.vec (m ((c : Thread nD τ).loc main_arg10)))
        (Cert.Spec.mat (m ((c : Thread nD τ).loc main_arg11))) (Cert.Spec.vec (m ((c : Thread nD τ).loc main_arg12)))
        (Cert.Spec.vec (m ((c : Thread nD τ).loc main_arg13))) (Cert.Spec.vec (m ((c : Thread nD τ).loc main_arg14))) := by
  refine (W4_arr m ρ c 8).trans ?_
  rw [Cert.KernelIdeal.NodeArray.arr1_8 (V3 m ρ) c, V3_arg0, V3_v25, V3_arg9, V3_arg11, V3_v26, V3_v27, V3_v28, V3_v29]
  rw [row1_shapeCast, row1_shapeCast, row1_shapeCast, row1_shapeCast]

/-- The edge region's output array is touched by nothing after the region. -/
theorem W4_v22 (c : Dev nD) : W4 m ρ c (Proc.devRef .tc main_v22) = W2 m ρ c (Proc.devRef .tc main_v22) := by
  refine (W4_of_ne m ρ c main_v22 (by decide)).trans ?_
  dsimp only [W3]; after_results

end Cert.KernelIdeal.Value

end
-- ==== Proof.RefRun.lean ====
/-
  The reference program's @main read back as ONE straight line of host operations.

  @main is two windows run in order; four of its statements are calls of module-local functions (the rectifier
  twice, the variance twice, the latter calling a select helper), and a call means its callee's body over the
  call's own buffer record. Unfolding the windows and the callees at their call sites and reassociating the
  sequencing leaves a chain of 140 host operations: 84 from the first window (58 of its own, the rectifier's 3,
  the variance's 20 and its select helper's 3) and 56 from the second (30, 3, 20, 3). The library's run theorem
  for such a line then gives: every weakly fair execution terminates with each buffer at the fold of the
  operations over the launch contents.
-/
import proofs.«133940_j14731737825432_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first window's 84 operations, in order: the two index rows sliced, wrapped (a negative index plus
    10000) and gathered; the three arrays laid side by side; the first dense layer, the rectifier (3), the second
    dense layer; the mean; the variance (20, then its select helper's 3); the normalisation, scale, shift and
    residual; the zero array, the scatter-add and the node features laid side by side. -/
abbrev ops0 : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_c (constantI S_ 32 0#32),
    unary main_c main_v4 (broadcastInDim S160000 ![] bcast_S_S160000 : (⟨S_, .i32⟩ : BufTy).Contents (Elt F) → (⟨S160000, .i32⟩ : BufTy).Contents (Elt F)),
    binary main_v1 main_v4 main_v5 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v6 (broadcastInDim S160000 ![] bcast_S_S160000 : (⟨S_, .i32⟩ : BufTy).Contents (Elt F) → (⟨S160000, .i32⟩ : BufTy).Contents (Elt F)),
    binary main_v1 main_v6 main_v7 (addi : (⟨S160000, .i32⟩ : BufTy).Contents (Elt F) → (⟨S160000, .i32⟩ : BufTy).Contents (Elt F) → (⟨S160000, .i32⟩ : BufTy).Contents (Elt F)),
    ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v8 main_v9 (broadcastInDim S160000x1 ![0] bcast_S160000_S160000x1_0 : (⟨S160000, .i32⟩ : BufTy).Contents (Elt F) → (⟨S160000x1, .i32⟩ : BufTy).Contents (Elt F)),
    binary main_arg0 main_v9 main_v10 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    nullary main_c_1 (constantI S_ 32 0#32),
    unary main_c_1 main_v11 (broadcastInDim S160000 ![] bcast_S_S160000 : (⟨S_, .i32⟩ : BufTy).Contents (Elt F) → (⟨S160000, .i32⟩ : BufTy).Contents (Elt F)),
    binary main_v3 main_v11 main_v12 (cmpi .slt : (⟨S160000, .i32⟩ : BufTy).Contents (Elt F) → (⟨S160000, .i32⟩ : BufTy).Contents (Elt F) → (⟨S160000, .i1⟩ : BufTy).Contents (Elt F)),
    nullary main_c_2 (constantI S_ 32 10000#32),
    unary main_c_2 main_v13 (broadcastInDim S160000 ![] bcast_S_S160000 : (⟨S_, .i32⟩ : BufTy).Contents (Elt F) → (⟨S160000, .i32⟩ : BufTy).Contents (Elt F)),
    binary main_v3 main_v13 main_v14 (addi : (⟨S160000, .i32⟩ : BufTy).Contents (Elt F) → (⟨S160000, .i32⟩ : BufTy).Contents (Elt F) → (⟨S160000, .i32⟩ : BufTy).Contents (Elt F)),
    ternary main_v12 main_v14 main_v3 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v15 main_v16 (broadcastInDim S160000x1 ![0] bcast_S160000_S160000x1_0 : (⟨S160000, .i32⟩ : BufTy).Contents (Elt F) → (⟨S160000x1, .i32⟩ : BufTy).Contents (Elt F)),
    binary main_arg0 main_v16 main_v17 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    nary ![main_v10, main_v17, main_arg2] main_v18 (fun u => concatenate S160000x768 1 [⟨S160000x256, u 0⟩, ⟨S160000x256, u 1⟩, ⟨S160000x256, u 2⟩] concatenates_S160000x256_S160000x256_S160000x256_S160000x768_d1),
    binary main_v18 main_arg3 main_v19 ((fun l r => Host.dotGeneral dot_S160000x768_S768x512_S160000x512_1_0_0_1_n_n none l r) : (⟨S160000x768, .f32⟩ : BufTy).Contents (Elt F) → (⟨S768x512, .f32⟩ : BufTy).Contents (Elt F) → (⟨S160000x512, .f32⟩ : BufTy).Contents (Elt F)),
    unary main_arg4 main_v20 (broadcastInDim S1x512 ![1] bcast_S512_S1x512_1 : (⟨S512, .f32⟩ : BufTy).Contents (Elt F) → (⟨S1x512, .f32⟩ : BufTy).Contents (Elt F)),
    unary main_v20 main_v21 (broadcastInDim S160000x512 ![0, 1] bcast_S1x512_S160000x512_0_1 : (⟨S1x512, .f32⟩ : BufTy).Contents (Elt F) → (⟨S160000x512, .f32⟩ : BufTy).Contents (Elt F)),
    binary main_v19 main_v21 main_v22 (addf : (⟨S160000x512, .f32⟩ : BufTy).Contents (Elt F) → (⟨S160000x512, .f32⟩ : BufTy).Contents (Elt F) → (⟨S160000x512, .f32⟩ : BufTy).Contents (Elt F)),
    -- the rectifier of %22, into its call's buffers; its result is %23
    TRef.nullary main_call0.cst (constant S_ .f32 0x00000000#32),
    TRef.unary main_call0.cst main_call0.v0 (broadcastInDim S160000x512 ![] bcast_S_S160000x512),
    TRef.binary (.of main_v22) main_call0.v0 main_call0.v1 maximumf,
    binary main_v23 main_arg5 main_v24 ((fun l r => Host.dotGeneral dot_S160000x512_S512x256_S160000x256_1_0_0_1_n_n none l r) : (⟨S160000x512, .f32⟩ : BufTy).Contents (Elt F) → (⟨S512x256, .f32⟩ : BufTy).Contents (Elt F) → (⟨S160000x256, .f32⟩ : BufTy).Contents (Elt F)),
    unary main_arg6 main_v25 (broadcastInDim S1x256 ![1] bcast_S256_S1x256_1 : (⟨S256, .f32⟩ : BufTy).Contents (Elt F) → (⟨S1x256, .f32⟩ : BufTy).Contents (Elt F)),
    unary main_v25 main_v26 (broadcastInDim S160000x256 ![0, 1] bcast_S1x256_S160000x256_0_1 : (⟨S1x256, .f32⟩ : BufTy).Contents (Elt F) → (⟨S160000x256, .f32⟩ : BufTy).Contents (Elt F)),
    binary main_v24 main_v26 main_v27 (addf : (⟨S160000x256, .f32⟩ : BufTy).Contents (Elt F) → (⟨S160000x256, .f32⟩ : BufTy).Contents (Elt F) → (⟨S160000x256, .f32⟩ : BufTy).Contents (Elt F)),
    nullary main_cst (constant S_ .f32 0x00000000#32),
    binary main_v27 main_cst main_v28 ((fun x v => Host.reduceAdd x v reducesTo_S160000x256_S160000_d1 h_S_) : (⟨S160000x256, .f32⟩ : BufTy).Contents (Elt F) → (⟨S_, .f32⟩ : BufTy).Contents (Elt F) → (⟨S160000, .f32⟩ : BufTy).Contents (Elt F)),
    unary main_v28 main_v29 (broadcastInDim S160000x1 ![0] bcast_S160000_S160000x1_0 : (⟨S160000, .f32⟩ : BufTy).Contents (Elt F) → (⟨S160000x1, .f32⟩ : BufTy).Contents (Elt F)),
    nullary main_cst_3 (constant S_ .f32 0x43800000#32),
    unary main_cst_3 main_v30 (broadcastInDim S160000x1 ![] bcast_S_S160000x1 : (⟨S_, .f32⟩ : BufTy).Contents (Elt F) → (⟨S160000x1, .f32⟩ : BufTy).Contents (Elt F)),
    binary main_v29 main_v30 main_v31 (Host.divf : (⟨S160000x1, .f32⟩ : BufTy).Contents (Elt F) → (⟨S160000x1, .f32⟩ : BufTy).Contents (Elt F) → (⟨S160000x1, .f32⟩ : BufTy).Contents (Elt F)),
    nullary main_c_4 (constantI S_ 32 0#32),
    -- the variance of %27 (degrees of freedom taken off: %c_4), into its call's buffers
    TRef.nullary main_call1.cst (constant S_ .f32 0x00000000#32),
    TRef.binary (.of main_v27) main_call1.cst main_call1.v0 (fun x v => Host.reduceAdd x v reducesTo_S160000x256_S160000_d1 h_S_),
    TRef.unary main_call1.v0 main_call1.v1 (broadcastInDim S160000x1 ![0] bcast_S160000_S160000x1_0),
    TRef.nullary main_call1.cst_0 (constant S_ .f32 0x43800000#32),
    TRef.unary main_call1.cst_0 main_call1.v2 (broadcastInDim S160000x1 ![] bcast_S_S160000x1),
    TRef.binary main_call1.v1 main_call1.v2 main_call1.v3 Host.divf,
    TRef.unary main_call1.v3 main_call1.v4 (broadcastInDim S160000x256 ![0, 1] bcast_S160000x1_S160000x256_0_1),
    TRef.binary (.of main_v27) main_call1.v4 main_call1.v5 subf,
    TRef.binary main_call1.v5 main_call1.v5 main_call1.v6 mulf,
    TRef.unary (.of main_c_4) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S160000x256_S160000_d1 h_S_),
    TRef.unary main_call1.v9 main_call1.v10 (broadcastInDim S160000x1 ![0] bcast_S160000_S160000x1_0),
    TRef.unary main_call1.v8 main_call1.v11 (broadcastInDim S160000x1 ![] bcast_S_S160000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    -- its select helper: the quotient where the divisor is positive, else the literal; the result is %32
    TRef.unary main_call1.cst_4 main_call1.call0.v0 id,
    TRef.unary main_call1.call0.v0 main_call1.call0.v1 (broadcastInDim S160000x1 ![] bcast_S_S160000x1),
    TRef.ternary main_call1.v13 main_call1.v12 main_call1.call0.v1 main_call1.call0.v2 (fun p a b => select (broadcastInDim S160000x1 ![] bcast_S_S160000x1 p) a b),
    unary main_v31 main_v33 (broadcastInDim S160000x256 ![0, 1] bcast_S160000x1_S160000x256_0_1 : (⟨S160000x1, .f32⟩ : BufTy).Contents (Elt F) → (⟨S160000x256, .f32⟩ : BufTy).Contents (Elt F)),
    binary main_v27 main_v33 main_v34 (subf : (⟨S160000x256, .f32⟩ : BufTy).Contents (Elt F) → (⟨S160000x256, .f32⟩ : BufTy).Contents (Elt F) → (⟨S160000x256, .f32⟩ : BufTy).Contents (Elt F)),
    nullary main_cst_5 (constant S_ .f32 0x3727C5AC#32),
    unary main_cst_5 main_v35 (broadcastInDim S160000x1 ![] bcast_S_S160000x1 : (⟨S_, .f32⟩ : BufTy).Contents (Elt F) → (⟨S160000x1, .f32⟩ : BufTy).Contents (Elt F)),
    binary main_v32 main_v35 main_v36 (addf : (⟨S160000x1, .f32⟩ : BufTy).Contents (Elt F) → (⟨S160000x1, .f32⟩ : BufTy).Contents (Elt F) → (⟨S160000x1, .f32⟩ : BufTy).Contents (Elt F)),
    unary main_v36 main_v37 (Host.rsqrt : (⟨S160000x1, .f32⟩ : BufTy).Contents (Elt F) → (⟨S160000x1, .f32⟩ : BufTy).Contents (Elt F)),
    unary main_v37 main_v38 (broadcastInDim S160000x256 ![0, 1] bcast_S160000x1_S160000x256_0_1 : (⟨S160000x1, .f32⟩ : BufTy).Contents (Elt F) → (⟨S160000x256, .f32⟩ : BufTy).Contents (Elt F)),
    binary main_v34 main_v38 main_v39 (mulf : (⟨S160000x256, .f32⟩ : BufTy).Contents (Elt F) → (⟨S160000x256, .f32⟩ : BufTy).Contents (Elt F) → (⟨S160000x256, .f32⟩ : BufTy).Contents (Elt F)),
    unary main_arg7 main_v40 (broadcastInDim S1x256 ![1] bcast_S256_S1x256_1 : (⟨S256, .f32⟩ : BufTy).Contents (Elt F) → (⟨S1x256, .f32⟩ : BufTy).Contents (Elt F)),
    unary main_v40 main_v41 (broadcastInDim S160000x256 ![0, 1] bcast_S1x256_S160000x256_0_1 : (⟨S1x256, .f32⟩ : BufTy).Contents (Elt F) → (⟨S160000x256, .f32⟩ : BufTy).Contents (Elt F)),
    binary main_v39 main_v41 main_v42 (mulf : (⟨S160000x256, .f32⟩ : BufTy).Contents (Elt F) → (⟨S160000x256, .f32⟩ : BufTy).Contents (Elt F) → (⟨S160000x256, .f32⟩ : BufTy).Contents (Elt F)),
    unary main_arg8 main_v43 (broadcastInDim S1x256 ![1] bcast_S256_S1x256_1 : (⟨S256, .f32⟩ : BufTy).Contents (Elt F) → (⟨S1x256, .f32⟩ : BufTy).Contents (Elt F)),
    unary main_v43 main_v44 (broadcastInDim S160000x256 ![0, 1] bcast_S1x256_S160000x256_0_1 : (⟨S1x256, .f32⟩ : BufTy).Contents (Elt F) → (⟨S160000x256, .f32⟩ : BufTy).Contents (Elt F)),
    binary main_v42 main_v44 main_v45 (addf : (⟨S160000x256, .f32⟩ : BufTy).Contents (Elt F) → (⟨S160000x256, .f32⟩ : BufTy).Contents (Elt F) → (⟨S160000x256, .f32⟩ : BufTy).Contents (Elt F)),
    binary main_arg2 main_v45 main_v46 (addf : (⟨S160000x256, .f32⟩ : BufTy).Contents (Elt F) → (⟨S160000x256, .f32⟩ : BufTy).Contents (Elt F) → (⟨S160000x256, .f32⟩ : BufTy).Contents (Elt F)),
    nullary main_cst_6 (constant S_ .f32 0x00000000#32),
    unary main_cst_6 main_v47 (broadcastInDim S10000x256 ![] bcast_S_S10000x256 : (⟨S_, .f32⟩ : BufTy).Contents (Elt F) → (⟨S10000x256, .f32⟩ : BufTy).Contents (Elt F)),
    unary main_v3 main_v48 (broadcastInDim S160000x1 ![0] bcast_S160000_S160000x1_0 : (⟨S160000, .i32⟩ : BufTy).Contents (Elt F) → (⟨S160000x1, .i32⟩ : BufTy).Contents (Elt F)),
    ternary main_v47 main_v48 main_v46 main_v49 ((fun x i u => Host.scatterAdd scatter_S10000x256_S160000x1_S160000x256_1_0_0_1 x i u) : (⟨S10000x256, .f32⟩ : BufTy).Contents (Elt F) → (⟨S160000x1, .i32⟩ : BufTy).Contents (Elt F) → (⟨S160000x256, .f32⟩ : BufTy).Contents (Elt F) → (⟨S10000x256, .f32⟩ : BufTy).Contents (Elt F)),
    binary main_arg0 main_v49 main_v50 ((fun a b => concatenate S10000x512 1 [⟨S10000x256, a⟩, ⟨S10000x256, b⟩] concatenates_S10000x256_S10000x256_S10000x512_d1) : (⟨S10000x256, .f32⟩ : BufTy).Contents (Elt F) → (⟨S10000x256, .f32⟩ : BufTy).Contents (Elt F) → (⟨S10000x512, .f32⟩ : BufTy).Contents (Elt F)) ]

/-- The second window's 56 operations, in order: the first dense layer, the rectifier (3), the second dense
    layer; the mean; the variance (20, then its select helper's 3); the normalisation, scale, shift and
    residual. -/
abbrev ops1 : List (HloOp τ sig (Elt F)) :=
  [ binary main_v50 main_arg9 main_v51 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    unary main_arg10 main_v52 (broadcastInDim S1x512 ![1] bcast_S512_S1x512_1 : (⟨S512, .f32⟩ : BufTy).Contents (Elt F) → (⟨S1x512, .f32⟩ : BufTy).Contents (Elt F)),
    unary main_v52 main_v53 (broadcastInDim S10000x512 ![0, 1] bcast_S1x512_S10000x512_0_1 : (⟨S1x512, .f32⟩ : BufTy).Contents (Elt F) → (⟨S10000x512, .f32⟩ : BufTy).Contents (Elt F)),
    binary main_v51 main_v53 main_v54 (addf : (⟨S10000x512, .f32⟩ : BufTy).Contents (Elt F) → (⟨S10000x512, .f32⟩ : BufTy).Contents (Elt F) → (⟨S10000x512, .f32⟩ : BufTy).Contents (Elt F)),
    -- the rectifier of %54, into its call's buffers; its result is %55
    TRef.nullary main_call2.cst (constant S_ .f32 0x00000000#32),
    TRef.unary main_call2.cst main_call2.v0 (broadcastInDim S10000x512 ![] bcast_S_S10000x512),
    TRef.binary (.of main_v54) main_call2.v0 main_call2.v1 maximumf,
    binary main_v55 main_arg11 main_v56 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    unary main_arg12 main_v57 (broadcastInDim S1x256 ![1] bcast_S256_S1x256_1 : (⟨S256, .f32⟩ : BufTy).Contents (Elt F) → (⟨S1x256, .f32⟩ : BufTy).Contents (Elt F)),
    unary main_v57 main_v58 (broadcastInDim S10000x256 ![0, 1] bcast_S1x256_S10000x256_0_1 : (⟨S1x256, .f32⟩ : BufTy).Contents (Elt F) → (⟨S10000x256, .f32⟩ : BufTy).Contents (Elt F)),
    binary main_v56 main_v58 main_v59 (addf : (⟨S10000x256, .f32⟩ : BufTy).Contents (Elt F) → (⟨S10000x256, .f32⟩ : BufTy).Contents (Elt F) → (⟨S10000x256, .f32⟩ : BufTy).Contents (Elt F)),
    nullary main_cst_7 (constant S_ .f32 0x00000000#32),
    binary main_v59 main_cst_7 main_v60 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v60 main_v61 (broadcastInDim S10000x1 ![0] bcast_S10000_S10000x1_0 : (⟨S10000, .f32⟩ : BufTy).Contents (Elt F) → (⟨S10000x1, .f32⟩ : BufTy).Contents (Elt F)),
    nullary main_cst_8 (constant S_ .f32 0x43800000#32),
    unary main_cst_8 main_v62 (broadcastInDim S10000x1 ![] bcast_S_S10000x1 : (⟨S_, .f32⟩ : BufTy).Contents (Elt F) → (⟨S10000x1, .f32⟩ : BufTy).Contents (Elt F)),
    binary main_v61 main_v62 main_v63 (Host.divf : (⟨S10000x1, .f32⟩ : BufTy).Contents (Elt F) → (⟨S10000x1, .f32⟩ : BufTy).Contents (Elt F) → (⟨S10000x1, .f32⟩ : BufTy).Contents (Elt F)),
    nullary main_c_9 (constantI S_ 32 0#32),
    -- the variance of %59 (degrees of freedom taken off: %c_9), into its call's buffers
    TRef.nullary main_call3.cst (constant S_ .f32 0x00000000#32),
    TRef.binary (.of main_v59) main_call3.cst main_call3.v0 (fun x v => Host.reduceAdd x v reducesTo_S10000x256_S10000_d1 h_S_),
    TRef.unary main_call3.v0 main_call3.v1 (broadcastInDim S10000x1 ![0] bcast_S10000_S10000x1_0),
    TRef.nullary main_call3.cst_0 (constant S_ .f32 0x43800000#32),
    TRef.unary main_call3.cst_0 main_call3.v2 (broadcastInDim S10000x1 ![] bcast_S_S10000x1),
    TRef.binary main_call3.v1 main_call3.v2 main_call3.v3 Host.divf,
    TRef.unary main_call3.v3 main_call3.v4 (broadcastInDim S10000x256 ![0, 1] bcast_S10000x1_S10000x256_0_1),
    TRef.binary (.of main_v59) main_call3.v4 main_call3.v5 subf,
    TRef.binary main_call3.v5 main_call3.v5 main_call3.v6 mulf,
    TRef.unary (.of main_c_9) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S10000x256_S10000_d1 h_S_),
    TRef.unary main_call3.v9 main_call3.v10 (broadcastInDim S10000x1 ![0] bcast_S10000_S10000x1_0),
    TRef.unary main_call3.v8 main_call3.v11 (broadcastInDim S10000x1 ![] bcast_S_S10000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    -- its select helper: the quotient where the divisor is positive, else the literal; the result is %64
    TRef.unary main_call3.cst_4 main_call3.call0.v0 id,
    TRef.unary main_call3.call0.v0 main_call3.call0.v1 (broadcastInDim S10000x1 ![] bcast_S_S10000x1),
    TRef.ternary main_call3.v13 main_call3.v12 main_call3.call0.v1 main_call3.call0.v2 (fun p a b => select (broadcastInDim S10000x1 ![] bcast_S_S10000x1 p) a b),
    unary main_v63 main_v65 (broadcastInDim S10000x256 ![0, 1] bcast_S10000x1_S10000x256_0_1 : (⟨S10000x1, .f32⟩ : BufTy).Contents (Elt F) → (⟨S10000x256, .f32⟩ : BufTy).Contents (Elt F)),
    binary main_v59 main_v65 main_v66 (subf : (⟨S10000x256, .f32⟩ : BufTy).Contents (Elt F) → (⟨S10000x256, .f32⟩ : BufTy).Contents (Elt F) → (⟨S10000x256, .f32⟩ : BufTy).Contents (Elt F)),
    nullary main_cst_10 (constant S_ .f32 0x3727C5AC#32),
    unary main_cst_10 main_v67 (broadcastInDim S10000x1 ![] bcast_S_S10000x1 : (⟨S_, .f32⟩ : BufTy).Contents (Elt F) → (⟨S10000x1, .f32⟩ : BufTy).Contents (Elt F)),
    binary main_v64 main_v67 main_v68 (addf : (⟨S10000x1, .f32⟩ : BufTy).Contents (Elt F) → (⟨S10000x1, .f32⟩ : BufTy).Contents (Elt F) → (⟨S10000x1, .f32⟩ : BufTy).Contents (Elt F)),
    unary main_v68 main_v69 (Host.rsqrt : (⟨S10000x1, .f32⟩ : BufTy).Contents (Elt F) → (⟨S10000x1, .f32⟩ : BufTy).Contents (Elt F)),
    unary main_v69 main_v70 (broadcastInDim S10000x256 ![0, 1] bcast_S10000x1_S10000x256_0_1 : (⟨S10000x1, .f32⟩ : BufTy).Contents (Elt F) → (⟨S10000x256, .f32⟩ : BufTy).Contents (Elt F)),
    binary main_v66 main_v70 main_v71 (mulf : (⟨S10000x256, .f32⟩ : BufTy).Contents (Elt F) → (⟨S10000x256, .f32⟩ : BufTy).Contents (Elt F) → (⟨S10000x256, .f32⟩ : BufTy).Contents (Elt F)),
    unary main_arg13 main_v72 (broadcastInDim S1x256 ![1] bcast_S256_S1x256_1 : (⟨S256, .f32⟩ : BufTy).Contents (Elt F) → (⟨S1x256, .f32⟩ : BufTy).Contents (Elt F)),
    unary main_v72 main_v73 (broadcastInDim S10000x256 ![0, 1] bcast_S1x256_S10000x256_0_1 : (⟨S1x256, .f32⟩ : BufTy).Contents (Elt F) → (⟨S10000x256, .f32⟩ : BufTy).Contents (Elt F)),
    binary main_v71 main_v73 main_v74 (mulf : (⟨S10000x256, .f32⟩ : BufTy).Contents (Elt F) → (⟨S10000x256, .f32⟩ : BufTy).Contents (Elt F) → (⟨S10000x256, .f32⟩ : BufTy).Contents (Elt F)),
    unary main_arg14 main_v75 (broadcastInDim S1x256 ![1] bcast_S256_S1x256_1 : (⟨S256, .f32⟩ : BufTy).Contents (Elt F) → (⟨S1x256, .f32⟩ : BufTy).Contents (Elt F)),
    unary main_v75 main_v76 (broadcastInDim S10000x256 ![0, 1] bcast_S1x256_S10000x256_0_1 : (⟨S1x256, .f32⟩ : BufTy).Contents (Elt F) → (⟨S10000x256, .f32⟩ : BufTy).Contents (Elt F)),
    binary main_v74 main_v76 main_v77 (addf : (⟨S10000x256, .f32⟩ : BufTy).Contents (Elt F) → (⟨S10000x256, .f32⟩ : BufTy).Contents (Elt F) → (⟨S10000x256, .f32⟩ : BufTy).Contents (Elt F)),
    binary main_arg0 main_v77 main_v78 (addf : (⟨S10000x256, .f32⟩ : BufTy).Contents (Elt F) → (⟨S10000x256, .f32⟩ : BufTy).Contents (Elt F) → (⟨S10000x256, .f32⟩ : BufTy).Contents (Elt F)) ]

/-- @main's 140 operations, in order: the first window's, then the second's. -/
abbrev ops : List (HloOp τ sig (Elt F)) := ops0 ++ ops1

-- eighty-four binds re-associated: the rewrite under the chain recurses once per statement
set_option maxRecDepth 4096 in
set_option maxHeartbeats 4000000 in
/-- The first window is its line: the rectifier's, the variance's and the select helper's definitions unfolded
    at their calls, the sequencing reassociated. -/
theorem part0_eq (c : Dev nD) : main_part0 (F := F) c = seq ops0 := by
  simp only [main_part0, fn_relu.body, fn_var.body, fn_where.body, seq, bind_assoc, pure_bind]
  rfl

set_option maxRecDepth 4096 in
set_option maxHeartbeats 4000000 in
/-- The second window is its line, likewise (here the reassociated chain is the line's syntactically). -/
theorem part1_eq (c : Dev nD) : main_part1 (F := F) c = seq ops1 := by
  simp only [main_part1, fn_relu_0.body, fn_var_1.body, fn_where_2.body, seq, bind_assoc, pure_bind]

/-- @main is the two lines run in order, which is their concatenation run as one. -/
theorem main_eq (c : Dev nD) : main (F := F) c = seq ops := by
  rw [show (ops : List (HloOp τ sig (Elt F))) = ops0 ++ ops1 from rfl, seq_append, ← part0_eq c, ← part1_eq c]
  rfl

/-- The fold over a concatenation is the second line's fold from the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- @main's fold is the second window's from the first window's. -/
theorem after_ops (V : Valuation τ sig (Elt F)) : after ops V = after ops1 (after ops0 V) :=
  after_concat ops0 ops1 V

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub ..,
    nullary_bufs_sub .., unary_bufs_sub .., binary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., unary_bufs_sub ..,
    ternary_bufs_sub .., binary_bufs_sub ..⟩

theorem ops1_sub : (ops1 : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub ..⟩

/-- Every operation of @main touches TensorCore references only: each window's do. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- No operation of the first window is an allocation without contents: by computation on the literal list. -/
theorem ops0_fresh : ∀ op ∈ (ops0 : List (HloOp τ sig (Elt F))), op.fresh = ∅ := by
  intro _ h; (repeat (cases h with | head => rfl | tail _ h => ?_)); exact nomatch h

/-- Nor of the second. -/
theorem ops1_fresh : ∀ op ∈ (ops1 : List (HloOp τ sig (Elt F))), op.fresh = ∅ := by
  intro _ h; (repeat (cases h with | head => rfl | tail _ h => ?_)); exact nomatch h

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

end Cert.ReferenceIdeal.Run

end
-- ==== Proof.RefStage.lean ====
/-
  The reference's two dense stages as pure functions of their operands, and what they compute on the extended reals.

  `refEdge` and `refNode` are the host operations of the reference composed in the order the program lists them: the
  concatenation of the feature rows, the first dense layer and its bias, the rectifier, the second dense layer and its bias,
  the row mean, the guarded row variance, the normalisation with scale and shift, and the residual sum. On the extended
  reals each is the row-wise function of the specification (`refEdge_eq`, `refNode_eq`).
-/
import proofs.«133940_j14731737825432_1_alg».proof.Proof.Gen.ReferenceIdeal
import proofs.«133940_j14731737825432_1_alg».proof.Proof.Spec
import proofs.«133940_j14731737825432_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Stage

open Cert.ReferenceIdeal Cert.ReferenceIdeal.Gen Idealize.ShloMosaic Idealize.ShloMosaic.ValueIdx

section Defs
variable {F : FTy → Type} [FloatOps F]

/-- The edge update as the reference writes it: operations %18 … %46 of @main composed, the three outlined
    functions (the rectifier, the variance, its guard's select) inlined over the call's values. `xi` stands for the
    first gathered array (%10), `xj` for the second (%17), `ea` for the edge array (%arg2). -/
def refEdge (xi xj ea : (⟨S160000x256, .f32⟩ : BufTy).Contents (Elt F)) (w1 : (⟨S768x512, .f32⟩ : BufTy).Contents (Elt F))
    (b1 : (⟨S512, .f32⟩ : BufTy).Contents (Elt F)) (w2 : (⟨S512x256, .f32⟩ : BufTy).Contents (Elt F))
    (b2 g β : (⟨S256, .f32⟩ : BufTy).Contents (Elt F)) : (⟨S160000x256, .f32⟩ : BufTy).Contents (Elt F) :=
  have v18 : (⟨S160000x768, .f32⟩ : BufTy).Contents (Elt F) := concatenate S160000x768 1 [⟨S160000x256, xi⟩, ⟨S160000x256, xj⟩, ⟨S160000x256, ea⟩] concatenates_S160000x256_S160000x256_S160000x256_S160000x768_d1 -- %18 = stablehlo.concatenate, dim = 1
  have v19 : (⟨S160000x512, .f32⟩ : BufTy).Contents (Elt F) := Host.dotGeneral dot_S160000x768_S768x512_S160000x512_1_0_0_1_n_n none v18 w1 -- %19 = stablehlo.dot_general %18, w1, contracting_dims = [1] x [0]
  have v20 : (⟨S1x512, .f32⟩ : BufTy).Contents (Elt F) := broadcastInDim S1x512 ![1] bcast_S512_S1x512_1 b1 -- %20 = stablehlo.broadcast_in_dim b1, dims = [1]
  have v21 : (⟨S160000x512, .f32⟩ : BufTy).Contents (Elt F) := broadcastInDim S160000x512 ![0, 1] bcast_S1x512_S160000x512_0_1 v20 -- %21 = stablehlo.broadcast_in_dim %20, dims = [0, 1]
  have v22 : (⟨S160000x512, .f32⟩ : BufTy).Contents (Elt F) := addf v19 v21 -- %22 = stablehlo.add %19, %21
  have r_cst : (⟨S_, .f32⟩ : BufTy).Contents (Elt F) := constant S_ .f32 0x00000000#32 -- @relu: %cst = stablehlo.constant dense<0.0>
  have r_v0 : (⟨S160000x512, .f32⟩ : BufTy).Contents (Elt F) := broadcastInDim S160000x512 ![] bcast_S_S160000x512 r_cst -- @relu: %0 = stablehlo.broadcast_in_dim %cst, dims = []
  have v23 : (⟨S160000x512, .f32⟩ : BufTy).Contents (Elt F) := maximumf v22 r_v0 -- %23 = @relu(%22): %1 = stablehlo.maximum %arg0, %0
  have v24 : (⟨S160000x256, .f32⟩ : BufTy).Contents (Elt F) := Host.dotGeneral dot_S160000x512_S512x256_S160000x256_1_0_0_1_n_n none v23 w2 -- %24 = stablehlo.dot_general %23, w2, contracting_dims = [1] x [0]
  have v25 : (⟨S1x256, .f32⟩ : BufTy).Contents (Elt F) := broadcastInDim S1x256 ![1] bcast_S256_S1x256_1 b2 -- %25 = stablehlo.broadcast_in_dim b2, dims = [1]
  have v26 : (⟨S160000x256, .f32⟩ : BufTy).Contents (Elt F) := broadcastInDim S160000x256 ![0, 1] bcast_S1x256_S160000x256_0_1 v25 -- %26 = stablehlo.broadcast_in_dim %25, dims = [0, 1]
  have v27 : (⟨S160000x256, .f32⟩ : BufTy).Contents (Elt F) := addf v24 v26 -- %27 = stablehlo.add %24, %26
  have cst : (⟨S_, .f32⟩ : BufTy).Contents (Elt F) := constant S_ .f32 0x00000000#32 -- %cst = stablehlo.constant dense<0.0>
  have v28 : (⟨S160000, .f32⟩ : BufTy).Contents (Elt F) := Host.reduceAdd v27 cst reducesTo_S160000x256_S160000_d1 h_S_ -- %28 = stablehlo.reduce(%27 init: %cst) add across dimensions = [1]
  have v29 : (⟨S160000x1, .f32⟩ : BufTy).Contents (Elt F) := broadcastInDim S160000x1 ![0] bcast_S160000_S160000x1_0 v28 -- %29 = stablehlo.broadcast_in_dim %28, dims = [0]
  have cst_3 : (⟨S_, .f32⟩ : BufTy).Contents (Elt F) := constant S_ .f32 0x43800000#32 -- %cst_3 = stablehlo.constant dense<256.0>
  have v30 : (⟨S160000x1, .f32⟩ : BufTy).Contents (Elt F) := broadcastInDim S160000x1 ![] bcast_S_S160000x1 cst_3 -- %30 = stablehlo.broadcast_in_dim %cst_3, dims = []
  have v31 : (⟨S160000x1, .f32⟩ : BufTy).Contents (Elt F) := Host.divf v29 v30 -- %31 = stablehlo.divide %29, %30
  have c_4 : (⟨S_, .i32⟩ : BufTy).Contents (Elt F) := constantI S_ 32 0#32 -- %c_4 = stablehlo.constant dense<0> : tensor<i32>
  have q_cst : (⟨S_, .f32⟩ : BufTy).Contents (Elt F) := constant S_ .f32 0x00000000#32 -- @_var: %cst = stablehlo.constant dense<0.0>
  have q_v0 : (⟨S160000, .f32⟩ : BufTy).Contents (Elt F) := Host.reduceAdd v27 q_cst reducesTo_S160000x256_S160000_d1 h_S_ -- @_var: %0 = stablehlo.reduce(%arg0 init: %cst) add across dimensions = [1]
  have q_v1 : (⟨S160000x1, .f32⟩ : BufTy).Contents (Elt F) := broadcastInDim S160000x1 ![0] bcast_S160000_S160000x1_0 q_v0 -- @_var: %1 = stablehlo.broadcast_in_dim %0, dims = [0]
  have q_cst_0 : (⟨S_, .f32⟩ : BufTy).Contents (Elt F) := constant S_ .f32 0x43800000#32 -- @_var: %cst_0 = stablehlo.constant dense<256.0>
  have q_v2 : (⟨S160000x1, .f32⟩ : BufTy).Contents (Elt F) := broadcastInDim S160000x1 ![] bcast_S_S160000x1 q_cst_0 -- @_var: %2 = stablehlo.broadcast_in_dim %cst_0, dims = []
  have q_v3 : (⟨S160000x1, .f32⟩ : BufTy).Contents (Elt F) := Host.divf q_v1 q_v2 -- @_var: %3 = stablehlo.divide %1, %2
  have q_v4 : (⟨S160000x256, .f32⟩ : BufTy).Contents (Elt F) := broadcastInDim S160000x256 ![0, 1] bcast_S160000x1_S160000x256_0_1 q_v3 -- @_var: %4 = stablehlo.broadcast_in_dim %3, dims = [0, 1]
  have q_v5 : (⟨S160000x256, .f32⟩ : BufTy).Contents (Elt F) := subf v27 q_v4 -- @_var: %5 = stablehlo.subtract %arg0, %4
  have q_v6 : (⟨S160000x256, .f32⟩ : BufTy).Contents (Elt F) := mulf q_v5 q_v5 -- @_var: %6 = chlo.square %5
  have q_v7 : (⟨S_, .f32⟩ : BufTy).Contents (Elt F) := sitofp .f32 c_4 -- @_var: %7 = stablehlo.convert %arg1 : i32 -> f32
  have q_cst_1 : (⟨S_, .f32⟩ : BufTy).Contents (Elt F) := constant S_ .f32 0x43800000#32 -- @_var: %cst_1 = stablehlo.constant dense<256.0>
  have q_v8 : (⟨S_, .f32⟩ : BufTy).Contents (Elt F) := subf q_cst_1 q_v7 -- @_var: %8 = stablehlo.subtract %cst_1, %7
  have q_cst_2 : (⟨S_, .f32⟩ : BufTy).Contents (Elt F) := constant S_ .f32 0x00000000#32 -- @_var: %cst_2 = stablehlo.constant dense<0.0>
  have q_v9 : (⟨S160000, .f32⟩ : BufTy).Contents (Elt F) := Host.reduceAdd q_v6 q_cst_2 reducesTo_S160000x256_S160000_d1 h_S_ -- @_var: %9 = stablehlo.reduce(%6 init: %cst_2) add across dimensions = [1]
  have q_v10 : (⟨S160000x1, .f32⟩ : BufTy).Contents (Elt F) := broadcastInDim S160000x1 ![0] bcast_S160000_S160000x1_0 q_v9 -- @_var: %10 = stablehlo.broadcast_in_dim %9, dims = [0]
  have q_v11 : (⟨S160000x1, .f32⟩ : BufTy).Contents (Elt F) := broadcastInDim S160000x1 ![] bcast_S_S160000x1 q_v8 -- @_var: %11 = stablehlo.broadcast_in_dim %8, dims = []
  have q_v12 : (⟨S160000x1, .f32⟩ : BufTy).Contents (Elt F) := Host.divf q_v10 q_v11 -- @_var: %12 = stablehlo.divide %10, %11
  have q_cst_3 : (⟨S_, .f32⟩ : BufTy).Contents (Elt F) := constant S_ .f32 0x00000000#32 -- @_var: %cst_3 = stablehlo.constant dense<0.0>
  have q_v13 : (⟨S_, .i1⟩ : BufTy).Contents (Elt F) := cmpf .ogt q_v8 q_cst_3 -- @_var: %13 = stablehlo.compare GT, %8, %cst_3, FLOAT
  have q_cst_4 : (⟨S_, .f32⟩ : BufTy).Contents (Elt F) := constant S_ .f32 0x7FC00000#32 -- @_var: %cst_4 = stablehlo.constant dense<0x7FC00000>
  have w_v0 : (⟨S_, .f32⟩ : BufTy).Contents (Elt F) := id q_cst_4 -- @_where: %0 = stablehlo.convert %arg2
  have w_v1 : (⟨S160000x1, .f32⟩ : BufTy).Contents (Elt F) := broadcastInDim S160000x1 ![] bcast_S_S160000x1 w_v0 -- @_where: %1 = stablehlo.broadcast_in_dim %0, dims = []
  have v32 : (⟨S160000x1, .f32⟩ : BufTy).Contents (Elt F) := select (broadcastInDim S160000x1 ![] bcast_S_S160000x1 q_v13) q_v12 w_v1 -- %32 = @_var(%27, %c_4): @_where: %2 = stablehlo.select %arg0, %arg1, %1
  have v33 : (⟨S160000x256, .f32⟩ : BufTy).Contents (Elt F) := broadcastInDim S160000x256 ![0, 1] bcast_S160000x1_S160000x256_0_1 v31 -- %33 = stablehlo.broadcast_in_dim %31, dims = [0, 1]
  have v34 : (⟨S160000x256, .f32⟩ : BufTy).Contents (Elt F) := subf v27 v33 -- %34 = stablehlo.subtract %27, %33
  have cst_5 : (⟨S_, .f32⟩ : BufTy).Contents (Elt F) := constant S_ .f32 0x3727C5AC#32 -- %cst_5 = stablehlo.constant dense<9.99999974E-6>
  have v35 : (⟨S160000x1, .f32⟩ : BufTy).Contents (Elt F) := broadcastInDim S160000x1 ![] bcast_S_S160000x1 cst_5 -- %35 = stablehlo.broadcast_in_dim %cst_5, dims = []
  have v36 : (⟨S160000x1, .f32⟩ : BufTy).Contents (Elt F) := addf v32 v35 -- %36 = stablehlo.add %32, %35
  have v37 : (⟨S160000x1, .f32⟩ : BufTy).Contents (Elt F) := Host.rsqrt v36 -- %37 = stablehlo.rsqrt %36
  have v38 : (⟨S160000x256, .f32⟩ : BufTy).Contents (Elt F) := broadcastInDim S160000x256 ![0, 1] bcast_S160000x1_S160000x256_0_1 v37 -- %38 = stablehlo.broadcast_in_dim %37, dims = [0, 1]
  have v39 : (⟨S160000x256, .f32⟩ : BufTy).Contents (Elt F) := mulf v34 v38 -- %39 = stablehlo.multiply %34, %38
  have v40 : (⟨S1x256, .f32⟩ : BufTy).Contents (Elt F) := broadcastInDim S1x256 ![1] bcast_S256_S1x256_1 g -- %40 = stablehlo.broadcast_in_dim g, dims = [1]
  have v41 : (⟨S160000x256, .f32⟩ : BufTy).Contents (Elt F) := broadcastInDim S160000x256 ![0, 1] bcast_S1x256_S160000x256_0_1 v40 -- %41 = stablehlo.broadcast_in_dim %40, dims = [0, 1]
  have v42 : (⟨S160000x256, .f32⟩ : BufTy).Contents (Elt F) := mulf v39 v41 -- %42 = stablehlo.multiply %39, %41
  have v43 : (⟨S1x256, .f32⟩ : BufTy).Contents (Elt F) := broadcastInDim S1x256 ![1] bcast_S256_S1x256_1 β -- %43 = stablehlo.broadcast_in_dim β, dims = [1]
  have v44 : (⟨S160000x256, .f32⟩ : BufTy).Contents (Elt F) := broadcastInDim S160000x256 ![0, 1] bcast_S1x256_S160000x256_0_1 v43 -- %44 = stablehlo.broadcast_in_dim %43, dims = [0, 1]
  have v45 : (⟨S160000x256, .f32⟩ : BufTy).Contents (Elt F) := addf v42 v44 -- %45 = stablehlo.add %42, %44
  have v46 : (⟨S160000x256, .f32⟩ : BufTy).Contents (Elt F) := addf ea v45 -- %46 = stablehlo.add ea, %45
  v46

/-- The node update as the reference writes it: operations %50 … %78 of @main composed, the three outlined
    functions inlined over the call's values. `x` is the node array (%arg0), `agg` the aggregated edges (%49). -/
def refNode (x agg : (⟨S10000x256, .f32⟩ : BufTy).Contents (Elt F)) (w1 : (⟨S512x512, .f32⟩ : BufTy).Contents (Elt F))
    (b1 : (⟨S512, .f32⟩ : BufTy).Contents (Elt F)) (w2 : (⟨S512x256, .f32⟩ : BufTy).Contents (Elt F))
    (b2 g β : (⟨S256, .f32⟩ : BufTy).Contents (Elt F)) : (⟨S10000x256, .f32⟩ : BufTy).Contents (Elt F) :=
  have v50 : (⟨S10000x512, .f32⟩ : BufTy).Contents (Elt F) := concatenate S10000x512 1 [⟨S10000x256, x⟩, ⟨S10000x256, agg⟩] concatenates_S10000x256_S10000x256_S10000x512_d1 -- %50 = stablehlo.concatenate, dim = 1
  have v51 : (⟨S10000x512, .f32⟩ : BufTy).Contents (Elt F) := Host.dotGeneral dot_S10000x512_S512x512_S10000x512_1_0_0_1_n_n none v50 w1 -- %51 = stablehlo.dot_general %50, w1, contracting_dims = [1] x [0]
  have v52 : (⟨S1x512, .f32⟩ : BufTy).Contents (Elt F) := broadcastInDim S1x512 ![1] bcast_S512_S1x512_1 b1 -- %52 = stablehlo.broadcast_in_dim b1, dims = [1]
  have v53 : (⟨S10000x512, .f32⟩ : BufTy).Contents (Elt F) := broadcastInDim S10000x512 ![0, 1] bcast_S1x512_S10000x512_0_1 v52 -- %53 = stablehlo.broadcast_in_dim %52, dims = [0, 1]
  have v54 : (⟨S10000x512, .f32⟩ : BufTy).Contents (Elt F) := addf v51 v53 -- %54 = stablehlo.add %51, %53
  have r_cst : (⟨S_, .f32⟩ : BufTy).Contents (Elt F) := constant S_ .f32 0x00000000#32 -- @relu_0: %cst = stablehlo.constant dense<0.0>
  have r_v0 : (⟨S10000x512, .f32⟩ : BufTy).Contents (Elt F) := broadcastInDim S10000x512 ![] bcast_S_S10000x512 r_cst -- @relu_0: %0 = stablehlo.broadcast_in_dim %cst, dims = []
  have v55 : (⟨S10000x512, .f32⟩ : BufTy).Contents (Elt F) := maximumf v54 r_v0 -- %55 = @relu_0(%54): %1 = stablehlo.maximum %arg0, %0
  have v56 : (⟨S10000x256, .f32⟩ : BufTy).Contents (Elt F) := Host.dotGeneral dot_S10000x512_S512x256_S10000x256_1_0_0_1_n_n none v55 w2 -- %56 = stablehlo.dot_general %55, w2, contracting_dims = [1] x [0]
  have v57 : (⟨S1x256, .f32⟩ : BufTy).Contents (Elt F) := broadcastInDim S1x256 ![1] bcast_S256_S1x256_1 b2 -- %57 = stablehlo.broadcast_in_dim b2, dims = [1]
  have v58 : (⟨S10000x256, .f32⟩ : BufTy).Contents (Elt F) := broadcastInDim S10000x256 ![0, 1] bcast_S1x256_S10000x256_0_1 v57 -- %58 = stablehlo.broadcast_in_dim %57, dims = [0, 1]
  have v59 : (⟨S10000x256, .f32⟩ : BufTy).Contents (Elt F) := addf v56 v58 -- %59 = stablehlo.add %56, %58
  have cst_7 : (⟨S_, .f32⟩ : BufTy).Contents (Elt F) := constant S_ .f32 0x00000000#32 -- %cst_7 = stablehlo.constant dense<0.0>
  have v60 : (⟨S10000, .f32⟩ : BufTy).Contents (Elt F) := Host.reduceAdd v59 cst_7 reducesTo_S10000x256_S10000_d1 h_S_ -- %60 = stablehlo.reduce(%59 init: %cst_7) add across dimensions = [1]
  have v61 : (⟨S10000x1, .f32⟩ : BufTy).Contents (Elt F) := broadcastInDim S10000x1 ![0] bcast_S10000_S10000x1_0 v60 -- %61 = stablehlo.broadcast_in_dim %60, dims = [0]
  have cst_8 : (⟨S_, .f32⟩ : BufTy).Contents (Elt F) := constant S_ .f32 0x43800000#32 -- %cst_8 = stablehlo.constant dense<256.0>
  have v62 : (⟨S10000x1, .f32⟩ : BufTy).Contents (Elt F) := broadcastInDim S10000x1 ![] bcast_S_S10000x1 cst_8 -- %62 = stablehlo.broadcast_in_dim %cst_8, dims = []
  have v63 : (⟨S10000x1, .f32⟩ : BufTy).Contents (Elt F) := Host.divf v61 v62 -- %63 = stablehlo.divide %61, %62
  have c_9 : (⟨S_, .i32⟩ : BufTy).Contents (Elt F) := constantI S_ 32 0#32 -- %c_9 = stablehlo.constant dense<0> : tensor<i32>
  have q_cst : (⟨S_, .f32⟩ : BufTy).Contents (Elt F) := constant S_ .f32 0x00000000#32 -- @_var_1: %cst = stablehlo.constant dense<0.0>
  have q_v0 : (⟨S10000, .f32⟩ : BufTy).Contents (Elt F) := Host.reduceAdd v59 q_cst reducesTo_S10000x256_S10000_d1 h_S_ -- @_var_1: %0 = stablehlo.reduce(%arg0 init: %cst) add across dimensions = [1]
  have q_v1 : (⟨S10000x1, .f32⟩ : BufTy).Contents (Elt F) := broadcastInDim S10000x1 ![0] bcast_S10000_S10000x1_0 q_v0 -- @_var_1: %1 = stablehlo.broadcast_in_dim %0, dims = [0]
  have q_cst_0 : (⟨S_, .f32⟩ : BufTy).Contents (Elt F) := constant S_ .f32 0x43800000#32 -- @_var_1: %cst_0 = stablehlo.constant dense<256.0>
  have q_v2 : (⟨S10000x1, .f32⟩ : BufTy).Contents (Elt F) := broadcastInDim S10000x1 ![] bcast_S_S10000x1 q_cst_0 -- @_var_1: %2 = stablehlo.broadcast_in_dim %cst_0, dims = []
  have q_v3 : (⟨S10000x1, .f32⟩ : BufTy).Contents (Elt F) := Host.divf q_v1 q_v2 -- @_var_1: %3 = stablehlo.divide %1, %2
  have q_v4 : (⟨S10000x256, .f32⟩ : BufTy).Contents (Elt F) := broadcastInDim S10000x256 ![0, 1] bcast_S10000x1_S10000x256_0_1 q_v3 -- @_var_1: %4 = stablehlo.broadcast_in_dim %3, dims = [0, 1]
  have q_v5 : (⟨S10000x256, .f32⟩ : BufTy).Contents (Elt F) := subf v59 q_v4 -- @_var_1: %5 = stablehlo.subtract %arg0, %4
  have q_v6 : (⟨S10000x256, .f32⟩ : BufTy).Contents (Elt F) := mulf q_v5 q_v5 -- @_var_1: %6 = chlo.square %5
  have q_v7 : (⟨S_, .f32⟩ : BufTy).Contents (Elt F) := sitofp .f32 c_9 -- @_var_1: %7 = stablehlo.convert %arg1 : i32 -> f32
  have q_cst_1 : (⟨S_, .f32⟩ : BufTy).Contents (Elt F) := constant S_ .f32 0x43800000#32 -- @_var_1: %cst_1 = stablehlo.constant dense<256.0>
  have q_v8 : (⟨S_, .f32⟩ : BufTy).Contents (Elt F) := subf q_cst_1 q_v7 -- @_var_1: %8 = stablehlo.subtract %cst_1, %7
  have q_cst_2 : (⟨S_, .f32⟩ : BufTy).Contents (Elt F) := constant S_ .f32 0x00000000#32 -- @_var_1: %cst_2 = stablehlo.constant dense<0.0>
  have q_v9 : (⟨S10000, .f32⟩ : BufTy).Contents (Elt F) := Host.reduceAdd q_v6 q_cst_2 reducesTo_S10000x256_S10000_d1 h_S_ -- @_var_1: %9 = stablehlo.reduce(%6 init: %cst_2) add across dimensions = [1]
  have q_v10 : (⟨S10000x1, .f32⟩ : BufTy).Contents (Elt F) := broadcastInDim S10000x1 ![0] bcast_S10000_S10000x1_0 q_v9 -- @_var_1: %10 = stablehlo.broadcast_in_dim %9, dims = [0]
  have q_v11 : (⟨S10000x1, .f32⟩ : BufTy).Contents (Elt F) := broadcastInDim S10000x1 ![] bcast_S_S10000x1 q_v8 -- @_var_1: %11 = stablehlo.broadcast_in_dim %8, dims = []
  have q_v12 : (⟨S10000x1, .f32⟩ : BufTy).Contents (Elt F) := Host.divf q_v10 q_v11 -- @_var_1: %12 = stablehlo.divide %10, %11
  have q_cst_3 : (⟨S_, .f32⟩ : BufTy).Contents (Elt F) := constant S_ .f32 0x00000000#32 -- @_var_1: %cst_3 = stablehlo.constant dense<0.0>
  have q_v13 : (⟨S_, .i1⟩ : BufTy).Contents (Elt F) := cmpf .ogt q_v8 q_cst_3 -- @_var_1: %13 = stablehlo.compare GT, %8, %cst_3, FLOAT
  have q_cst_4 : (⟨S_, .f32⟩ : BufTy).Contents (Elt F) := constant S_ .f32 0x7FC00000#32 -- @_var_1: %cst_4 = stablehlo.constant dense<0x7FC00000>
  have w_v0 : (⟨S_, .f32⟩ : BufTy).Contents (Elt F) := id q_cst_4 -- @_where_2: %0 = stablehlo.convert %arg2
  have w_v1 : (⟨S10000x1, .f32⟩ : BufTy).Contents (Elt F) := broadcastInDim S10000x1 ![] bcast_S_S10000x1 w_v0 -- @_where_2: %1 = stablehlo.broadcast_in_dim %0, dims = []
  have v64 : (⟨S10000x1, .f32⟩ : BufTy).Contents (Elt F) := select (broadcastInDim S10000x1 ![] bcast_S_S10000x1 q_v13) q_v12 w_v1 -- %64 = @_var_1(%59, %c_9): @_where_2: %2 = stablehlo.select %arg0, %arg1, %1
  have v65 : (⟨S10000x256, .f32⟩ : BufTy).Contents (Elt F) := broadcastInDim S10000x256 ![0, 1] bcast_S10000x1_S10000x256_0_1 v63 -- %65 = stablehlo.broadcast_in_dim %63, dims = [0, 1]
  have v66 : (⟨S10000x256, .f32⟩ : BufTy).Contents (Elt F) := subf v59 v65 -- %66 = stablehlo.subtract %59, %65
  have cst_10 : (⟨S_, .f32⟩ : BufTy).Contents (Elt F) := constant S_ .f32 0x3727C5AC#32 -- %cst_10 = stablehlo.constant dense<9.99999974E-6>
  have v67 : (⟨S10000x1, .f32⟩ : BufTy).Contents (Elt F) := broadcastInDim S10000x1 ![] bcast_S_S10000x1 cst_10 -- %67 = stablehlo.broadcast_in_dim %cst_10, dims = []
  have v68 : (⟨S10000x1, .f32⟩ : BufTy).Contents (Elt F) := addf v64 v67 -- %68 = stablehlo.add %64, %67
  have v69 : (⟨S10000x1, .f32⟩ : BufTy).Contents (Elt F) := Host.rsqrt v68 -- %69 = stablehlo.rsqrt %68
  have v70 : (⟨S10000x256, .f32⟩ : BufTy).Contents (Elt F) := broadcastInDim S10000x256 ![0, 1] bcast_S10000x1_S10000x256_0_1 v69 -- %70 = stablehlo.broadcast_in_dim %69, dims = [0, 1]
  have v71 : (⟨S10000x256, .f32⟩ : BufTy).Contents (Elt F) := mulf v66 v70 -- %71 = stablehlo.multiply %66, %70
  have v72 : (⟨S1x256, .f32⟩ : BufTy).Contents (Elt F) := broadcastInDim S1x256 ![1] bcast_S256_S1x256_1 g -- %72 = stablehlo.broadcast_in_dim g, dims = [1]
  have v73 : (⟨S10000x256, .f32⟩ : BufTy).Contents (Elt F) := broadcastInDim S10000x256 ![0, 1] bcast_S1x256_S10000x256_0_1 v72 -- %73 = stablehlo.broadcast_in_dim %72, dims = [0, 1]
  have v74 : (⟨S10000x256, .f32⟩ : BufTy).Contents (Elt F) := mulf v71 v73 -- %74 = stablehlo.multiply %71, %73
  have v75 : (⟨S1x256, .f32⟩ : BufTy).Contents (Elt F) := broadcastInDim S1x256 ![1] bcast_S256_S1x256_1 β -- %75 = stablehlo.broadcast_in_dim β, dims = [1]
  have v76 : (⟨S10000x256, .f32⟩ : BufTy).Contents (Elt F) := broadcastInDim S10000x256 ![0, 1] bcast_S1x256_S10000x256_0_1 v75 -- %76 = stablehlo.broadcast_in_dim %75, dims = [0, 1]
  have v77 : (⟨S10000x256, .f32⟩ : BufTy).Contents (Elt F) := addf v74 v76 -- %77 = stablehlo.add %74, %76
  have v78 : (⟨S10000x256, .f32⟩ : BufTy).Contents (Elt F) := addf x v77 -- %78 = stablehlo.add x, %77
  v78

end Defs

end Cert.ReferenceIdeal.Stage

end
-- ==== Proof.RefTerm.lean ====
/-
  The reference's results as terms of the arguments' contents.

  The fold of @main's 140 operations over any contents V leaves, at the edge result (%46), the edge stage
  (operations %18 … %46 composed) of the two gathered arrays and the arguments, and at the node result (%78) the
  node stage (operations %50 … %78) of the node array, the scatter-added edge result and the arguments; every
  argument's buffer keeps its contents. The gathered arrays and the scatter-add are spelt here with the printed
  operations %0 … %17 and %47 … %49: the two rows of the index array sliced and flattened, an entry below zero
  wrapped by adding 10000, the rows of the node array gathered at them; and the edge result summed into a zero
  array at the second index row.

  Each equation is the fold computed: the fold unrolled, each operation's result rewritten at its own buffer to
  its function's value and at any other buffer to what was there (one simplifier pass, each shared intermediate
  visited once), and the composed term is the stage's by unfolding.
-/
import proofs.«133940_j14731737825432_1_alg».proof.Proof.RefRun
import proofs.«133940_j14731737825432_1_alg».proof.Proof.RefStage

noncomputable section

namespace Cert.ReferenceIdeal.Term

open Cert.ReferenceIdeal Cert.ReferenceIdeal.Gen Cert.ReferenceIdeal.Run Cert.ReferenceIdeal.Stage
open Idealize.ShloMosaic Idealize.ShloMosaic.TcCoe Idealize.SL.Sem Idealize.ShloMosaic.StableHlo

variable {F : FTy → Type} [FloatOps F]

/-! ## The index rows, the gathered arrays, the aggregate -/

/-- The first row of the index array as a vector: the slice [0:1] flattened (%0, %1). -/
def idxI (V : Valuation τ sig (Elt F)) : (⟨S160000, .i32⟩ : BufTy).Contents (Elt F) :=
  shapeCast S160000
    (extractStridedSlice S1x160000 ![0, 0] (V (main_arg1 : DevRef τ sig) : (⟨S2x160000, .i32⟩ : BufTy).Contents (Elt F))
      slices_S2x160000_S1x160000_0_0)
    shapeCasts_S1x160000_S160000

/-- The second row of the index array as a vector: the slice [1:2] flattened (%2, %3). -/
def idxJ (V : Valuation τ sig (Elt F)) : (⟨S160000, .i32⟩ : BufTy).Contents (Elt F) :=
  shapeCast S160000
    (extractStridedSlice S1x160000 ![1, 0] (V (main_arg1 : DevRef τ sig) : (⟨S2x160000, .i32⟩ : BufTy).Contents (Elt F))
      slices_S2x160000_S1x160000_1_0)
    shapeCasts_S1x160000_S160000

/-- An index vector wrapped: an entry below zero has 10000 added (%4 … %8, %11 … %15). -/
def wrap (i₀ : (⟨S160000, .i32⟩ : BufTy).Contents (Elt F)) : (⟨S160000, .i32⟩ : BufTy).Contents (Elt F) :=
  select (cmpi .slt i₀ (broadcastInDim S160000 ![] bcast_S_S160000 (constantI S_ 32 0#32)))
    (addi i₀ (broadcastInDim S160000 ![] bcast_S_S160000 (constantI S_ 32 10000#32))) i₀

/-- The node rows gathered at the first index row (%9, %10). -/
def gathI (V : Valuation τ sig (Elt F)) : (⟨S160000x256, .f32⟩ : BufTy).Contents (Elt F) :=
  Host.gather gather_S10000x256_S160000x1_S160000x256_1_0_n_n_0_1_1256
    (V (main_arg0 : DevRef τ sig) : (⟨S10000x256, .f32⟩ : BufTy).Contents (Elt F))
    (broadcastInDim S160000x1 ![0] bcast_S160000_S160000x1_0 (wrap (idxI V)))

/-- The node rows gathered at the second index row (%16, %17). -/
def gathJ (V : Valuation τ sig (Elt F)) : (⟨S160000x256, .f32⟩ : BufTy).Contents (Elt F) :=
  Host.gather gather_S10000x256_S160000x1_S160000x256_1_0_n_n_0_1_1256
    (V (main_arg0 : DevRef τ sig) : (⟨S10000x256, .f32⟩ : BufTy).Contents (Elt F))
    (broadcastInDim S160000x1 ![0] bcast_S160000_S160000x1_0 (wrap (idxJ V)))

/-- The edge result summed into a zero array at the second index row, unwrapped (%47, %48, %49). -/
def aggOf (V : Valuation τ sig (Elt F)) : (⟨S10000x256, .f32⟩ : BufTy).Contents (Elt F) :=
  Host.scatterAdd scatter_S10000x256_S160000x1_S160000x256_1_0_0_1
    (broadcastInDim S10000x256 ![] bcast_S_S10000x256 (constant S_ .f32 0x00000000#32))
    (broadcastInDim S160000x1 ![0] bcast_S160000_S160000x1_0 (idxJ V))
    (after ops V (main_v46 : DevRef τ sig) : (⟨S160000x256, .f32⟩ : BufTy).Contents (Elt F))

/-! ## The fold, computed -/

/-- An operation over a LITERAL family of three operands leaves its result at its function of the three
    operands' contents, each read AT ITS OWN buffer: under the family's binder an operand is no literal buffer
    and nothing rewrites its contents further. -/
theorem nary3_result' {x a b y : Ref sig .tc}
    (f : ((k : Fin 3) → ((![x, a, b] : Fin 3 → Ref sig .tc) k).ty.Contents (Elt F)) → y.ty.Contents (Elt F)) (hxs hy)
    (W : Valuation τ sig (Elt F)) :
    (nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [nary_result]; congr 1; funext k; fin_cases k <;> rfl

/-- The fold's value at a buffer in one simplifier pass: the fold unrolled, every operation's result at its own
    buffer its function's value, at another buffer what was there (the buffers' inequality by computation). -/
macro "fold_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

attribute [local irreducible] Host.gather Host.scatterAdd Host.reduceAdd concatenate in
set_option maxRecDepth 16384 in
set_option maxHeartbeats 4000000 in
/-- The edge result is the edge stage of the gathered arrays and the arguments. -/
theorem out_edge (V : Valuation τ sig (Elt F)) :
    after ops V (main_v46 : DevRef τ sig)
      = refEdge (gathI V) (gathJ V) (V (main_arg2 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) := by
  rw [after_ops]
  fold_results
  rfl

attribute [local irreducible] Host.gather Host.scatterAdd Host.reduceAdd concatenate in
set_option maxRecDepth 16384 in
set_option maxHeartbeats 4000000 in
/-- The node result is the node stage of the node array, the aggregate and the arguments. (The aggregate's own
    reading of the edge result is the same fold, so the pass brings both sides to one term.) -/
theorem out_node (V : Valuation τ sig (Elt F)) :
    after ops V (main_v78 : DevRef τ sig)
      = refNode (V (main_arg0 : DevRef τ sig)) (aggOf V) (V (main_arg9 : DevRef τ sig)) (V (main_arg10 : DevRef τ sig))
          (V (main_arg11 : DevRef τ sig)) (V (main_arg12 : DevRef τ sig)) (V (main_arg13 : DevRef τ sig))
          (V (main_arg14 : DevRef τ sig)) := by
  unfold aggOf
  rw [after_ops]
  fold_results
  rfl

/-! ## The arguments are kept -/

/-- Argument 0's buffer keeps its contents: no operation writes it. -/
theorem kept_0 (V : Valuation τ sig (Elt F)) :
    after ops V (main_arg0 : DevRef τ sig) = V (main_arg0 : DevRef τ sig) := by
  rw [after_ops]
  fold_results

/-- Argument 1's buffer keeps its contents: no operation writes it. -/
theorem kept_1 (V : Valuation τ sig (Elt F)) :
    after ops V (main_arg1 : DevRef τ sig) = V (main_arg1 : DevRef τ sig) := by
  rw [after_ops]
  fold_results

/-- Argument 2's buffer keeps its contents: no operation writes it. -/
theorem kept_2 (V : Valuation τ sig (Elt F)) :
    after ops V (main_arg2 : DevRef τ sig) = V (main_arg2 : DevRef τ sig) := by
  rw [after_ops]
  fold_results

/-- Argument 3's buffer keeps its contents: no operation writes it. -/
theorem kept_3 (V : Valuation τ sig (Elt F)) :
    after ops V (main_arg3 : DevRef τ sig) = V (main_arg3 : DevRef τ sig) := by
  rw [after_ops]
  fold_results

/-- Argument 4's buffer keeps its contents: no operation writes it. -/
theorem kept_4 (V : Valuation τ sig (Elt F)) :
    after ops V (main_arg4 : DevRef τ sig) = V (main_arg4 : DevRef τ sig) := by
  rw [after_ops]
  fold_results

/-- Argument 5's buffer keeps its contents: no operation writes it. -/
theorem kept_5 (V : Valuation τ sig (Elt F)) :
    after ops V (main_arg5 : DevRef τ sig) = V (main_arg5 : DevRef τ sig) := by
  rw [after_ops]
  fold_results

/-- Argument 6's buffer keeps its contents: no operation writes it. -/
theorem kept_6 (V : Valuation τ sig (Elt F)) :
    after ops V (main_arg6 : DevRef τ sig) = V (main_arg6 : DevRef τ sig) := by
  rw [after_ops]
  fold_results

/-- Argument 7's buffer keeps its contents: no operation writes it. -/
theorem kept_7 (V : Valuation τ sig (Elt F)) :
    after ops V (main_arg7 : DevRef τ sig) = V (main_arg7 : DevRef τ sig) := by
  rw [after_ops]
  fold_results

/-- Argument 8's buffer keeps its contents: no operation writes it. -/
theorem kept_8 (V : Valuation τ sig (Elt F)) :
    after ops V (main_arg8 : DevRef τ sig) = V (main_arg8 : DevRef τ sig) := by
  rw [after_ops]
  fold_results

/-- Argument 9's buffer keeps its contents: no operation writes it. -/
theorem kept_9 (V : Valuation τ sig (Elt F)) :
    after ops V (main_arg9 : DevRef τ sig) = V (main_arg9 : DevRef τ sig) := by
  rw [after_ops]
  fold_results

/-- Argument 10's buffer keeps its contents: no operation writes it. -/
theorem kept_10 (V : Valuation τ sig (Elt F)) :
    after ops V (main_arg10 : DevRef τ sig) = V (main_arg10 : DevRef τ sig) := by
  rw [after_ops]
  fold_results

/-- Argument 11's buffer keeps its contents: no operation writes it. -/
theorem kept_11 (V : Valuation τ sig (Elt F)) :
    after ops V (main_arg11 : DevRef τ sig) = V (main_arg11 : DevRef τ sig) := by
  rw [after_ops]
  fold_results

/-- Argument 12's buffer keeps its contents: no operation writes it. -/
theorem kept_12 (V : Valuation τ sig (Elt F)) :
    after ops V (main_arg12 : DevRef τ sig) = V (main_arg12 : DevRef τ sig) := by
  rw [after_ops]
  fold_results

/-- Argument 13's buffer keeps its contents: no operation writes it. -/
theorem kept_13 (V : Valuation τ sig (Elt F)) :
    after ops V (main_arg13 : DevRef τ sig) = V (main_arg13 : DevRef τ sig) := by
  rw [after_ops]
  fold_results

/-- Argument 14's buffer keeps its contents: no operation writes it. -/
theorem kept_14 (V : Valuation τ sig (Elt F)) :
    after ops V (main_arg14 : DevRef τ sig) = V (main_arg14 : DevRef τ sig) := by
  rw [after_ops]
  fold_results

end Cert.ReferenceIdeal.Term

end
-- ==== Proof.RefStageEq.lean ====
/-
  The reference's two dense stages, read on the extended reals, are the row-wise functions of the specification.

  Each host operation is read at one entry: a matrix product as a sum over the shared axis, a bias or a column laid along
  the other axis as the entry it repeats, a row sum as a sum over the columns, the guarded variance as the plain quotient
  (the guard compares 256 - 0 with 0 and always holds). The perceptron's output array read at an entry is the
  specification's `mlp` of the row; the normalisation chain applied to any array is the specification's `ln` of each row.
-/
import proofs.«133940_j14731737825432_1_alg».proof.Proof.RefStage
import proofs.«133940_j14731737825432_1_alg».proof.Proof.Spec
import proofs.«133940_j14731737825432_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Stage

open Cert.ReferenceIdeal Cert.ReferenceIdeal.Gen Idealize.ShloMosaic Idealize.ShloMosaic.ValueIdx

/-! ## The literals and the variance guard -/

/-- The f32 pattern 0x43800000 is the real number 256. -/
theorem ofBits_256 : Ideal.ofBits .f32 0x43800000#32 = ((256 : ℝ) : EReal) := by
  simp [Ideal.ofBits, Ideal.ieee, -EReal.coe_mul]; norm_num

/-- The 32-bit zero word converted to a float is the real number zero, so `256 - 0` is 256. -/
theorem c256_sub_zero :
    Ideal.ofBits .f32 0x43800000#32 - FloatOps.sitofp (F := Ideal) .f32 (constantI ⟨0, ![]⟩ 32 0#32 ix0)
      = Ideal.ofBits .f32 0x43800000#32 := by
  show Ideal.ofBits .f32 0x43800000#32 - (((0#32 : BitVec 32).toInt : ℝ) : EReal) = _
  have : ((0#32 : BitVec 32).toInt : ℝ) = 0 := by norm_num
  rw [this, EReal.coe_zero, sub_zero]

/-- The guard of the variance: 256 is above zero. -/
theorem guard_256 : Ideal.cmp .ogt (Ideal.ofBits .f32 0x43800000#32) (Ideal.ofBits .f32 0x00000000#32) = 1#1 := by
  rw [ofBits_256, Ideal.ofBits_zero_f32]
  unfold Ideal.cmp
  have h : (0 : EReal) < ((256 : ℝ) : EReal) := by exact_mod_cast (by norm_num : (0 : ℝ) < 256)
  simp [h]

/-! ## Host operations read at one entry -/

section Entry
variable {R C : ℕ}

/-- The host's quotient at an entry is the quotient of the entries. -/
theorem hostDivf_apply {s : Shape} (a b : FVec Ideal s .f32) (i : s.Idx) : Host.divf a b i = Ideal.div (a i) (b i) := rfl

/-- The host's reciprocal square root at an entry is that of the entry. -/
theorem hostRsqrt_apply {s : Shape} (a : FVec Ideal s .f32) (i : s.Idx) : Host.rsqrt a i = Ideal.rsqrt (a i) := rfl

/-- A scalar constant laid over any shape reads the literal everywhere. -/
theorem scalarConst_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply, constant_apply]

/-- A vector `[R]` kept as a column `[R, 1]` reads its entry of the row. -/
theorem keepCol_apply {α : Type} (h : (⟨1, ![R]⟩ : Shape).BroadcastsInDim ⟨2, ![R, 1]⟩ ![0]) (v : (⟨1, ![R]⟩ : Shape).Idx → α)
    (e : Fin R) : broadcastInDim ⟨2, ![R, 1]⟩ ![0] h v (ix2 e (0 : Fin 1)) = v (ix1 e) := by
  refine broadcastInDim_apply _ h v (ix2 e (0 : Fin 1)) (ix1 e) fun a => ?_
  match a with
  | ⟨0, _⟩ =>
    show e.val = if R = 1 then 0 else e.val
    split
    · have := e.isLt; omega
    · rfl

/-- A column `[R, 1]` laid across `C` columns reads the column's entry of the row. -/
theorem spreadCol_apply {α : Type} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v (ix2 e c) (ix2 e (0 : Fin 1)) fun a => ?_
  match a with
  | ⟨0, _⟩ =>
    show e.val = if R = 1 then 0 else e.val
    split
    · have := e.isLt; omega
    · rfl
  | ⟨1, _⟩ => rfl

/-- A vector `[C]` viewed as one row `[1, C]` and laid along `R` rows reads its entry of the column. -/
theorem biasRows_apply {α : Type} (h : (⟨1, ![C]⟩ : Shape).BroadcastsInDim ⟨2, ![1, C]⟩ ![1])
    (h' : (⟨2, ![1, C]⟩ : Shape).BroadcastsInDim ⟨2, ![R, C]⟩ ![0, 1]) (x : (⟨1, ![C]⟩ : Shape).Idx → α) (e : Fin R) (c : Fin C) :
    broadcastInDim ⟨2, ![R, C]⟩ ![0, 1] h' (broadcastInDim ⟨2, ![1, C]⟩ ![1] h x) (ix2 e c) = x (ix1 c) := by
  have inner : broadcastInDim ⟨2, ![1, C]⟩ ![1] h x (ix2 (0 : Fin 1) c) = x (ix1 c) := by
    refine broadcastInDim_apply _ h x (ix2 (0 : Fin 1) c) (ix1 c) fun a => ?_
    match a with
    | ⟨0, _⟩ =>
      show c.val = if C = 1 then 0 else c.val
      split
      · have := c.isLt; omega
      · rfl
  rw [← inner]
  refine broadcastInDim_apply _ h' _ (ix2 e c) (ix2 (0 : Fin 1) c) fun a => ?_
  match a with
  | ⟨0, _⟩ => rfl
  | ⟨1, _⟩ =>
    show c.val = if C = 1 then 0 else c.val
    split
    · have := c.isLt; omega
    · rfl

/-- The host's sum along the columns from the zero constant, read at a row, is the sum of the row's entries. -/
theorem rowSum_apply (h' : (⟨2, ![R, C]⟩ : Shape).ReducesTo [1] ⟨1, ![R]⟩)
    (hu : 0 < (⟨0, ![]⟩ : Shape).numel) (y : FVec Ideal ⟨2, ![R, C]⟩ .f32) (e : Fin R) :
    Host.reduceAdd (F := Ideal) y (constant (F := Ideal) ⟨0, ![]⟩ .f32 0x00000000#32) h' hu (ix1 e) = ∑ d : Fin C, y (ix2 e d) := by
  have h : (⟨2, ![R, C]⟩ : Shape).Reduces [1] ⟨1, ![R]⟩ := ⟨h'.1, Nat.one_pos, h'.2⟩
  show Ideal.hostReduceAdd h' y (Ideal.ofBits .f32 0x00000000#32) (ix1 e) = _
  rw [Ideal.hostReduceAdd_single h' h, Ideal.ofBits_zero_f32, zero_add]
  refine Finset.sum_congr rfl fun d _ => congrArg y (funext fun c => Fin.ext ?_)
  match c with
  | ⟨0, _⟩ => rfl
  | ⟨1, _⟩ => rfl

/-- The host's product of a rows-by-`K` array with a `K`-by-columns matrix, read at an entry, is the sum over `K`. -/
theorem plainDot_apply {M K N : ℕ} (prec : Option ContractPrecision) (l : FVec Ideal ⟨2, ![M, K]⟩ .f32)
    (r : FVec Ideal ⟨2, ![K, N]⟩ .f32) (p : Fin M) (j : Fin N) :
    Host.dotGeneral (F := Ideal) (DotDims.plain M K N) prec l r (ix2 p j) = ∑ k : Fin K, l (ix2 p k) * r (ix2 k j) := by
  show FloatOps.dotGeneral (DotDims.plain M K N) prec .single l r (ix2 p j) = _
  rw [Ideal.dotGeneral_apply]
  exact Cert.LibPlainDot.sum_plain (DotDims.plain M K N) rfl rfl (fun _ _ => rfl) (fun _ _ => rfl) (fun _ _ => rfl)
    (fun _ _ => rfl) l r p j

end Entry

/-! ## Arrays laid side by side -/

section SideBySide
variable {R W : ℕ}

/-- One piece of 256 columns among arrays laid side by side along the columns: where the column falls inside the piece,
    the concatenation reads the piece. -/
theorem sideBySide_piece (xs : List ((s : Shape) × (s.Idx → EReal)))
    (h : Shape.Concatenates (xs.map (·.1)) ⟨2, ![R, W]⟩ 1) (k : ℕ) (hk : k < xs.length)
    (x : (⟨2, ![R, 256]⟩ : Shape).Idx → EReal) (hxk : xs[k] = ⟨⟨2, ![R, 256]⟩, x⟩) (pre : ℕ)
    (hpre : (((xs.take k).map (·.1)).map fun s : Shape =>
      if h : s.rank = (⟨2, ![R, W]⟩ : Shape).rank then s.size ((1 : Fin 2).cast h.symm) else 0).sum = pre)
    (e : Fin R) (j : Fin W) (c : Fin 256) (hc : pre + c.val = j.val) :
    concatenate (⟨2, ![R, W]⟩ : Shape) 1 xs h (ix2 e j) = x (ix2 e c) :=
  concatenate_apply_piece (t := ⟨2, ![R, W]⟩) (1 : Fin 2) xs h (ix2 e j) k hk ⟨2, ![R, 256]⟩ x hxk rfl pre hpre (ix2 e c)
    (fun b hb => by
      match b with
      | ⟨0, _⟩ => rfl
      | ⟨1, _⟩ => exact absurd rfl hb) hc

end SideBySide

/-- Three arrays of 256 columns laid side by side read, at a row, as the three rows side by side. -/
theorem concat3_row {R : ℕ} (a b c : (⟨2, ![R, 256]⟩ : Shape).Idx → EReal)
    (h : Shape.Concatenates [(⟨2, ![R, 256]⟩ : Shape), ⟨2, ![R, 256]⟩, ⟨2, ![R, 256]⟩] ⟨2, ![R, 768]⟩ 1) (e : Fin R) :
    Cert.Spec.row (concatenate (⟨2, ![R, 768]⟩ : Shape) 1 [⟨⟨2, ![R, 256]⟩, a⟩, ⟨⟨2, ![R, 256]⟩, b⟩, ⟨⟨2, ![R, 256]⟩, c⟩] h) e
      = Cert.Spec.cat3 (Cert.Spec.row a e) (Cert.Spec.row b e) (Cert.Spec.row c e) := by
  funext j
  unfold Cert.Spec.cat3
  show concatenate (⟨2, ![R, 768]⟩ : Shape) 1 [⟨⟨2, ![R, 256]⟩, a⟩, ⟨⟨2, ![R, 256]⟩, b⟩, ⟨⟨2, ![R, 256]⟩, c⟩] h (ix2 e j) = _
  by_cases h1 : j.val < 256
  · rw [dif_pos h1]
    exact sideBySide_piece [⟨⟨2, ![R, 256]⟩, a⟩, ⟨⟨2, ![R, 256]⟩, b⟩, ⟨⟨2, ![R, 256]⟩, c⟩] h 0 (by show (0 : ℕ) < 3; omega) a rfl 0 rfl e j ⟨j.val, h1⟩ (Nat.zero_add _)
  · rw [dif_neg h1]
    by_cases h2 : j.val < 512
    · rw [dif_pos h2]
      exact sideBySide_piece [⟨⟨2, ![R, 256]⟩, a⟩, ⟨⟨2, ![R, 256]⟩, b⟩, ⟨⟨2, ![R, 256]⟩, c⟩] h 1 (by show (1 : ℕ) < 3; omega) b rfl 256 rfl e j ⟨j.val - 256, by omega⟩
        (by show 256 + (j.val - 256) = j.val; omega)
    · rw [dif_neg h2]
      exact sideBySide_piece [⟨⟨2, ![R, 256]⟩, a⟩, ⟨⟨2, ![R, 256]⟩, b⟩, ⟨⟨2, ![R, 256]⟩, c⟩] h 2 (by show (2 : ℕ) < 3; omega) c rfl 512 rfl e j ⟨j.val - 512, by have := j.isLt; omega⟩
        (by show 512 + (j.val - 512) = j.val; omega)

/-- Two arrays of 256 columns laid side by side read, at a row, as the two rows side by side. -/
theorem concat2_row {R : ℕ} (a b : (⟨2, ![R, 256]⟩ : Shape).Idx → EReal)
    (h : Shape.Concatenates [(⟨2, ![R, 256]⟩ : Shape), ⟨2, ![R, 256]⟩] ⟨2, ![R, 512]⟩ 1) (e : Fin R) :
    Cert.Spec.row (concatenate (⟨2, ![R, 512]⟩ : Shape) 1 [⟨⟨2, ![R, 256]⟩, a⟩, ⟨⟨2, ![R, 256]⟩, b⟩] h) e
      = Cert.Spec.cat2 (Cert.Spec.row a e) (Cert.Spec.row b e) := by
  funext j
  unfold Cert.Spec.cat2
  show concatenate (⟨2, ![R, 512]⟩ : Shape) 1 [⟨⟨2, ![R, 256]⟩, a⟩, ⟨⟨2, ![R, 256]⟩, b⟩] h (ix2 e j) = _
  by_cases h1 : j.val < 256
  · rw [dif_pos h1]
    exact sideBySide_piece [⟨⟨2, ![R, 256]⟩, a⟩, ⟨⟨2, ![R, 256]⟩, b⟩] h 0 (by show (0 : ℕ) < 2; omega) a rfl 0 rfl e j ⟨j.val, h1⟩ (Nat.zero_add _)
  · rw [dif_neg h1]
    exact sideBySide_piece [⟨⟨2, ![R, 256]⟩, a⟩, ⟨⟨2, ![R, 256]⟩, b⟩] h 1 (by show (1 : ℕ) < 2; omega) b rfl 256 rfl e j ⟨j.val - 256, by have := j.isLt; omega⟩
      (by show 256 + (j.val - 256) = j.val; omega)

/-! ## The perceptron's output array -/

section Perceptron
variable {R K : ℕ}
  (h1a : (⟨1, ![512]⟩ : Shape).BroadcastsInDim ⟨2, ![1, 512]⟩ ![1])
  (h1b : (⟨2, ![1, 512]⟩ : Shape).BroadcastsInDim ⟨2, ![R, 512]⟩ ![0, 1])
  (hz : (⟨0, ![]⟩ : Shape).BroadcastsInDim ⟨2, ![R, 512]⟩ ![])
  (h2a : (⟨1, ![256]⟩ : Shape).BroadcastsInDim ⟨2, ![1, 256]⟩ ![1])
  (h2b : (⟨2, ![1, 256]⟩ : Shape).BroadcastsInDim ⟨2, ![R, 256]⟩ ![0, 1])

/-- The two dense layers as the host composes them on an array of feature rows: the product with the first weights plus
    its bias, the maximum with the zero constant, the product with the second weights plus its bias. -/
def mlpArr (cat : FVec Ideal ⟨2, ![R, K]⟩ .f32) (w1 : FVec Ideal ⟨2, ![K, 512]⟩ .f32) (b1 : FVec Ideal ⟨1, ![512]⟩ .f32)
    (w2 : FVec Ideal ⟨2, ![512, 256]⟩ .f32) (b2 : FVec Ideal ⟨1, ![256]⟩ .f32) : FVec Ideal ⟨2, ![R, 256]⟩ .f32 :=
  addf
    (Host.dotGeneral (DotDims.plain R 512 256) none
      (maximumf
        (addf (Host.dotGeneral (DotDims.plain R K 512) none cat w1)
          (broadcastInDim ⟨2, ![R, 512]⟩ ![0, 1] h1b (broadcastInDim ⟨2, ![1, 512]⟩ ![1] h1a b1)))
        (broadcastInDim ⟨2, ![R, 512]⟩ ![] hz (constant ⟨0, ![]⟩ .f32 0x00000000#32)))
      w2)
    (broadcastInDim ⟨2, ![R, 256]⟩ ![0, 1] h2b (broadcastInDim ⟨2, ![1, 256]⟩ ![1] h2a b2))

/-- Its entry `(e, d)` is output `d` of the specification's perceptron on row `e` of the features. -/
theorem mlpArr_apply (cat : FVec Ideal ⟨2, ![R, K]⟩ .f32) (w1 : FVec Ideal ⟨2, ![K, 512]⟩ .f32) (b1 : FVec Ideal ⟨1, ![512]⟩ .f32)
    (w2 : FVec Ideal ⟨2, ![512, 256]⟩ .f32) (b2 : FVec Ideal ⟨1, ![256]⟩ .f32) (e : Fin R) (d : Fin 256) :
    mlpArr h1a h1b hz h2a h2b cat w1 b1 w2 b2 (ix2 e d)
      = Cert.Spec.mlp (Cert.Spec.row cat e) (Cert.Spec.mat w1) (Cert.Spec.vec b1) (Cert.Spec.mat w2) (Cert.Spec.vec b2) d := by
  unfold mlpArr Cert.Spec.mlp
  rw [addf_apply, plainDot_apply, biasRows_apply]
  refine congrArg (· + b2 (ix1 d)) (Finset.sum_congr rfl fun k _ => ?_)
  rw [maximumf_apply, addf_apply, plainDot_apply, biasRows_apply, scalarConst_apply, Ideal.ofBits_zero_f32]
  rfl

/-- So each of its rows is the specification's perceptron of the feature row. -/
theorem mlpArr_row (cat : FVec Ideal ⟨2, ![R, K]⟩ .f32) (w1 : FVec Ideal ⟨2, ![K, 512]⟩ .f32) (b1 : FVec Ideal ⟨1, ![512]⟩ .f32)
    (w2 : FVec Ideal ⟨2, ![512, 256]⟩ .f32) (b2 : FVec Ideal ⟨1, ![256]⟩ .f32) (e : Fin R) :
    Cert.Spec.row (mlpArr h1a h1b hz h2a h2b cat w1 b1 w2 b2) e
      = Cert.Spec.mlp (Cert.Spec.row cat e) (Cert.Spec.mat w1) (Cert.Spec.vec b1) (Cert.Spec.mat w2) (Cert.Spec.vec b2) :=
  funext fun d => mlpArr_apply h1a h1b hz h2a h2b cat w1 b1 w2 b2 e d

end Perceptron

/-! ## The normalisation chain -/

section Normalise
variable {R : ℕ}
  (hred : (⟨2, ![R, 256]⟩ : Shape).ReducesTo [1] ⟨1, ![R]⟩) (hu : 0 < (⟨0, ![]⟩ : Shape).numel)
  (hk : (⟨1, ![R]⟩ : Shape).BroadcastsInDim ⟨2, ![R, 1]⟩ ![0])
  (hs : (⟨0, ![]⟩ : Shape).BroadcastsInDim ⟨2, ![R, 1]⟩ ![])
  (hc : (⟨2, ![R, 1]⟩ : Shape).BroadcastsInDim ⟨2, ![R, 256]⟩ ![0, 1])
  (h2a : (⟨1, ![256]⟩ : Shape).BroadcastsInDim ⟨2, ![1, 256]⟩ ![1])
  (h2b : (⟨2, ![1, 256]⟩ : Shape).BroadcastsInDim ⟨2, ![R, 256]⟩ ![0, 1])

/-- The row mean as the host computes it, kept as a column: the row sum over the literal 256. -/
def meanCol (y : FVec Ideal ⟨2, ![R, 256]⟩ .f32) : FVec Ideal ⟨2, ![R, 1]⟩ .f32 :=
  Host.divf
    (broadcastInDim ⟨2, ![R, 1]⟩ ![0] hk (Host.reduceAdd y (constant ⟨0, ![]⟩ .f32 0x00000000#32) hred hu))
    (broadcastInDim ⟨2, ![R, 1]⟩ ![] hs (constant ⟨0, ![]⟩ .f32 0x43800000#32))

/-- The guarded row variance as the host computes it, kept as a column: the sum of the centred squares over
    `256 - 0` where that is above zero, the not-a-number constant elsewhere. -/
def varCol (y : FVec Ideal ⟨2, ![R, 256]⟩ .f32) : FVec Ideal ⟨2, ![R, 1]⟩ .f32 :=
  have c_4 : IVec ⟨0, ![]⟩ 32 := constantI ⟨0, ![]⟩ 32 0#32
  have q_v4 : FVec Ideal ⟨2, ![R, 256]⟩ .f32 := broadcastInDim ⟨2, ![R, 256]⟩ ![0, 1] hc (meanCol hred hu hk hs y)
  have q_v5 : FVec Ideal ⟨2, ![R, 256]⟩ .f32 := subf y q_v4
  have q_v6 : FVec Ideal ⟨2, ![R, 256]⟩ .f32 := mulf q_v5 q_v5
  have q_v7 : FVec Ideal ⟨0, ![]⟩ .f32 := sitofp .f32 c_4
  have q_v8 : FVec Ideal ⟨0, ![]⟩ .f32 := subf (constant ⟨0, ![]⟩ .f32 0x43800000#32) q_v7
  have q_v9 : FVec Ideal ⟨1, ![R]⟩ .f32 := Host.reduceAdd q_v6 (constant ⟨0, ![]⟩ .f32 0x00000000#32) hred hu
  have q_v10 : FVec Ideal ⟨2, ![R, 1]⟩ .f32 := broadcastInDim ⟨2, ![R, 1]⟩ ![0] hk q_v9
  have q_v11 : FVec Ideal ⟨2, ![R, 1]⟩ .f32 := broadcastInDim ⟨2, ![R, 1]⟩ ![] hs q_v8
  have q_v12 : FVec Ideal ⟨2, ![R, 1]⟩ .f32 := Host.divf q_v10 q_v11
  have q_v13 : IVec ⟨0, ![]⟩ 1 := cmpf .ogt q_v8 (constant ⟨0, ![]⟩ .f32 0x00000000#32)
  have w_v1 : FVec Ideal ⟨2, ![R, 1]⟩ .f32 := broadcastInDim ⟨2, ![R, 1]⟩ ![] hs (id (constant ⟨0, ![]⟩ .f32 0x7FC00000#32))
  select (broadcastInDim ⟨2, ![R, 1]⟩ ![] hs q_v13) q_v12 w_v1

/-- The normalisation as the host composes it on an array: centre each row at its mean, scale by the reciprocal square
    root of the guarded variance shifted by the literal 1e-5, multiply by the scale row and add the shift row. -/
def lnArr (y : FVec Ideal ⟨2, ![R, 256]⟩ .f32) (g β : FVec Ideal ⟨1, ![256]⟩ .f32) : FVec Ideal ⟨2, ![R, 256]⟩ .f32 :=
  have v33 : FVec Ideal ⟨2, ![R, 256]⟩ .f32 := broadcastInDim ⟨2, ![R, 256]⟩ ![0, 1] hc (meanCol hred hu hk hs y)
  have v34 : FVec Ideal ⟨2, ![R, 256]⟩ .f32 := subf y v33
  have v35 : FVec Ideal ⟨2, ![R, 1]⟩ .f32 := broadcastInDim ⟨2, ![R, 1]⟩ ![] hs (constant ⟨0, ![]⟩ .f32 0x3727C5AC#32)
  have v36 : FVec Ideal ⟨2, ![R, 1]⟩ .f32 := addf (varCol hred hu hk hs hc y) v35
  have v37 : FVec Ideal ⟨2, ![R, 1]⟩ .f32 := Host.rsqrt v36
  have v38 : FVec Ideal ⟨2, ![R, 256]⟩ .f32 := broadcastInDim ⟨2, ![R, 256]⟩ ![0, 1] hc v37
  have v39 : FVec Ideal ⟨2, ![R, 256]⟩ .f32 := mulf v34 v38
  have v41 : FVec Ideal ⟨2, ![R, 256]⟩ .f32 := broadcastInDim ⟨2, ![R, 256]⟩ ![0, 1] h2b (broadcastInDim ⟨2, ![1, 256]⟩ ![1] h2a g)
  have v42 : FVec Ideal ⟨2, ![R, 256]⟩ .f32 := mulf v39 v41
  have v44 : FVec Ideal ⟨2, ![R, 256]⟩ .f32 := broadcastInDim ⟨2, ![R, 256]⟩ ![0, 1] h2b (broadcastInDim ⟨2, ![1, 256]⟩ ![1] h2a β)
  addf v42 v44

/-- The mean column at a row is the specification's mean of the row. -/
theorem meanCol_apply (y : FVec Ideal ⟨2, ![R, 256]⟩ .f32) (e : Fin R) :
    meanCol hred hu hk hs y (ix2 e (0 : Fin 1)) = Cert.Spec.mean (Cert.Spec.row y e) := by
  unfold meanCol Cert.Spec.mean
  rw [hostDivf_apply, keepCol_apply, rowSum_apply hred, scalarConst_apply]
  rfl

/-- The variance column at a row is the specification's variance of the row: the guard holds, and `256 - 0` is 256. -/
theorem varCol_apply (y : FVec Ideal ⟨2, ![R, 256]⟩ .f32) (e : Fin R) :
    varCol hred hu hk hs hc y (ix2 e (0 : Fin 1)) = Cert.Spec.var (Cert.Spec.row y e) := by
  unfold varCol Cert.Spec.var
  simp only []
  rw [select_apply, broadcastInDim_scalar_apply, cmpf_apply, subf_apply, constant_apply, constant_apply, sitofp_apply,
    c256_sub_zero, Ideal.cmpf_def, guard_256, select_one, hostDivf_apply, keepCol_apply, rowSum_apply hred,
    broadcastInDim_scalar_apply, subf_apply, constant_apply, sitofp_apply, c256_sub_zero]
  refine congrArg (fun s => Ideal.div s _) (Finset.sum_congr rfl fun d _ => ?_)
  rw [mulf_apply, subf_apply, spreadCol_apply, meanCol_apply hred hu hk hs]
  rfl

/-- The normalised array at an entry is the specification's normalised row at that column. -/
theorem lnArr_apply (y : FVec Ideal ⟨2, ![R, 256]⟩ .f32) (g β : FVec Ideal ⟨1, ![256]⟩ .f32) (e : Fin R) (d : Fin 256) :
    lnArr hred hu hk hs hc h2a h2b y g β (ix2 e d) = Cert.Spec.ln (Cert.Spec.row y e) (Cert.Spec.vec g) (Cert.Spec.vec β) d := by
  unfold lnArr Cert.Spec.ln
  simp only []
  rw [addf_apply, biasRows_apply, mulf_apply, biasRows_apply, mulf_apply, subf_apply, spreadCol_apply, spreadCol_apply,
    meanCol_apply hred hu hk hs, hostRsqrt_apply, addf_apply, varCol_apply hred hu hk hs hc, scalarConst_apply]
  rfl

end Normalise

/-! ## The two stages -/

section Stages

/-- The edge stage is the edge array plus the normalisation chain of the perceptron's output on the two gathered arrays
    and the edge array laid side by side: the same operations, grouped. -/
theorem refEdge_split (xi xj ea : (⟨S160000x256, .f32⟩ : BufTy).Contents (Elt Ideal))
    (w1 : (⟨S768x512, .f32⟩ : BufTy).Contents (Elt Ideal)) (b1 : (⟨S512, .f32⟩ : BufTy).Contents (Elt Ideal))
    (w2 : (⟨S512x256, .f32⟩ : BufTy).Contents (Elt Ideal)) (b2 g β : (⟨S256, .f32⟩ : BufTy).Contents (Elt Ideal)) :
    refEdge (F := Ideal) xi xj ea w1 b1 w2 b2 g β
      = addf ea (lnArr reducesTo_S160000x256_S160000_d1 h_S_ bcast_S160000_S160000x1_0 bcast_S_S160000x1
          bcast_S160000x1_S160000x256_0_1 bcast_S256_S1x256_1 bcast_S1x256_S160000x256_0_1
          (mlpArr bcast_S512_S1x512_1 bcast_S1x512_S160000x512_0_1 bcast_S_S160000x512 bcast_S256_S1x256_1
            bcast_S1x256_S160000x256_0_1
            (concatenate S160000x768 1 [⟨S160000x256, xi⟩, ⟨S160000x256, xj⟩, ⟨S160000x256, ea⟩]
              concatenates_S160000x256_S160000x256_S160000x256_S160000x768_d1) w1 b1 w2 b2) g β) := rfl

/-- The node stage is the node array plus the normalisation chain of the perceptron's output on the node array and the
    aggregate laid side by side. -/
theorem refNode_split (x agg : (⟨S10000x256, .f32⟩ : BufTy).Contents (Elt Ideal))
    (w1 : (⟨S512x512, .f32⟩ : BufTy).Contents (Elt Ideal)) (b1 : (⟨S512, .f32⟩ : BufTy).Contents (Elt Ideal))
    (w2 : (⟨S512x256, .f32⟩ : BufTy).Contents (Elt Ideal)) (b2 g β : (⟨S256, .f32⟩ : BufTy).Contents (Elt Ideal)) :
    refNode (F := Ideal) x agg w1 b1 w2 b2 g β
      = addf x (lnArr reducesTo_S10000x256_S10000_d1 h_S_ bcast_S10000_S10000x1_0 bcast_S_S10000x1
          bcast_S10000x1_S10000x256_0_1 bcast_S256_S1x256_1 bcast_S1x256_S10000x256_0_1
          (mlpArr bcast_S512_S1x512_1 bcast_S1x512_S10000x512_0_1 bcast_S_S10000x512 bcast_S256_S1x256_1
            bcast_S1x256_S10000x256_0_1
            (concatenate S10000x512 1 [⟨S10000x256, x⟩, ⟨S10000x256, agg⟩]
              concatenates_S10000x256_S10000x256_S10000x512_d1) w1 b1 w2 b2) g β) := rfl

/-- On the extended reals the reference's edge stage is the specification's edge update. -/
theorem refEdge_eq (xi xj ea : (⟨S160000x256, .f32⟩ : BufTy).Contents (Elt Ideal))
    (w1 : (⟨S768x512, .f32⟩ : BufTy).Contents (Elt Ideal)) (b1 : (⟨S512, .f32⟩ : BufTy).Contents (Elt Ideal))
    (w2 : (⟨S512x256, .f32⟩ : BufTy).Contents (Elt Ideal)) (b2 g β : (⟨S256, .f32⟩ : BufTy).Contents (Elt Ideal)) :
    refEdge (F := Ideal) xi xj ea w1 b1 w2 b2 g β
      = Cert.Spec.edgeG (R := 160000) xi xj ea (Cert.Spec.mat w1) (Cert.Spec.vec b1) (Cert.Spec.mat w2) (Cert.Spec.vec b2)
          (Cert.Spec.vec g) (Cert.Spec.vec β) := by
  rw [refEdge_split]
  funext i
  obtain ⟨e, d, rfl⟩ : ∃ e d, i = ix2 e d := ⟨i 0, i 1, eq_ix2 i⟩
  rw [addf_apply, lnArr_apply, mlpArr_row, concat3_row]
  rfl

/-- On the extended reals the reference's node stage is the specification's node update. -/
theorem refNode_eq (x agg : (⟨S10000x256, .f32⟩ : BufTy).Contents (Elt Ideal))
    (w1 : (⟨S512x512, .f32⟩ : BufTy).Contents (Elt Ideal)) (b1 : (⟨S512, .f32⟩ : BufTy).Contents (Elt Ideal))
    (w2 : (⟨S512x256, .f32⟩ : BufTy).Contents (Elt Ideal)) (b2 g β : (⟨S256, .f32⟩ : BufTy).Contents (Elt Ideal)) :
    refNode (F := Ideal) x agg w1 b1 w2 b2 g β
      = Cert.Spec.nodeG (R := 10000) x agg (Cert.Spec.mat w1) (Cert.Spec.vec b1) (Cert.Spec.mat w2) (Cert.Spec.vec b2)
          (Cert.Spec.vec g) (Cert.Spec.vec β) := by
  rw [refNode_split]
  funext i
  obtain ⟨e, d, rfl⟩ : ∃ e d, i = ix2 e d := ⟨i 0, i 1, eq_ix2 i⟩
  rw [addf_apply, lnArr_apply, mlpArr_row, concat2_row]
  rfl

end Stages

end Cert.ReferenceIdeal.Stage

end
-- ==== Proof.lean ====
/-
  The certificate: a message-passing layer on a graph, the kernel's program against its array-library reference, on
  the extended reals.

  Both programs gather each edge's two endpoint rows of the node array, update every edge row by a two-layer
  perceptron with a rectifier followed by a layer normalisation and a residual (`Cert.Spec.edgeG`), add each updated
  edge row into its second endpoint's row (one shared host operation), and update every node row the same way from its
  own row and its aggregate (`Cert.Spec.nodeG`). The kernel's program does the two updates in two tiled regions, whose
  output arrays are the row-wise updates of the arrays they are entered with; the reference does them with whole-array
  operations, read at an index as the same row-wise functions. The gathers and the scatter-add are the same operations of
  the same arguments on both sides and are never opened.
-/
import proofs.«133940_j14731737825432_1_alg».proof.Defs
import proofs.«133940_j14731737825432_1_alg».proof.Proof.Gen.Kernel
import proofs.«133940_j14731737825432_1_alg».proof.Proof.Gen.Kernel.Frame
import proofs.«133940_j14731737825432_1_alg».proof.Proof.Gen.KernelIdeal
import proofs.«133940_j14731737825432_1_alg».proof.Proof.Gen.KernelIdeal.Frame
import proofs.«133940_j14731737825432_1_alg».proof.Proof.Gen.ReferenceIdeal
import proofs.«133940_j14731737825432_1_alg».proof.Proof.Gen.Pre_finite_inputs
import proofs.«133940_j14731737825432_1_alg».proof.Proof.KernelRun
import proofs.«133940_j14731737825432_1_alg».proof.Proof.KernelValue
import proofs.«133940_j14731737825432_1_alg».proof.Proof.RefRun
import proofs.«133940_j14731737825432_1_alg».proof.Proof.RefTerm
import proofs.«133940_j14731737825432_1_alg».proof.Proof.RefStageEq
import Idealize.ShloMosaic.Adequacy
import Idealize.ShloMosaic.Init

set_option maxRecDepth 16384
set_option maxHeartbeats 2000000

noncomputable section

namespace Cert.Proof

open Idealize.ShloMosaic Idealize.ShloMosaic.TcCoe Idealize.SL.Sem Idealize.ShloMosaic.StableHlo

/-! ## The two programs' results are the same functions of arguments that agree -/

section Agree

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The updated edge array: the reference's term is the row-wise edge update of its gathered rows, the kernel's
    program leaves the same update of the same rows. -/
theorem edge_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    after Cert.ReferenceIdeal.Run.ops (launchContents m' c) (Cert.ReferenceIdeal.main_v46 : DevRef Cert.ReferenceIdeal.τ Cert.ReferenceIdeal.sig)
      = Cert.KernelIdeal.Gen.W4 m ρ c (Proc.devRef .tc Cert.KernelIdeal.main_v22) := by
  rw [Cert.ReferenceIdeal.Term.out_edge, Cert.ReferenceIdeal.Stage.refEdge_eq, Cert.KernelIdeal.Value.W4_v22, Cert.KernelIdeal.Value.W2_v22, ← h0, ← h1, ← h2, ← h3, ← h4, ← h5, ← h6, ← h7, ← h8]
  rfl

/-- The updated node array: the same update of the node rows and of the aggregate of the updated edge rows. -/
theorem node_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hedge : after Cert.ReferenceIdeal.Run.ops (launchContents m' c) (Cert.ReferenceIdeal.main_v46 : DevRef Cert.ReferenceIdeal.τ Cert.ReferenceIdeal.sig)
      = Cert.KernelIdeal.Gen.W4 m ρ c (Proc.devRef .tc Cert.KernelIdeal.main_v22)) :
    after Cert.ReferenceIdeal.Run.ops (launchContents m' c) (Cert.ReferenceIdeal.main_v78 : DevRef Cert.ReferenceIdeal.τ Cert.ReferenceIdeal.sig)
      = Cert.KernelIdeal.Gen.W4 m ρ c (Proc.devRef .tc Cert.KernelIdeal.main_v30) := by
  rw [Cert.ReferenceIdeal.Term.out_node, Cert.ReferenceIdeal.Stage.refNode_eq, Cert.KernelIdeal.Value.W4_v30, ← Cert.KernelIdeal.Value.W4_v22, ← hedge, ← h0, ← h1, ← h9, ← h10, ← h11, ← h12, ← h13, ← h14]
  rfl

end Agree

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.Term.kept_0 _),
      (h c Cert.ReferenceIdeal.main_arg1).trans (Cert.ReferenceIdeal.Term.kept_1 _),
      (h c Cert.ReferenceIdeal.main_arg2).trans (Cert.ReferenceIdeal.Term.kept_2 _),
      (h c Cert.ReferenceIdeal.main_arg3).trans (Cert.ReferenceIdeal.Term.kept_3 _),
      (h c Cert.ReferenceIdeal.main_arg4).trans (Cert.ReferenceIdeal.Term.kept_4 _),
      (h c Cert.ReferenceIdeal.main_arg5).trans (Cert.ReferenceIdeal.Term.kept_5 _),
      (h c Cert.ReferenceIdeal.main_arg6).trans (Cert.ReferenceIdeal.Term.kept_6 _),
      (h c Cert.ReferenceIdeal.main_arg7).trans (Cert.ReferenceIdeal.Term.kept_7 _),
      (h c Cert.ReferenceIdeal.main_arg8).trans (Cert.ReferenceIdeal.Term.kept_8 _),
      (h c Cert.ReferenceIdeal.main_arg9).trans (Cert.ReferenceIdeal.Term.kept_9 _),
      (h c Cert.ReferenceIdeal.main_arg10).trans (Cert.ReferenceIdeal.Term.kept_10 _),
      (h c Cert.ReferenceIdeal.main_arg11).trans (Cert.ReferenceIdeal.Term.kept_11 _),
      (h c Cert.ReferenceIdeal.main_arg12).trans (Cert.ReferenceIdeal.Term.kept_12 _),
      (h c Cert.ReferenceIdeal.main_arg13).trans (Cert.ReferenceIdeal.Term.kept_13 _),
      (h c Cert.ReferenceIdeal.main_arg14).trans (Cert.ReferenceIdeal.Term.kept_14 _)⟩)
    (Cert.ReferenceIdeal.Run.run_main (F := Ideal) m ρ)

/-- From memories that agree on the arguments the two programs end with equal result arrays. -/
theorem algebraic : Cert.algebraic_KernelIdeal_ReferenceIdeal := by
  intro m ρ m' ρ' _ hagree
  refine ⟨fun c => Cert.KernelIdeal.Gen.W4 m ρ c (Proc.devRef .tc Cert.KernelIdeal.main_v30), fun c => Cert.KernelIdeal.Gen.W4 m ρ c (Proc.devRef .tc Cert.KernelIdeal.main_v22),
    Cert.KernelIdeal.Run.run_named m ρ, ?_⟩
  refine (θ_run Cert.ReferenceIdeal.defs _ _).mono (fun r h c => ?_) (Cert.ReferenceIdeal.Run.run_main (F := Ideal) m' ρ')
  obtain ⟨h0, h1, h2, h3, h4, h5, h6, h7, h8, h9, h10, h11, h12, h13, h14⟩ := hagree c
  have hedge := edge_agree m ρ m' c h0 h1 h2 h3 h4 h5 h6 h7 h8
  exact ⟨(h c Cert.ReferenceIdeal.main_v78).trans (node_agree m ρ m' c h0 h1 h9 h10 h11 h12 h13 h14 hedge),
      (h c Cert.ReferenceIdeal.main_v46).trans hedge,
      (h c Cert.ReferenceIdeal.main_arg0).trans (Cert.ReferenceIdeal.Term.kept_0 _),
      (h c Cert.ReferenceIdeal.main_arg1).trans (Cert.ReferenceIdeal.Term.kept_1 _),
      (h c Cert.ReferenceIdeal.main_arg2).trans (Cert.ReferenceIdeal.Term.kept_2 _),
      (h c Cert.ReferenceIdeal.main_arg3).trans (Cert.ReferenceIdeal.Term.kept_3 _),
      (h c Cert.ReferenceIdeal.main_arg4).trans (Cert.ReferenceIdeal.Term.kept_4 _),
      (h c Cert.ReferenceIdeal.main_arg5).trans (Cert.ReferenceIdeal.Term.kept_5 _),
      (h c Cert.ReferenceIdeal.main_arg6).trans (Cert.ReferenceIdeal.Term.kept_6 _),
      (h c Cert.ReferenceIdeal.main_arg7).trans (Cert.ReferenceIdeal.Term.kept_7 _),
      (h c Cert.ReferenceIdeal.main_arg8).trans (Cert.ReferenceIdeal.Term.kept_8 _),
      (h c Cert.ReferenceIdeal.main_arg9).trans (Cert.ReferenceIdeal.Term.kept_9 _),
      (h c Cert.ReferenceIdeal.main_arg10).trans (Cert.ReferenceIdeal.Term.kept_10 _),
      (h c Cert.ReferenceIdeal.main_arg11).trans (Cert.ReferenceIdeal.Term.kept_11 _),
      (h c Cert.ReferenceIdeal.main_arg12).trans (Cert.ReferenceIdeal.Term.kept_12 _),
      (h c Cert.ReferenceIdeal.main_arg13).trans (Cert.ReferenceIdeal.Term.kept_13 _),
      (h c Cert.ReferenceIdeal.main_arg14).trans (Cert.ReferenceIdeal.Term.kept_14 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
